-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S17 : Shape := ⟨1, ![17]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x2500 : Shape := ⟨2, ![512, 2500]⟩
abbrev S2500 : Shape := ⟨1, ![2500]⟩
abbrev S_ : Shape := ⟨0, ![]⟩
abbrev S16 : Shape := ⟨1, ![16]⟩
abbrev S1 : Shape := ⟨1, ![1]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x2500 : S_.BroadcastsInDim S512x2500 (![] : Fin 0 → Fin S512x2500.rank)
  reducesTo_S512x2500_S_d0_1 : S512x2500.ReducesTo [0, 1] S_
  bcast_S_S2500 : S_.BroadcastsInDim S2500 (![] : Fin 0 → Fin S2500.rank)
  reducesTo_S2500_S_d0 : S2500.ReducesTo [0] S_
  slices_S17_S16_1 : S17.Slices ![1] S16
  slices_S17_S16_0 : S17.Slices ![0] S16
  reducesTo_S16_S_d0 : S16.ReducesTo [0] S_
  slices_S17_S1_0 : S17.Slices ![0] S1
  shapeCasts_S1_S_ : S1.ShapeCasts S_

variable [Facts]

def fn_part3 {F : FTy → Type} [FloatOps F] (main_arg1 : IVec S17 32) (main_v48 : IVec S_ 1) (main_v49 : FVec F S2500 .f32) (main_v50 : FVec F S2500 .f32) : IVec S_ 1 :=
  let main_v51 : IVec S2500 1 := cmpf .olt main_v49 main_v50
  let main_c_19 : IVec S_ 1 := constantI S_ 1 1#1
  let main_v52 : IVec S_ 1 := (fun x v => Host.reduce IntOp.andi x v reducesTo_S2500_S_d0 h_S_) main_v51 main_c_19
  let main_v53 : IVec S_ 1 := andi main_v48 main_v52
  let main_v54 : IVec S16 32 := (extractStridedSlice S16 ![1] · slices_S17_S16_1) main_arg1
  let main_v55 : IVec S16 32 := (extractStridedSlice S16 ![0] · slices_S17_S16_0) main_arg1
  let main_v56 : IVec S16 1 := cmpi .sge main_v54 main_v55
  let main_c_20 : IVec S_ 1 := constantI S_ 1 1#1
  let main_v57 : IVec S_ 1 := (fun x v => Host.reduce IntOp.andi x v reducesTo_S16_S_d0 h_S_) main_v56 main_c_20
  let main_v58 : IVec S_ 1 := andi main_v53 main_v57
  let main_v59 : IVec S1 32 := (extractStridedSlice S1 ![0] · slices_S17_S1_0) main_arg1
  let main_v60 : IVec S_ 32 := shapeCast S_ main_v59 shapeCasts_S1_S_
  let main_c_21 : IVec S_ 32 := constantI S_ 32 0#32
  let main_v61 : IVec S_ 1 := cmpi .eq main_v60 main_c_21
  let main_v62 : IVec S_ 1 := andi main_v58 main_v61
  main_v62

def fn_part2 {F : FTy → Type} [FloatOps F] (main_arg1 : IVec S17 32) (main_arg8 : FVec F S256x512 .f32) (main_arg9 : FVec F S512 .f32) (main_arg10 : FVec F S512x2500 .f32) (main_arg11 : FVec F S2500 .f32) (main_v33 : IVec S_ 1) : IVec S_ 1 :=
  let main_v34 : FVec F S256x512 .f32 := Host.absf main_arg8
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x2500 .f32 := Host.absf main_arg10
  let main_cst_16 : FVec F S_ .f32 := constant S_ .f32 0x7F800000#32
  let main_v45 : FVec F S512x2500 .f32 := broadcastInDim S512x2500 ![] bcast_S_S512x2500 main_cst_16
  let main_v46 : IVec S512x2500 1 := cmpf .olt main_v44 main_v45
  let main_c_17 : IVec S_ 1 := constantI S_ 1 1#1
  let main_v47 : IVec S_ 1 := (fun x v => Host.reduce IntOp.andi x v reducesTo_S512x2500_S_d0_1 h_S_) main_v46 main_c_17
  let main_v48 : IVec S_ 1 := andi main_v43 main_v47
  let main_v49 : FVec F S2500 .f32 := Host.absf main_arg11
  let main_cst_18 : FVec F S_ .f32 := constant S_ .f32 0x7F800000#32
  let main_v50 : FVec F S2500 .f32 := broadcastInDim S2500 ![] bcast_S_S2500 main_cst_18
  fn_part3 (F := F) main_arg1 main_v48 main_v49 main_v50

def fn_part1 {F : FTy → Type} [FloatOps F] (main_arg1 : IVec S17 32) (main_arg5 : FVec F S128 .f32) (main_arg6 : FVec F S128x256 .f32) (main_arg7 : FVec F S256 .f32) (main_arg8 : FVec F S256x512 .f32) (main_arg9 : FVec F S512 .f32) (main_arg10 : FVec F S512x2500 .f32) (main_arg11 : FVec F S2500 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S16384x3 .f32) (main_arg1 : IVec S17 32) (main_arg2 : FVec F S3x64 .f32) (main_arg3 : FVec F S64 .f32) (main_arg4 : FVec F S64x128 .f32) (main_arg5 : FVec F S128 .f32) (main_arg6 : FVec F S128x256 .f32) (main_arg7 : FVec F S256 .f32) (main_arg8 : FVec F S256x512 .f32) (main_arg9 : FVec F S512 .f32) (main_arg10 : FVec F S512x2500 .f32) (main_arg11 : FVec F S2500 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg5 main_arg6 main_arg7 main_arg8 main_arg9 main_arg10 main_arg11 main_v13 main_v16
-- ==== Kernel.lean ====
abbrev S16384x3 : Shape := ⟨2, ![16384, 3]⟩
abbrev S17 : Shape := ⟨1, ![17]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x2500 : Shape := ⟨2, ![512, 2500]⟩
abbrev S2500 : Shape := ⟨1, ![2500]⟩
abbrev S_ : Shape := ⟨0, ![]⟩
abbrev S16384x1 : Shape := ⟨2, ![16384, 1]⟩
abbrev S16384x4 : Shape := ⟨2, ![16384, 4]⟩
abbrev S16384x8 : Shape := ⟨2, ![16384, 8]⟩
abbrev S1x64 : Shape := ⟨2, ![1, 64]⟩
abbrev S4x64 : Shape := ⟨2, ![4, 64]⟩
abbrev S8x64 : Shape := ⟨2, ![8, 64]⟩
abbrev S1x128 : Shape := ⟨2, ![1, 128]⟩
abbrev S7x128 : Shape := ⟨2, ![7, 128]⟩
abbrev S72x128 : Shape := ⟨2, ![72, 128]⟩
abbrev S1x256 : Shape := ⟨2, ![1, 256]⟩
abbrev S7x256 : Shape := ⟨2, ![7, 256]⟩
abbrev S136x256 : Shape := ⟨2, ![136, 256]⟩
abbrev S16 : Shape := ⟨1, ![16]⟩
abbrev S16x1 : Shape := ⟨2, ![16, 1]⟩
abbrev S1x512 : Shape := ⟨2, ![1, 512]⟩
abbrev S1x2500 : Shape := ⟨2, ![1, 2500]⟩
abbrev S16x2500 : Shape := ⟨2, ![16, 2500]⟩
abbrev S16384x72 : Shape := ⟨2, ![16384, 72]⟩
abbrev S16384x136 : Shape := ⟨2, ![16384, 136]⟩
abbrev S16384x64 : Shape := ⟨2, ![16384, 64]⟩
abbrev S16384x128 : Shape := ⟨2, ![16384, 128]⟩
abbrev S16384x256 : Shape := ⟨2, ![16384, 256]⟩
abbrev S16x16384 : Shape := ⟨2, ![16, 16384]⟩
abbrev S16x256 : Shape := ⟨2, ![16, 256]⟩
abbrev S16x512 : Shape := ⟨2, ![16, 512]⟩

abbrev nBuf : Space → Nat
  | .hbm => 50
  | .vmem => 14
  | .smem => 0
  | _ => 0

abbrev bufTy : (tb : Table) → Fin (tcTables nBuf tb) → BufTy
  | .hbm, ⟨0, _⟩ => ⟨S16384x3, .f32⟩
  | .hbm, ⟨1, _⟩ => ⟨S17, .i32⟩
  | .hbm, ⟨2, _⟩ => ⟨S3x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512x2500, .f32⟩
  | .hbm, ⟨11, _⟩ => ⟨S2500, .f32⟩
  | .hbm, ⟨12, _⟩ => ⟨S_, .f32⟩
  | .hbm, ⟨13, _⟩ => ⟨S16384x1, .f32⟩
  | .hbm, ⟨14, _⟩ => ⟨S_, .f32⟩
  | .hbm, ⟨15, _⟩ => ⟨S16384x4, .f32⟩
  | .hbm, ⟨16, _⟩ => ⟨S16384x8, .f32⟩
  | .hbm, ⟨17, _⟩ => ⟨S16384x8, .bf16⟩
  | .hbm, ⟨18, _⟩ => ⟨S1x64, .f32⟩
  | .hbm, ⟨19, _⟩ => ⟨S_, .f32⟩
  | .hbm, ⟨20, _⟩ => ⟨S4x64, .f32⟩
  | .hbm, ⟨21, _⟩ => ⟨S8x64, .f32⟩
  | .hbm, ⟨22, _⟩ => ⟨S8x64, .bf16⟩
  | .hbm, ⟨23, _⟩ => ⟨S1x128, .f32⟩
  | .hbm, ⟨24, _⟩ => ⟨S_, .f32⟩
  | .hbm, ⟨25, _⟩ => ⟨S7x128, .f32⟩
  | .hbm, ⟨26, _⟩ => ⟨S72x128, .f32⟩
  | .hbm, ⟨27, _⟩ => ⟨S72x128, .bf16⟩
  | .hbm, ⟨28, _⟩ => ⟨S1x256, .f32⟩
  | .hbm, ⟨29, _⟩ => ⟨S_, .f32⟩
  | .hbm, ⟨30, _⟩ => ⟨S7x256, .f32⟩
  | .hbm, ⟨31, _⟩ => ⟨S136x256, .f32⟩
  | .hbm, ⟨32, _⟩ => ⟨S136x256, .bf16⟩
  | .hbm, ⟨33, _⟩ => ⟨S16, .i32⟩
  | .hbm, ⟨34, _⟩ => ⟨S16x1, .i32⟩
  | .hbm, ⟨35, _⟩ => ⟨S16, .i32⟩
  | .hbm, ⟨36, _⟩ => ⟨S16x1, .i32⟩
  | .hbm, ⟨37, _⟩ => ⟨S16x1, .i32⟩
  | .hbm, ⟨38, _⟩ => ⟨S16x1, .f32⟩
  | .hbm, ⟨39, _⟩ => ⟨S_, .f32⟩
  | .hbm, ⟨40, _⟩ => ⟨S16x1, .f32⟩
  | .hbm, ⟨41, _⟩ => ⟨S16x1, .f32⟩
  | .hbm, ⟨42, _⟩ => ⟨S_, .f32⟩
  | .hbm, ⟨43, _⟩ => ⟨S16x1, .f32⟩
  | .hbm, ⟨44, _⟩ => ⟨S16x1, .f32⟩
  | .hbm, ⟨45, _⟩ => ⟨S256x512, .bf16⟩
  | .hbm, ⟨46, _⟩ => ⟨S1x512, .f32⟩
  | .hbm, ⟨47, _⟩ => ⟨S512x2500, .bf16⟩
  | .hbm, ⟨48, _⟩ => ⟨S1x2500, .f32⟩
  | .hbm, ⟨49, _⟩ => ⟨S16x2500, .f32⟩
  | .local _ .vmem, ⟨0, _⟩ => ⟨S16x1, .i32⟩
  | .local _ .vmem, ⟨1, _⟩ => ⟨S16x1, .i32⟩
  | .local _ .vmem, ⟨2, _⟩ => ⟨S16x1, .f32⟩
  | .local _ .vmem, ⟨3, _⟩ => ⟨S16384x8, .bf16⟩
  | .local _ .vmem, ⟨4, _⟩ => ⟨S8x64, .bf16⟩
  | .local _ .vmem, ⟨5, _⟩ => ⟨S72x128, .bf16⟩
  | .local _ .vmem, ⟨6, _⟩ => ⟨S136x256, .bf16⟩
  | .local _ .vmem, ⟨7, _⟩ => ⟨S256x512, .bf16⟩
  | .local _ .vmem, ⟨8, _⟩ => ⟨S1x512, .f32⟩
  | .local _ .vmem, ⟨9, _⟩ => ⟨S512x2500, .bf16⟩
  | .local _ .vmem, ⟨10, _⟩ => ⟨S1x2500, .f32⟩
  | .local _ .vmem, ⟨11, _⟩ => ⟨S16x2500, .f32⟩
  | .local _ .vmem, ⟨12, _⟩ => ⟨S16384x72, .bf16⟩
  | .local _ .vmem, ⟨13, _⟩ => ⟨S16384x136, .bf16⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16384x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S72x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S136x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2500 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2500 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x2500 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  bcast_S_S16384x1 : S_.BroadcastsInDim S16384x1 (![] : Fin 0 → Fin S16384x1.rank)
  bcast_S_S16384x4 : S_.BroadcastsInDim S16384x4 (![] : Fin 0 → Fin S16384x4.rank)
  concatenates_S16384x3_S16384x1_S16384x4_S16384x8_d1 : Shape.Concatenates [S16384x3, S16384x1, S16384x4] S16384x8 1
  bitsLt_bf16_f32 : FTy.bits .bf16 < FTy.bits .f32
  bcast_S64_S1x64_1 : S64.BroadcastsInDim S1x64 (![1] : Fin 1 → Fin S1x64.rank)
  bcast_S_S4x64 : S_.BroadcastsInDim S4x64 (![] : Fin 0 → Fin S4x64.rank)
  concatenates_S3x64_S1x64_S4x64_S8x64_d0 : Shape.Concatenates [S3x64, S1x64, S4x64] S8x64 0
  bcast_S128_S1x128_1 : S128.BroadcastsInDim S1x128 (![1] : Fin 1 → Fin S1x128.rank)
  bcast_S_S7x128 : S_.BroadcastsInDim S7x128 (![] : Fin 0 → Fin S7x128.rank)
  concatenates_S64x128_S1x128_S7x128_S72x128_d0 : Shape.Concatenates [S64x128, S1x128, S7x128] S72x128 0
  bcast_S256_S1x256_1 : S256.BroadcastsInDim S1x256 (![1] : Fin 1 → Fin S1x256.rank)
  bcast_S_S7x256 : S_.BroadcastsInDim S7x256 (![] : Fin 0 → Fin S7x256.rank)
  concatenates_S128x256_S1x256_S7x256_S136x256_d0 : Shape.Concatenates [S128x256, S1x256, S7x256] S136x256 0
  slices_S17_S16_0 : S17.Slices ![0] S16
  shapeCasts_S16_S16x1 : S16.ShapeCasts S16x1
  slices_S17_S16_1 : S17.Slices ![1] S16
  bcast_S_S16x1 : S_.BroadcastsInDim S16x1 (![] : Fin 0 → Fin S16x1.rank)
  shapeCasts_S512_S1x512 : S512.ShapeCasts S1x512
  shapeCasts_S2500_S1x2500 : S2500.ShapeCasts S1x2500
  iota_S16384x8_d1_w32 : S16384x8.Iotas .tc 32 [1]
  natLt_1_32 : 1 < 32
  inb_S16384x72_S16384x8_0_64 : ∀ a, (![0, 64] : Fin 2 → Nat) a + S16384x8.size a ≤ S16384x72.size a
  h_S16384x8 : 0 < S16384x8.numel
  shapeCasts_S16384x8_S16384x8 : S16384x8.ShapeCasts S16384x8
  packedbf16_S16384x72_S16384x8_0_64 : (Rect.unit (s := S16384x72) ![0, 64] S16384x8.size inb_S16384x72_S16384x8_0_64).PackedRows (EltTy.packing .bf16)
  inb_S16384x136_S16384x8_0_128 : ∀ a, (![0, 128] : Fin 2 → Nat) a + S16384x8.size a ≤ S16384x136.size a
  packedbf16_S16384x136_S16384x8_0_128 : (Rect.unit (s := S16384x136) ![0, 128] S16384x8.size inb_S16384x136_S16384x8_0_128).PackedRows (EltTy.packing .bf16)
  inb_S16384x8_S16384x8_0_0 : ∀ a, (![0, 0] : Fin 2 → Nat) a + S16384x8.size a ≤ S16384x8.size a
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S16384x72_S16384x64_0_0 : ∀ a, (![0, 0] : Fin 2 → Nat) a + S16384x64.size a ≤ S16384x72.size a
  h_S16384x64 : 0 < S16384x64.numel
  shapeCasts_S16384x64_S16384x64 : S16384x64.ShapeCasts S16384x64
  packedbf16_S16384x72_S16384x64_0_0 : (Rect.unit (s := S16384x72) ![0, 0] S16384x64.size inb_S16384x72_S16384x64_0_0).PackedRows (EltTy.packing .bf16)
  inb_S16384x72_S16384x72_0_0 : ∀ a, (![0, 0] : Fin 2 → Nat) a + S16384x72.size a ≤ S16384x72.size a
  h_S16384x72 : 0 < S16384x72.numel
  inb_S72x128_S72x128_0_0 : ∀ a, (![0, 0] : Fin 2 → Nat) a + S72x128.size a ≤ S72x128.size a
  h_S72x128 : 0 < S72x128.numel
  shapeCasts_S72x128_S72x128 : S72x128.ShapeCasts S72x128
  inb_S16384x136_S16384x128_0_0 : ∀ a, (![0, 0] : Fin 2 → Nat) a + S16384x128.size a ≤ S16384x136.size a
  h_S16384x128 : 0 < S16384x128.numel
  shapeCasts_S16384x128_S16384x128 : S16384x128.ShapeCasts S16384x128
  packedbf16_S16384x136_S16384x128_0_0 : (Rect.unit (s := S16384x136) ![0, 0] S16384x128.size inb_S16384x136_S16384x128_0_0).PackedRows (EltTy.packing .bf16)
  inb_S16384x136_S16384x136_0_0 : ∀ a, (![0, 0] : Fin 2 → Nat) a + S16384x136.size a ≤ S16384x136.size a
  h_S16384x136 : 0 < S16384x136.numel
  inb_S136x256_S136x256_0_0 : ∀ a, (![0, 0] : Fin 2 → Nat) a + S136x256.size a ≤ S136x256.size a
  h_S136x256 : 0 < S136x256.numel
  shapeCasts_S136x256_S136x256 : S136x256.ShapeCasts S136x256
  iota_S16x16384_d1_w32 : S16x16384.Iotas .tc 32 [1]
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x16384 : S16x1.Broadcasts S16x16384
  broadcasts_S16x1_S16x256 : S16x1.Broadcasts S16x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S512x2500_S512x2500_0_0 : ∀ a, (![0, 0] : Fin 2 → Nat) a + S512x2500.size a ≤ S512x2500.size a
  h_S512x2500 : 0 < S512x2500.numel
  shapeCasts_S512x2500_S512x2500 : S512x2500.ShapeCasts S512x2500
  inb_S1x2500_S1x2500_0_0 : ∀ a, (![0, 0] : Fin 2 → Nat) a + S1x2500.size a ≤ S1x2500.size a
  h_S1x2500 : 0 < S1x2500.numel
  shapeCasts_S1x2500_S1x2500 : S1x2500.ShapeCasts S1x2500
  broadcasts_S1x2500_S16x2500 : S1x2500.Broadcasts S16x2500
  inb_S16x2500_S16x2500_0_0 : ∀ a, (![0, 0] : Fin 2 → Nat) a + S16x2500.size a ≤ S16x2500.size a
  h_S16x2500 : 0 < S16x2500.numel
  dot_S16384x8_S8x64_S16384x64_1_0_0_1_n_n_wf : DotDims.WF S16384x8 S8x64 S16384x64 [1] [0] [0] [1] [] []
  dot_S16384x72_S72x128_S16384x128_1_0_0_1_n_n_wf : DotDims.WF S16384x72 S72x128 S16384x128 [1] [0] [0] [1] [] []
  dot_S16384x136_S136x256_S16384x256_1_0_0_1_n_n_wf : DotDims.WF S16384x136 S136x256 S16384x256 [1] [0] [0] [1] [] []
  dot_S16x16384_S16384x256_S16x256_1_0_0_1_n_n_wf : DotDims.WF S16x16384 S16384x256 S16x256 [1] [0] [0] [1] [] []
  dot_S16x256_S256x512_S16x512_1_0_0_1_n_n_wf : DotDims.WF S16x256 S256x512 S16x512 [1] [0] [0] [1] [] []
  dot_S16x512_S512x2500_S16x2500_1_0_0_1_n_n_wf : DotDims.WF S16x512 S512x2500 S16x2500 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x1.size a ≤ S16x1.size a
  hwx0_0 : ∀ i : grid0.Coords, EltTy.bits .i32 = 32 ∨ (Rect.block (s := S16x1) S16x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S16x1.size a
  hwx0_1 : ∀ i : grid0.Coords, EltTy.bits .i32 = 32 ∨ (Rect.block (s := S16x1) S16x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S16384x8.size a ≤ S16384x8.size a
  hwx0_3 : ∀ i : grid0.Coords, EltTy.bits .bf16 = 32 ∨ (Rect.block (s := S16384x8) S16384x8.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S8x64.size a
  hwx0_4 : ∀ i : grid0.Coords, EltTy.bits .bf16 = 32 ∨ (Rect.block (s := S8x64) S8x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S72x128.size a ≤ S72x128.size a
  hwx0_5 : ∀ i : grid0.Coords, EltTy.bits .bf16 = 32 ∨ (Rect.block (s := S72x128) S72x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S136x256.size a ≤ S136x256.size a
  hwx0_6 : ∀ i : grid0.Coords, EltTy.bits .bf16 = 32 ∨ (Rect.block (s := S136x256) S136x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .bf16 = 32 ∨ (Rect.block (s := S256x512) S256x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x2500.size a ≤ S512x2500.size a
  hwx0_9 : ∀ i : grid0.Coords, EltTy.bits .bf16 = 32 ∨ (Rect.block (s := S512x2500) S512x2500.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2500.size a ≤ S1x2500.size a
  hwx0_10 : ∀ i : grid0.Coords, EltTy.bits .f32 = 32 ∨ (Rect.block (s := S1x2500) S1x2500.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x2500.size a ≤ S16x2500.size a
  hwx0_11 : ∀ i : grid0.Coords, EltTy.bits .f32 = 32 ∨ (Rect.block (s := S16x2500) S16x2500.size (cc0_transform_11 i) (hinb0_11 i)).WholeWords (EltTy.packing .f32)

variable [Facts₀]

def dot_S16384x8_S8x64_S16384x64_1_0_0_1_n_n : DotDims S16384x8 S8x64 S16384x64 where
  lhsContracting := [1]
  rhsContracting := [0]
  lhsNonContracting := [0]
  rhsNonContracting := [1]
  lhsBatch := []
  rhsBatch := []
  wf := dot_S16384x8_S8x64_S16384x64_1_0_0_1_n_n_wf
def dot_S16384x72_S72x128_S16384x128_1_0_0_1_n_n : DotDims S16384x72 S72x128 S16384x128 where
  lhsContracting := [1]
  rhsContracting := [0]
  lhsNonContracting := [0]
  rhsNonContracting := [1]
  lhsBatch := []
  rhsBatch := []
  wf := dot_S16384x72_S72x128_S16384x128_1_0_0_1_n_n_wf
def dot_S16384x136_S136x256_S16384x256_1_0_0_1_n_n : DotDims S16384x136 S136x256 S16384x256 where
  lhsContracting := [1]
  rhsContracting := [0]
  lhsNonContracting := [0]
  rhsNonContracting := [1]
  lhsBatch := []
  rhsBatch := []
  wf := dot_S16384x136_S136x256_S16384x256_1_0_0_1_n_n_wf
def dot_S16x16384_S16384x256_S16x256_1_0_0_1_n_n : DotDims S16x16384 S16384x256 S16x256 where
  lhsContracting := [1]
  rhsContracting := [0]
  lhsNonContracting := [0]
  rhsNonContracting := [1]
  lhsBatch := []
  rhsBatch := []
  wf := dot_S16x16384_S16384x256_S16x256_1_0_0_1_n_n_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S16x512_S512x2500_S16x2500_1_0_0_1_n_n : DotDims S16x512 S512x2500 S16x2500 where
  lhsContracting := [1]
  rhsContracting := [0]
  lhsNonContracting := [0]
  rhsNonContracting := [1]
  lhsBatch := []
  rhsBatch := []
  wf := dot_S16x512_S512x2500_S16x2500_1_0_0_1_n_n_wf

abbrev win0_0 : Pipeline.Window sig grid0 :=
  Pipeline.Window.ofSpec (Memref.whole main_v17) S16x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v19) S16x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16384x8.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S8x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S72x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S136x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S512x2500.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S1x2500.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S16x2500.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x3 : Shape := ⟨2, ![16384, 3]⟩
abbrev S17 : Shape := ⟨1, ![17]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x2500 : Shape := ⟨2, ![512, 2500]⟩
abbrev S2500 : Shape := ⟨1, ![2500]⟩
abbrev S16384x64 : Shape := ⟨2, ![16384, 64]⟩
abbrev S1x64 : Shape := ⟨2, ![1, 64]⟩
abbrev S_ : Shape := ⟨0, ![]⟩
abbrev S16384x128 : Shape := ⟨2, ![16384, 128]⟩
abbrev S1x128 : Shape := ⟨2, ![1, 128]⟩
abbrev S16384x256 : Shape := ⟨2, ![16384, 256]⟩
abbrev S1x256 : Shape := ⟨2, ![1, 256]⟩
abbrev S16384 : Shape := ⟨1, ![16384]⟩
abbrev S16384x1 : Shape := ⟨2, ![16384, 1]⟩
abbrev S16 : Shape := ⟨1, ![16]⟩
abbrev S1x16 : Shape := ⟨2, ![1, 16]⟩
abbrev S16384x16 : Shape := ⟨2, ![16384, 16]⟩
abbrev S16x256 : Shape := ⟨2, ![16, 256]⟩
abbrev S16x1 : Shape := ⟨2, ![16, 1]⟩
abbrev S16x512 : Shape := ⟨2, ![16, 512]⟩
abbrev S1x512 : Shape := ⟨2, ![1, 512]⟩
abbrev S16x2500 : Shape := ⟨2, ![16, 2500]⟩
abbrev S1x2500 : Shape := ⟨2, ![1, 2500]⟩

abbrev nBuf : Space → Nat
  | .hbm => 76
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S17, .i32⟩
  | .hbm, ⟨2, _⟩ => ⟨S3x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512x2500, .f32⟩
  | .hbm, ⟨11, _⟩ => ⟨S2500, .f32⟩
  | .hbm, ⟨12, _⟩ => ⟨S16384x64, .f32⟩
  | .hbm, ⟨13, _⟩ => ⟨S1x64, .f32⟩
  | .hbm, ⟨14, _⟩ => ⟨S16384x64, .f32⟩
  | .hbm, ⟨15, _⟩ => ⟨S16384x64, .f32⟩
  | .hbm, ⟨16, _⟩ => ⟨S_, .f32⟩
  | .hbm, ⟨17, _⟩ => ⟨S16384x64, .f32⟩
  | .hbm, ⟨18, _⟩ => ⟨S16384x64, .f32⟩
  | .hbm, ⟨19, _⟩ => ⟨S16384x128, .f32⟩
  | .hbm, ⟨20, _⟩ => ⟨S1x128, .f32⟩
  | .hbm, ⟨21, _⟩ => ⟨S16384x128, .f32⟩
  | .hbm, ⟨22, _⟩ => ⟨S16384x128, .f32⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S16384x256, .f32⟩
  | .hbm, ⟨27, _⟩ => ⟨S1x256, .f32⟩
  | .hbm, ⟨28, _⟩ => ⟨S16384x256, .f32⟩
  | .hbm, ⟨29, _⟩ => ⟨S16384x256, .f32⟩
  | .hbm, ⟨30, _⟩ => ⟨S_, .f32⟩
  | .hbm, ⟨31, _⟩ => ⟨S16384x256, .f32⟩
  | .hbm, ⟨32, _⟩ => ⟨S16384x256, .f32⟩
  | .hbm, ⟨33, _⟩ => ⟨S16384, .i32⟩
  | .hbm, ⟨34, _⟩ => ⟨S16384x1, .i32⟩
  | .hbm, ⟨35, _⟩ => ⟨S16, .i32⟩
  | .hbm, ⟨36, _⟩ => ⟨S1x16, .i32⟩
  | .hbm, ⟨37, _⟩ => ⟨S16384x16, .i32⟩
  | .hbm, ⟨38, _⟩ => ⟨S16384x16, .i32⟩
  | .hbm, ⟨39, _⟩ => ⟨S16384x16, .i1⟩
  | .hbm, ⟨40, _⟩ => ⟨S16384x16, .i32⟩
  | .hbm, ⟨41, _⟩ => ⟨S_, .i32⟩
  | .hbm, ⟨42, _⟩ => ⟨S16384, .i32⟩
  | .hbm, ⟨43, _⟩ => ⟨S_, .f32⟩
  | .hbm, ⟨44, _⟩ => ⟨S16x256, .f32⟩
  | .hbm, ⟨45, _⟩ => ⟨S16384x1, .i32⟩
  | .hbm, ⟨46, _⟩ => ⟨S16x256, .f32⟩
  | .hbm, ⟨47, _⟩ => ⟨S16, .i32⟩
  | .hbm, ⟨48, _⟩ => ⟨S16, .i32⟩
  | .hbm, ⟨49, _⟩ => ⟨S16, .i32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S16x1, .f32⟩
  | .hbm, ⟨55, _⟩ => ⟨S16x256, .f32⟩
  | .hbm, ⟨56, _⟩ => ⟨S16x256, .f32⟩
  | .hbm, ⟨57, _⟩ => ⟨S16x512, .f32⟩
  | .hbm, ⟨58, _⟩ => ⟨S1x512, .f32⟩
  | .hbm, ⟨59, _⟩ => ⟨S16x512, .f32⟩
  | .hbm, ⟨60, _⟩ => ⟨S16x512, .f32⟩
  | .hbm, ⟨61, _⟩ => ⟨S_, .f32⟩
  | .hbm, ⟨62, _⟩ => ⟨S16x512, .f32⟩
  | .hbm, ⟨63, _⟩ => ⟨S16x512, .f32⟩
  | .hbm, ⟨64, _⟩ => ⟨S16x2500, .f32⟩
  | .hbm, ⟨65, _⟩ => ⟨S1x2500, .f32⟩
  | .hbm, ⟨66, _⟩ => ⟨S16x2500, .f32⟩
  | .hbm, ⟨67, _⟩ => ⟨S16x2500, .f32⟩
  | .hbm, ⟨68, _⟩ => ⟨S16x2500, .f32⟩
  | .hbm, ⟨69, _⟩ => ⟨S16x2500, .f32⟩
  | .hbm, ⟨70, _⟩ => ⟨S_, .f32⟩
  | .hbm, ⟨71, _⟩ => ⟨S16x2500, .f32⟩
  | .hbm, ⟨72, _⟩ => ⟨S16x2500, .f32⟩
  | .hbm, ⟨73, _⟩ => ⟨S_, .f32⟩
  | .hbm, ⟨74, _⟩ => ⟨S16x2500, .f32⟩
  | .hbm, ⟨75, _⟩ => ⟨S16x2500, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call2_cst : Ref sig .tc := ⟨.hbm, 30, rfl⟩
abbrev main_call2_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call3_cst : Ref sig .tc := ⟨.hbm, 61, rfl⟩
abbrev main_call3_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_1 : Ref sig .tc := ⟨.hbm, 70, rfl⟩
abbrev main_v47 : Ref sig .tc := ⟨.hbm, 71, rfl⟩
abbrev main_v48 : Ref sig .tc := ⟨.hbm, 72, rfl⟩
abbrev main_cst_2 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S16384_S16384x1_0 : S16384.BroadcastsInDim S16384x1 (![0] : Fin 1 → Fin S16384x1.rank)
  slices_S17_S16_1 : S17.Slices ![1] S16
  bcast_S16_S1x16_1 : S16.BroadcastsInDim S1x16 (![1] : Fin 1 → Fin S1x16.rank)
  bcast_S16384x1_S16384x16_0_1 : S16384x1.BroadcastsInDim S16384x16 (![0, 1] : Fin 2 → Fin S16384x16.rank)
  bcast_S1x16_S16384x16_0_1 : S1x16.BroadcastsInDim S16384x16 (![0, 1] : Fin 2 → Fin S16384x16.rank)
  natLt_1_32 : 1 < 32
  reducesTo_S16384x16_S16384_d1 : S16384x16.ReducesTo [1] S16384
  h_S_ : 0 < S_.numel
  bcast_S_S16x256 : S_.BroadcastsInDim S16x256 (![] : Fin 0 → Fin S16x256.rank)
  slices_S17_S16_0 : S17.Slices ![0] S16
  bcast_S_S16 : S_.BroadcastsInDim S16 (![] : Fin 0 → Fin S16.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  bcast_S2500_S1x2500_1 : S2500.BroadcastsInDim S1x2500 (![1] : Fin 1 → Fin S1x2500.rank)
  bcast_S1x2500_S16x2500_0_1 : S1x2500.BroadcastsInDim S16x2500 (![0, 1] : Fin 2 → Fin S16x2500.rank)
  bcast_S_S16x2500 : S_.BroadcastsInDim S16x2500 (![] : Fin 0 → Fin S16x2500.rank)
  dot_S16384x3_S3x64_S16384x64_1_0_0_1_n_n_wf : DotDims.WF S16384x3 S3x64 S16384x64 [1] [0] [0] [1] [] []
  dot_S16384x64_S64x128_S16384x128_1_0_0_1_n_n_wf : DotDims.WF S16384x64 S64x128 S16384x128 [1] [0] [0] [1] [] []
  dot_S16384x128_S128x256_S16384x256_1_0_0_1_n_n_wf : DotDims.WF S16384x128 S128x256 S16384x256 [1] [0] [0] [1] [] []
  scatter_S16x256_S16384x1_S16384x256_1_0_0_1_wf : ScatterDims.WF S16x256 S16384x1 S16384x256 [1] [0] [0] 1
  dot_S16x256_S256x512_S16x512_1_0_0_1_n_n_wf : DotDims.WF S16x256 S256x512 S16x512 [1] [0] [0] [1] [] []
  dot_S16x512_S512x2500_S16x2500_1_0_0_1_n_n_wf : DotDims.WF S16x512 S512x2500 S16x2500 [1] [0] [0] [1] [] []

variable [Facts₀]

def dot_S16384x3_S3x64_S16384x64_1_0_0_1_n_n : DotDims S16384x3 S3x64 S16384x64 where
  lhsContracting := [1]
  rhsContracting := [0]
  lhsNonContracting := [0]
  rhsNonContracting := [1]
  lhsBatch := []
  rhsBatch := []
  wf := dot_S16384x3_S3x64_S16384x64_1_0_0_1_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def scatter_S16x256_S16384x1_S16384x256_1_0_0_1 : ScatterDims S16x256 S16384x1 S16384x256 where
  updateWindowDims := [1]
  insertedWindowDims := [0]
  scatterDimsToOperandDims := [0]
  indexVectorDim := 1
  wf := scatter_S16x256_S16384x1_S16384x256_1_0_0_1_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S16x512_S512x2500_S16x2500_1_0_0_1_n_n : DotDims S16x512 S512x2500 S16x2500 where
  lhsContracting := [1]
  rhsContracting := [0]
  lhsNonContracting := [0]
  rhsNonContracting := [1]
  lhsBatch := []
  rhsBatch := []
  wf := dot_S16x512_S512x2500_S16x2500_1_0_0_1_n_n_wf

class Facts : Prop extends Facts₀ where

variable [Facts]
-- ==== Proof.BFrameKit.lean ====
/-
  The launch side of the one kernel region of this program, up to the body.

  @main is a stretch of host operations and then the region. `V` is what every buffer holds when the region is entered
  (the host operations applied to the launch memory); no host operation writes an argument array, so the region finds
  the arguments as launched (`V_main_argK`). Each of the eleven input windows is one block, the whole of its array, and
  its staging buffer holds that block when the body runs (`beforeW_of`). A run that ends in the library's frame post
  leaves every argument array as launched (`frame_of`).
-/
import proofs.«151924_g39341900431964_cont_8to1_b_836_11_alg».proof.Proof.Gen.Kernel.Launch
import proofs.«151924_g39341900431964_cont_8to1_b_836_11_alg».proof.Proof.Gen.Kernel.Skeleton
import proofs.«151924_g39341900431964_cont_8to1_b_836_11_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the host operations applied to the launch memory. -/
abbrev V (c : Dev nD) (b : Ref sig .tc) : Buf (Elt F) ((c : Thread nD τ).loc b) :=
  StableHlo.after hostOps0 (fun b => m (c, b)) b

/-- No host operation of the stretch allocates. -/
theorem hostOps0_fresh : (hostOps0 : List (HloOp τ sig (Elt F))).Forall fun op => op.fresh = ∅ := by
  simp only [List.Forall]; repeat' constructor

/-- @main is the host stretch and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block when the body runs, for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block when the body runs, for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block when the body runs, for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block when the body runs, for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block when the body runs, for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block when the body runs, for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block when the body runs, for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block when the body runs, for any proof data over `V` whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block when the body runs, for any proof data over `V` whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block when the body runs, for any proof data over `V` whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block when the body runs, for any proof data over `V` whose body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

/-- A run to the library's frame post leaves the twelve argument arrays as launched: none is a window's array, so each is
    an unscoped buffer the region leaves as it found it, and it found it as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The memrefs the body is called with -/

abbrev ms0 (t : Fin cfg0.N) : Memref sig .tc .vmem S16x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16384x8 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x64 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S72x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S136x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x2500 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x2500 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S16x2500 .f32 := win0_11.stage (cfg0.slots t 11)
abbrev hs11 (t : Fin cfg0.N) : (ms11 t).IsWhole := hstage0_11 ((cfg0.slots t 11).cast nbuf0_11)
/-- The two scratch matrices: whole scoped buffers of the kernel's own. -/
abbrev scA : Memref sig .tc .vmem S16384x72 .bf16 := Memref.whole cc0_scratch0
abbrev scB : Memref sig .tc .vmem S16384x136 .bf16 := Memref.whole cc0_scratch1

/-- The region's invariant hands the body its two scratch matrices at some contents and the generator register, and takes
    them back at some contents. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.Kernel.KF

end
-- ==== Proof.BRun.lean ====
/-
  The body of the kernel, run once on whole buffers.

  With the eleven operand buffers at known contents, the output buffer and the two scratch matrices at any contents, and the
  grid coordinate zero (so that the branch that writes the unit columns is taken), the body runs to the end without a
  fault, leaves the operands as they were, the scratch matrices at some contents, and the output buffer with the pieces
  the run finds written over what it held. Those pieces cover the buffer (`cover`), so what it holds afterwards is a
  function of the operands alone (`bodyOut`).
-/
import proofs.«151924_g39341900431964_cont_8to1_b_836_11_alg».proof.Proof.BFrameKit

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch of the body that writes the unit columns is guarded by "the grid coordinate is zero". -/
abbrev cond0 (i : grid0.Coords) : Prop := (Scalar.cmpi .ne (Scalar.extui (Scalar.cmpi .eq (BitVec.ofNat 32 (i 0).val) 0#32)) 0#32) = 1#1

/-- It holds at the grid's one point. -/
theorem hcond0 : ∀ t : Fin cfg0.N, cond0 (grid0.coords t) :=
  (by decide +kernel : ∀ t : Fin grid0.N, cond0 (grid0.coords t))

/-- The grid coordinate, as the word the body reads, is zero at the grid's one point. -/
theorem coord_zero : ∀ t : Fin cfg0.N, BitVec.ofNat 32 ((grid0.coords t) 0).val = 0#32 :=
  (by decide +kernel : ∀ t : Fin grid0.N, BitVec.ofNat 32 ((grid0.coords t) 0).val = 0#32)

set_option maxHeartbeats 4000000 in
/-- The pieces the body's stores leave in the output buffer (the later store first), with the proof that the body runs as
    described above. -/
noncomputable def kernelRun (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S16384x8 .bf16) (harg4 : arg4.IsWhole) (arg5 : Memref sig .tc .vmem S8x64 .bf16) (harg5 : arg5.IsWhole) (arg6 : Memref sig .tc .vmem S72x128 .bf16) (harg6 : arg6.IsWhole) (arg7 : Memref sig .tc .vmem S136x256 .bf16) (harg7 : arg7.IsWhole) (arg8 : Memref sig .tc .vmem S256x512 .bf16) (harg8 : arg8.IsWhole) (arg9 : Memref sig .tc .vmem S1x512 .f32) (harg9 : arg9.IsWhole) (arg10 : Memref sig .tc .vmem S512x2500 .bf16) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16384x72 .bf16) (harg13 : arg13.IsWhole) (arg14 : Memref sig .tc .vmem S16384x136 .bf16) (harg14 : arg14.IsWhole) (hc : cond0 i)
    (x0 : Vec F S16x1 .i32) (x1 : Vec F S16x1 .i32) (x2 : Vec F S16x1 .f32) (x3 : Vec F S16384x8 .bf16) (x4 : Vec F S8x64 .bf16) (x5 : Vec F S72x128 .bf16) (x6 : Vec F S136x256 .bf16) (x7 : Vec F S256x512 .bf16) (x8 : Vec F S1x512 .f32) (x9 : Vec F S512x2500 .bf16) (x10 : Vec F S1x2500 .f32) :
    { L : List (View.Piece (Elt F) S16x2500 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L) ∗ (∃ d, owns (c : Thread nD τ) arg13 fullShare d) ∗ (∃ d, owns (c : Thread nD τ) arg14 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__body_eq_skeleton]; unfold cc0__body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [HS0]
    · iexists _, _; isplitr; swap; · iexact HS0
      ipureintro; rfl
    iexists _, _; isplitr; swap; · iexact HS1
    ipureintro; rfl

end Cert.Kernel.KF

end
-- ==== Proof.BFrame.lean ====
/-
  The frame of the program: every weakly fair execution of @main terminates without a fault and leaves the argument arrays
  as launched.

  The proof data of the one region: each window's array is what the region finds (`V`); after the body each input's staging
  buffer still holds its block and the output's holds what the body's stores left (`outAt`); the invariant is the region's
  own (the two scratch matrices at some contents, the generator register). The body obligation is the body's run at the
  grid's one point; the library's frame run and `frame_of` give the claim.
-/
import proofs.«151924_g39341900431964_cont_8to1_b_836_11_alg».proof.Proof.BRun

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output tile its block (one store of the whole block), so they cover it. -/
theorem cover (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S16384x8 .bf16) (harg4 : arg4.IsWhole) (arg5 : Memref sig .tc .vmem S8x64 .bf16) (harg5 : arg5.IsWhole) (arg6 : Memref sig .tc .vmem S72x128 .bf16) (harg6 : arg6.IsWhole) (arg7 : Memref sig .tc .vmem S136x256 .bf16) (harg7 : arg7.IsWhole) (arg8 : Memref sig .tc .vmem S256x512 .bf16) (harg8 : arg8.IsWhole) (arg9 : Memref sig .tc .vmem S1x512 .f32) (harg9 : arg9.IsWhole) (arg10 : Memref sig .tc .vmem S512x2500 .bf16) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16384x72 .bf16) (harg13 : arg13.IsWhole) (arg14 : Memref sig .tc .vmem S16384x136 .bf16) (harg14 : arg14.IsWhole) (hc : cond0 i)
    (x0 : Vec F S16x1 .i32) (x1 : Vec F S16x1 .i32) (x2 : Vec F S16x1 .f32) (x3 : Vec F S16384x8 .bf16) (x4 : Vec F S8x64 .bf16) (x5 : Vec F S72x128 .bf16) (x6 : Vec F S136x256 .bf16) (x7 : Vec F S256x512 .bf16) (x8 : Vec F S1x512 .f32) (x9 : Vec F S512x2500 .bf16) (x10 : Vec F S1x2500 .f32) (y : S16x2500.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10).1 S16x2500.size (by sl_kernel_rfl) y

/-- One staging buffer of the output window, through which its contents are stated (the choice does not matter). -/
abbrev VO : View sig .tc .vmem S16x2500 .f32 := (Memref.whole cc0_stg11_0 : Memref sig .tc .vmem S16x2500 .f32).view

/-- What the run leaves in the output's staging buffer: its pieces read back over junk. -/
def bodyOut (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S16384x8 .bf16) (harg4 : arg4.IsWhole) (arg5 : Memref sig .tc .vmem S8x64 .bf16) (harg5 : arg5.IsWhole) (arg6 : Memref sig .tc .vmem S72x128 .bf16) (harg6 : arg6.IsWhole) (arg7 : Memref sig .tc .vmem S136x256 .bf16) (harg7 : arg7.IsWhole) (arg8 : Memref sig .tc .vmem S256x512 .bf16) (harg8 : arg8.IsWhole) (arg9 : Memref sig .tc .vmem S1x512 .f32) (harg9 : arg9.IsWhole) (arg10 : Memref sig .tc .vmem S512x2500 .bf16) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16384x72 .bf16) (harg13 : arg13.IsWhole) (arg14 : Memref sig .tc .vmem S16384x136 .bf16) (harg14 : arg14.IsWhole) (hc : cond0 i)
    (x0 : Vec F S16x1 .i32) (x1 : Vec F S16x1 .i32) (x2 : Vec F S16x1 .f32) (x3 : Vec F S16384x8 .bf16) (x4 : Vec F S8x64 .bf16) (x5 : Vec F S72x128 .bf16) (x6 : Vec F S136x256 .bf16) (x7 : Vec F S256x512 .bf16) (x8 : Vec F S1x512 .f32) (x9 : Vec F S512x2500 .bf16) (x10 : Vec F S1x2500 .f32) : Vec F S16x2500 .f32 :=
  VO.read (Elt F) (VO.writes (Elt F) VO.junk (kernelRun c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10).1)

/-- What the output's staging buffer holds after the body at point `t`. -/
def outAt (c : Dev nD) (t : Fin cfg0.N) : Vec F S16x2500 .f32 :=
  bodyOut c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scA (Memref.isWhole_whole _) scB (Memref.isWhole_whole _) (hcond0 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = (outAt m c t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  rw [show (dats m 0 c).Φ t.castSucc = Pipeline.ΦA spec0 c from rfl, PhiA_eq]
  unfold outAt
  unfold bodyOut
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) _ _ _ _ _ _ _ _ _ _ _ _ _ _ _ _ _ _ _ _ _ _ _ _ _ _ _ _ (hcond0 t) (iblk m c 0 t) (iblk m c 1 t) (iblk m c 2 t) (iblk m c 3 t) (iblk m c 4 t) (iblk m c 5 t) (iblk m c 6 t) (iblk m c 7 t) (iblk m c 8 t) (iblk m c 9 t) (iblk m c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  iintro ⟨H0, H1, H2, H3, H4, H5, H6, H7, H8, H9, H10, ⟨%e11, H11⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover c _ _ _ _ _ _ _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.Kernel.KF

end
-- ==== Proof.KFrameKit.lean ====
/-
  The launch side of the one kernel region of this program, up to the body.

  @main is a stretch of host operations and then the region. `V` is what every buffer holds when the region is entered
  (the host operations applied to the launch memory); no host operation writes an argument array, so the region finds
  the arguments as launched (`V_main_argK`). Each of the eleven input windows is one block, the whole of its array, and
  its staging buffer holds that block when the body runs (`beforeW_of`). A run that ends in the library's frame post
  leaves every argument array as launched (`frame_of`).
-/
import proofs.«151924_g39341900431964_cont_8to1_b_836_11_alg».proof.Proof.Gen.KernelIdeal.Launch
import proofs.«151924_g39341900431964_cont_8to1_b_836_11_alg».proof.Proof.Gen.KernelIdeal.Skeleton
import proofs.«151924_g39341900431964_cont_8to1_b_836_11_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the host operations applied to the launch memory. -/
abbrev V (c : Dev nD) (b : Ref sig .tc) : Buf (Elt F) ((c : Thread nD τ).loc b) :=
  StableHlo.after hostOps0 (fun b => m (c, b)) b

/-- No host operation of the stretch allocates. -/
theorem hostOps0_fresh : (hostOps0 : List (HloOp τ sig (Elt F))).Forall fun op => op.fresh = ∅ := by
  simp only [List.Forall]; repeat' constructor

/-- @main is the host stretch and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block when the body runs, for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block when the body runs, for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block when the body runs, for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block when the body runs, for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block when the body runs, for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block when the body runs, for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block when the body runs, for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block when the body runs, for any proof data over `V` whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block when the body runs, for any proof data over `V` whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block when the body runs, for any proof data over `V` whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block when the body runs, for any proof data over `V` whose body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

/-- A run to the library's frame post leaves the twelve argument arrays as launched: none is a window's array, so each is
    an unscoped buffer the region leaves as it found it, and it found it as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The memrefs the body is called with -/

abbrev ms0 (t : Fin cfg0.N) : Memref sig .tc .vmem S16x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16384x8 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x64 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S72x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S136x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x2500 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x2500 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S16x2500 .f32 := win0_11.stage (cfg0.slots t 11)
abbrev hs11 (t : Fin cfg0.N) : (ms11 t).IsWhole := hstage0_11 ((cfg0.slots t 11).cast nbuf0_11)
/-- The two scratch matrices: whole scoped buffers of the kernel's own. -/
abbrev scA : Memref sig .tc .vmem S16384x72 .bf16 := Memref.whole cc0_scratch0
abbrev scB : Memref sig .tc .vmem S16384x136 .bf16 := Memref.whole cc0_scratch1

/-- The region's invariant hands the body its two scratch matrices at some contents and the generator register, and takes
    them back at some contents. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.KernelIdeal.KF

end
-- ==== Proof.KRun.lean ====
/-
  The body of the kernel, run once on whole buffers.

  With the eleven operand buffers at known contents, the output buffer and the two scratch matrices at any contents, and the
  grid coordinate zero (so that the branch that writes the unit columns is taken), the body runs to the end without a
  fault, leaves the operands as they were, the scratch matrices at some contents, and the output buffer with the pieces
  the run finds written over what it held. Those pieces cover the buffer (`cover`), so what it holds afterwards is a
  function of the operands alone (`bodyOut`).
-/
import proofs.«151924_g39341900431964_cont_8to1_b_836_11_alg».proof.Proof.KFrameKit

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch of the body that writes the unit columns is guarded by "the grid coordinate is zero". -/
abbrev cond0 (i : grid0.Coords) : Prop := (Scalar.cmpi .ne (Scalar.extui (Scalar.cmpi .eq (BitVec.ofNat 32 (i 0).val) 0#32)) 0#32) = 1#1

/-- It holds at the grid's one point. -/
theorem hcond0 : ∀ t : Fin cfg0.N, cond0 (grid0.coords t) :=
  (by decide +kernel : ∀ t : Fin grid0.N, cond0 (grid0.coords t))

/-- The grid coordinate, as the word the body reads, is zero at the grid's one point. -/
theorem coord_zero : ∀ t : Fin cfg0.N, BitVec.ofNat 32 ((grid0.coords t) 0).val = 0#32 :=
  (by decide +kernel : ∀ t : Fin grid0.N, BitVec.ofNat 32 ((grid0.coords t) 0).val = 0#32)

set_option maxHeartbeats 4000000 in
/-- The pieces the body's stores leave in the output buffer (the later store first), with the proof that the body runs as
    described above. -/
noncomputable def kernelRun (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S16384x8 .bf16) (harg4 : arg4.IsWhole) (arg5 : Memref sig .tc .vmem S8x64 .bf16) (harg5 : arg5.IsWhole) (arg6 : Memref sig .tc .vmem S72x128 .bf16) (harg6 : arg6.IsWhole) (arg7 : Memref sig .tc .vmem S136x256 .bf16) (harg7 : arg7.IsWhole) (arg8 : Memref sig .tc .vmem S256x512 .bf16) (harg8 : arg8.IsWhole) (arg9 : Memref sig .tc .vmem S1x512 .f32) (harg9 : arg9.IsWhole) (arg10 : Memref sig .tc .vmem S512x2500 .bf16) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16384x72 .bf16) (harg13 : arg13.IsWhole) (arg14 : Memref sig .tc .vmem S16384x136 .bf16) (harg14 : arg14.IsWhole) (hc : cond0 i)
    (x0 : Vec F S16x1 .i32) (x1 : Vec F S16x1 .i32) (x2 : Vec F S16x1 .f32) (x3 : Vec F S16384x8 .bf16) (x4 : Vec F S8x64 .bf16) (x5 : Vec F S72x128 .bf16) (x6 : Vec F S136x256 .bf16) (x7 : Vec F S256x512 .bf16) (x8 : Vec F S1x512 .f32) (x9 : Vec F S512x2500 .bf16) (x10 : Vec F S1x2500 .f32) :
    { L : List (View.Piece (Elt F) S16x2500 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L) ∗ (∃ d, owns (c : Thread nD τ) arg13 fullShare d) ∗ (∃ d, owns (c : Thread nD τ) arg14 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__body_eq_skeleton]; unfold cc0__body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [HS0]
    · iexists _, _; isplitr; swap; · iexact HS0
      ipureintro; rfl
    iexists _, _; isplitr; swap; · iexact HS1
    ipureintro; rfl

end Cert.KernelIdeal.KF

end
-- ==== Proof.KFrame.lean ====
/-
  The frame of the program: every weakly fair execution of @main terminates without a fault and leaves the argument arrays
  as launched.

  The proof data of the one region: each window's array is what the region finds (`V`); after the body each input's staging
  buffer still holds its block and the output's holds what the body's stores left (`outAt`); the invariant is the region's
  own (the two scratch matrices at some contents, the generator register). The body obligation is the body's run at the
  grid's one point; the library's frame run and `frame_of` give the claim.
-/
import proofs.«151924_g39341900431964_cont_8to1_b_836_11_alg».proof.Proof.KRun

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output tile its block (one store of the whole block), so they cover it. -/
theorem cover (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S16384x8 .bf16) (harg4 : arg4.IsWhole) (arg5 : Memref sig .tc .vmem S8x64 .bf16) (harg5 : arg5.IsWhole) (arg6 : Memref sig .tc .vmem S72x128 .bf16) (harg6 : arg6.IsWhole) (arg7 : Memref sig .tc .vmem S136x256 .bf16) (harg7 : arg7.IsWhole) (arg8 : Memref sig .tc .vmem S256x512 .bf16) (harg8 : arg8.IsWhole) (arg9 : Memref sig .tc .vmem S1x512 .f32) (harg9 : arg9.IsWhole) (arg10 : Memref sig .tc .vmem S512x2500 .bf16) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16384x72 .bf16) (harg13 : arg13.IsWhole) (arg14 : Memref sig .tc .vmem S16384x136 .bf16) (harg14 : arg14.IsWhole) (hc : cond0 i)
    (x0 : Vec F S16x1 .i32) (x1 : Vec F S16x1 .i32) (x2 : Vec F S16x1 .f32) (x3 : Vec F S16384x8 .bf16) (x4 : Vec F S8x64 .bf16) (x5 : Vec F S72x128 .bf16) (x6 : Vec F S136x256 .bf16) (x7 : Vec F S256x512 .bf16) (x8 : Vec F S1x512 .f32) (x9 : Vec F S512x2500 .bf16) (x10 : Vec F S1x2500 .f32) (y : S16x2500.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10).1 S16x2500.size (by sl_kernel_rfl) y

/-- One staging buffer of the output window, through which its contents are stated (the choice does not matter). -/
abbrev VO : View sig .tc .vmem S16x2500 .f32 := (Memref.whole cc0_stg11_0 : Memref sig .tc .vmem S16x2500 .f32).view

/-- What the run leaves in the output's staging buffer: its pieces read back over junk. -/
def bodyOut (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S16384x8 .bf16) (harg4 : arg4.IsWhole) (arg5 : Memref sig .tc .vmem S8x64 .bf16) (harg5 : arg5.IsWhole) (arg6 : Memref sig .tc .vmem S72x128 .bf16) (harg6 : arg6.IsWhole) (arg7 : Memref sig .tc .vmem S136x256 .bf16) (harg7 : arg7.IsWhole) (arg8 : Memref sig .tc .vmem S256x512 .bf16) (harg8 : arg8.IsWhole) (arg9 : Memref sig .tc .vmem S1x512 .f32) (harg9 : arg9.IsWhole) (arg10 : Memref sig .tc .vmem S512x2500 .bf16) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16384x72 .bf16) (harg13 : arg13.IsWhole) (arg14 : Memref sig .tc .vmem S16384x136 .bf16) (harg14 : arg14.IsWhole) (hc : cond0 i)
    (x0 : Vec F S16x1 .i32) (x1 : Vec F S16x1 .i32) (x2 : Vec F S16x1 .f32) (x3 : Vec F S16384x8 .bf16) (x4 : Vec F S8x64 .bf16) (x5 : Vec F S72x128 .bf16) (x6 : Vec F S136x256 .bf16) (x7 : Vec F S256x512 .bf16) (x8 : Vec F S1x512 .f32) (x9 : Vec F S512x2500 .bf16) (x10 : Vec F S1x2500 .f32) : Vec F S16x2500 .f32 :=
  VO.read (Elt F) (VO.writes (Elt F) VO.junk (kernelRun c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10).1)

/-- What the output's staging buffer holds after the body at point `t`. -/
def outAt (c : Dev nD) (t : Fin cfg0.N) : Vec F S16x2500 .f32 :=
  bodyOut c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scA (Memref.isWhole_whole _) scB (Memref.isWhole_whole _) (hcond0 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = (outAt m c t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  rw [show (dats m 0 c).Φ t.castSucc = Pipeline.ΦA spec0 c from rfl, PhiA_eq]
  unfold outAt
  unfold bodyOut
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) _ _ _ _ _ _ _ _ _ _ _ _ _ _ _ _ _ _ _ _ _ _ _ _ _ _ _ _ (hcond0 t) (iblk m c 0 t) (iblk m c 1 t) (iblk m c 2 t) (iblk m c 3 t) (iblk m c 4 t) (iblk m c 5 t) (iblk m c 6 t) (iblk m c 7 t) (iblk m c 8 t) (iblk m c 9 t) (iblk m c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  iintro ⟨H0, H1, H2, H3, H4, H5, H6, H7, H8, H9, H10, ⟨%e11, H11⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover c _ _ _ _ _ _ _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.KernelIdeal.KF

end
-- ==== Proof.KDefs.lean ====
/-
  The values the kernel works on, named.

  Before the one launch, the host builds the kernel's eleven operands from the arguments: the point rows with a column of
  ones and four columns of zeros appended (`aug0`); each of the first three weight matrices with its bias appended as one
  more row and zero rows below (`augW1`, `augW2`, `augW3`), so that a product with an operand whose extra column is 1
  adds the bias; the segment starts and ends as columns (`lower`, `upper`); one over each segment's length, at least one
  (`invCount`); the last two weight matrices and their biases as rows. The body keeps two scratch matrices: the first
  layer's activations with the unit column appended (`act1`), and the second layer's likewise (`act2`). The block the body
  stores is `kout`.
-/
import proofs.«151924_g39341900431964_cont_8to1_b_836_11_alg».proof.Proof.Gen.KernelIdeal.Skeleton
import Idealize.ShloMosaic.Lib.Pipeline.FrameBody

noncomputable section

namespace Cert.KernelIdeal.KV

open Idealize.ShloMosaic Idealize.SL.Sem Cert.KernelIdeal Cert.KernelIdeal.Gen

variable {F : FTy → Type} [FloatOps F]

/-! ## The operands the host prepares -/

/-- The rows `[x | 1 | 0 0 0 0]`. -/
def aug0 (x0 : FVec F S16384x3 .f32) : FVec F S16384x8 .bf16 :=
  truncf .bf16 (concatenate S16384x8 1 [⟨S16384x3, x0⟩, ⟨S16384x1, broadcastInDim S16384x1 ![] bcast_S_S16384x1 (constant S_ .f32 0x3F800000#32)⟩, ⟨S16384x4, broadcastInDim S16384x4 ![] bcast_S_S16384x4 (constant S_ .f32 0x00000000#32)⟩] concatenates_S16384x3_S16384x1_S16384x4_S16384x8_d1) bitsLt_bf16_f32

/-- `[W1; b1; 0]`, eight rows. -/
def augW1 (x2 : FVec F S3x64 .f32) (x3 : FVec F S64 .f32) : FVec F S8x64 .bf16 :=
  truncf .bf16 (concatenate S8x64 0 [⟨S3x64, x2⟩, ⟨S1x64, broadcastInDim S1x64 ![1] bcast_S64_S1x64_1 x3⟩, ⟨S4x64, broadcastInDim S4x64 ![] bcast_S_S4x64 (constant S_ .f32 0x00000000#32)⟩] concatenates_S3x64_S1x64_S4x64_S8x64_d0) bitsLt_bf16_f32

/-- `[W2; b2; 0]`, seventy-two rows. -/
def augW2 (x4 : FVec F S64x128 .f32) (x5 : FVec F S128 .f32) : FVec F S72x128 .bf16 :=
  truncf .bf16 (concatenate S72x128 0 [⟨S64x128, x4⟩, ⟨S1x128, broadcastInDim S1x128 ![1] bcast_S128_S1x128_1 x5⟩, ⟨S7x128, broadcastInDim S7x128 ![] bcast_S_S7x128 (constant S_ .f32 0x00000000#32)⟩] concatenates_S64x128_S1x128_S7x128_S72x128_d0) bitsLt_bf16_f32

/-- `[W3; b3; 0]`, one hundred and thirty-six rows. -/
def augW3 (x6 : FVec F S128x256 .f32) (x7 : FVec F S256 .f32) : FVec F S136x256 .bf16 :=
  truncf .bf16 (concatenate S136x256 0 [⟨S128x256, x6⟩, ⟨S1x256, broadcastInDim S1x256 ![1] bcast_S256_S1x256_1 x7⟩, ⟨S7x256, broadcastInDim S7x256 ![] bcast_S_S7x256 (constant S_ .f32 0x00000000#32)⟩] concatenates_S128x256_S1x256_S7x256_S136x256_d0) bitsLt_bf16_f32

/-- The segment starts `cu[0:16]` as a column. -/
def lower (x1 : IVec S17 32) : IVec S16x1 32 :=
  shapeCast S16x1 (extractStridedSlice S16 ![0] x1 slices_S17_S16_0) shapeCasts_S16_S16x1

/-- The segment ends `cu[1:17]` as a column. -/
def upper (x1 : IVec S17 32) : IVec S16x1 32 :=
  shapeCast S16x1 (extractStridedSlice S16 ![1] x1 slices_S17_S16_1) shapeCasts_S16_S16x1

/-- One over each segment's length, the length at least one. -/
def invCount (x1 : IVec S17 32) : FVec F S16x1 .f32 :=
  Host.divf (broadcastInDim S16x1 ![] bcast_S_S16x1 (constant S_ .f32 0x3F800000#32))
    (maximumf (sitofp .f32 (subi (upper x1) (lower x1))) (broadcastInDim S16x1 ![] bcast_S_S16x1 (constant S_ .f32 0x3F800000#32)))

def w4 (x8 : FVec F S256x512 .f32) : FVec F S256x512 .bf16 := truncf .bf16 x8 bitsLt_bf16_f32
def bias4 (x9 : FVec F S512 .f32) : FVec F S1x512 .f32 := shapeCast S1x512 x9 shapeCasts_S512_S1x512
def w5 (x10 : FVec F S512x2500 .f32) : FVec F S512x2500 .bf16 := truncf .bf16 x10 bitsLt_bf16_f32
def bias5 (x11 : FVec F S2500 .f32) : FVec F S1x2500 .f32 := shapeCast S1x2500 x11 shapeCasts_S2500_S1x2500

/-! ## The rectangles the body stores through -/

abbrev rA_lo : Rect S16384x72 := Rect.unit (s := S16384x72) ![0, 0] S16384x64.size inb_S16384x72_S16384x64_0_0
abbrev rA_hi : Rect S16384x72 := Rect.unit (s := S16384x72) ![0, 64] S16384x8.size inb_S16384x72_S16384x8_0_64
abbrev rB_lo : Rect S16384x136 := Rect.unit (s := S16384x136) ![0, 0] S16384x128.size inb_S16384x136_S16384x128_0_0
abbrev rB_hi : Rect S16384x136 := Rect.unit (s := S16384x136) ![0, 128] S16384x8.size inb_S16384x136_S16384x8_0_128

/-! ## The scratch matrices and the stored block -/

/-- The first scratch matrix when the second layer reads it: columns 0–63 the first layer's activations of the rows `a`
    and the weights `w`, columns 64–71 the unit column and zeros (the later store listed first). -/
def act1 (a : Vec F S16384x8 .bf16) (w : Vec F S8x64 .bf16) : Vec F S16384x72 .bf16 :=
  View.canon [⟨rA_lo, k0_pay4 a w⟩, ⟨rA_hi, k0_pay2 (F := F)⟩]

/-- The second scratch matrix when the third layer reads it: columns 0–127 the second layer's activations, columns
    128–135 the unit column and zeros. -/
def act2 (a : Vec F S16384x8 .bf16) (w : Vec F S8x64 .bf16) (w' : Vec F S72x128 .bf16) : Vec F S16384x136 .bf16 :=
  View.canon [⟨rB_lo, k0_pay5 (act1 a w) w'⟩, ⟨rB_hi, k0_pay3 (F := F)⟩]

/-- The third layer's activations, as the body holds them. -/
def act3 (a : Vec F S16384x8 .bf16) (w : Vec F S8x64 .bf16) (w' : Vec F S72x128 .bf16) (w'' : Vec F S136x256 .bf16) : FVec F S16384x256 .bf16 :=
  k0_pay6 (act2 a w w') w''

/-- The block the body stores at the one grid point, from the eleven operand blocks in window order. -/
def kout (lo up : Vec F S16x1 .i32) (ic : Vec F S16x1 .f32) (a : Vec F S16384x8 .bf16) (w : Vec F S8x64 .bf16) (w' : Vec F S72x128 .bf16)
    (w'' : Vec F S136x256 .bf16) (v4 : Vec F S256x512 .bf16) (c4 : Vec F S1x512 .f32) (v5 : Vec F S512x2500 .bf16) (c5 : Vec F S1x2500 .f32) :
    FVec F S16x2500 .f32 :=
  k0_pay7 0#32 (act3 a w w' w'') (iota .tc S16x16384 32 [1] iota_S16x16384_d1_w32) lo up ic v4 c4 v5 c5

end Cert.KernelIdeal.KV

end
-- ==== Proof.KValue.lean ====
/-
  What the program's result array holds after the run, as a function of what the region finds in its operand arrays.

  The block the body stores is `KV.kout` of the eleven operand blocks: the run's one piece is the store of the whole
  block, its payload the body's arithmetic over loads of whole buffers, the two scratch matrices read back as what their
  two stores left, the grid coordinate the word zero. Each window's one block is the whole of its array, so the result
  array ends holding `KV.kout` of the operand arrays (`final11`), and the frame run can be stated with the result named
  (`run_value`).
-/
import proofs.«151924_g39341900431964_cont_8to1_b_836_11_alg».proof.Proof.KFrame
import proofs.«151924_g39341900431964_cont_8to1_b_836_11_alg».proof.Proof.KDefs
import Idealize.ShloMosaic.Lib.Pipeline.Value

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- The two stores into the first scratch matrix (columns 0–63, columns 64–71) cover it. -/
theorem coverA (p : KV.rA_lo.shape.Idx → Elt F .bf16) (q : KV.rA_hi.shape.Idx → Elt F .bf16) :
    ∀ y : S16384x72.Idx, ∃ pc ∈ ([⟨KV.rA_lo, p⟩, ⟨KV.rA_hi, q⟩] : List (View.Piece (Elt F) S16384x72 .bf16)), y ∈ pc.1.set :=
  View.cover_of_tiledBy _ ![16384, 8] (by sl_kernel_rfl)

/-- The two stores into the second scratch matrix (columns 0–127, columns 128–135) cover it. -/
theorem coverB (p : KV.rB_lo.shape.Idx → Elt F .bf16) (q : KV.rB_hi.shape.Idx → Elt F .bf16) :
    ∀ y : S16384x136.Idx, ∃ pc ∈ ([⟨KV.rB_lo, p⟩, ⟨KV.rB_hi, q⟩] : List (View.Piece (Elt F) S16384x136 .bf16)), y ∈ pc.1.set :=
  View.cover_of_tiledBy _ ![16384, 8] (by sl_kernel_rfl)

set_option maxHeartbeats 2000000 in
/-- The block the body leaves is `KV.kout` of the operand blocks, when the grid coordinate is the word zero. -/
theorem bodyOut_eq (c : Dev nD) (i : grid0.Coords) (arg1 : Memref sig .tc .vmem S16x1 .i32) (harg1 : arg1.IsWhole) (arg2 : Memref sig .tc .vmem S16x1 .i32) (harg2 : arg2.IsWhole) (arg3 : Memref sig .tc .vmem S16x1 .f32) (harg3 : arg3.IsWhole) (arg4 : Memref sig .tc .vmem S16384x8 .bf16) (harg4 : arg4.IsWhole) (arg5 : Memref sig .tc .vmem S8x64 .bf16) (harg5 : arg5.IsWhole) (arg6 : Memref sig .tc .vmem S72x128 .bf16) (harg6 : arg6.IsWhole) (arg7 : Memref sig .tc .vmem S136x256 .bf16) (harg7 : arg7.IsWhole) (arg8 : Memref sig .tc .vmem S256x512 .bf16) (harg8 : arg8.IsWhole) (arg9 : Memref sig .tc .vmem S1x512 .f32) (harg9 : arg9.IsWhole) (arg10 : Memref sig .tc .vmem S512x2500 .bf16) (harg10 : arg10.IsWhole) (arg11 : Memref sig .tc .vmem S1x2500 .f32) (harg11 : arg11.IsWhole) (arg12 : Memref sig .tc .vmem S16x2500 .f32) (harg12 : arg12.IsWhole) (arg13 : Memref sig .tc .vmem S16384x72 .bf16) (harg13 : arg13.IsWhole) (arg14 : Memref sig .tc .vmem S16384x136 .bf16) (harg14 : arg14.IsWhole) (hc : cond0 i)
    (x0 : Vec F S16x1 .i32) (x1 : Vec F S16x1 .i32) (x2 : Vec F S16x1 .f32) (x3 : Vec F S16384x8 .bf16) (x4 : Vec F S8x64 .bf16) (x5 : Vec F S72x128 .bf16) (x6 : Vec F S136x256 .bf16) (x7 : Vec F S256x512 .bf16) (x8 : Vec F S1x512 .f32) (x9 : Vec F S512x2500 .bf16) (x10 : Vec F S1x2500 .f32) (hi : BitVec.ofNat 32 (i 0).val = 0#32) :
    bodyOut c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10 = KV.kout x0 x1 x2 x3 x4 x5 x6 x7 x8 x9 x10 := by
  unfold bodyOut
  rw [View.read_writes_eq_canon _ _ _ (cover c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 x10)]
  unfold kernelRun
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread,
    View.ld_unit_zero (S := S16x1) hz2, View.ld_unit_zero (S := S16384x8) hz2, View.ld_unit_zero (S := S8x64) hz2,
    View.ld_unit_zero (S := S72x128) hz2, View.ld_unit_zero (S := S136x256) hz2, View.ld_unit_zero (S := S256x512) hz2,
    View.ld_unit_zero (S := S1x512) hz2, View.ld_unit_zero (S := S512x2500) hz2, View.ld_unit_zero (S := S1x2500) hz2]
  rw [View.readCov_eq_canon_ld _ _ _ (coverA _ _)]
  simp only [View.ld_unit_zero (S := S16384x72) hz2]
  rw [View.readCov_eq_canon_ld _ _ _ (coverB _ _)]
  simp only [View.ld_unit_zero (S := S16384x136) hz2]
  rw [hi]
  rfl

/-! ## Each window's one block is its whole array -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)

theorem iblk0_eq (c : Dev nD) (t : Fin cfg0.N) : iblk m c 0 t = V m c main_v17 := by
  funext j
  show V m c main_v17 (((cfg0.win 0).blk t).view.emb j) = V m c main_v17 j
  congr 1
  funext a; apply Fin.ext
  obtain ⟨e0, e1⟩ := idx0 t
  match a with
  | ⟨0, _⟩ => show win0_0.index t (0 : Fin 2) * 16 + 1 * (j 0).val = (j 0).val; omega
  | ⟨1, _⟩ => show win0_0.index t (1 : Fin 2) * 1 + 1 * (j 1).val = (j 1).val; omega

theorem iblk1_eq (c : Dev nD) (t : Fin cfg0.N) : iblk m c 1 t = V m c main_v19 := by
  funext j
  show V m c main_v19 (((cfg0.win 1).blk t).view.emb j) = V m c main_v19 j
  congr 1
  funext a; apply Fin.ext
  obtain ⟨e0, e1⟩ := idx1 t
  match a with
  | ⟨0, _⟩ => show win0_1.index t (0 : Fin 2) * 16 + 1 * (j 0).val = (j 0).val; omega
  | ⟨1, _⟩ => show win0_1.index t (1 : Fin 2) * 1 + 1 * (j 1).val = (j 1).val; omega

theorem iblk2_eq (c : Dev nD) (t : Fin cfg0.N) : iblk m c 2 t = V m c main_v25 := by
  funext j
  show V m c main_v25 (((cfg0.win 2).blk t).view.emb j) = V m c main_v25 j
  congr 1
  funext a; apply Fin.ext
  obtain ⟨e0, e1⟩ := idx2 t
  match a with
  | ⟨0, _⟩ => show win0_2.index t (0 : Fin 2) * 16 + 1 * (j 0).val = (j 0).val; omega
  | ⟨1, _⟩ => show win0_2.index t (1 : Fin 2) * 1 + 1 * (j 1).val = (j 1).val; omega

theorem iblk3_eq (c : Dev nD) (t : Fin cfg0.N) : iblk m c 3 t = V m c main_v3 := by
  funext j
  show V m c main_v3 (((cfg0.win 3).blk t).view.emb j) = V m c main_v3 j
  congr 1
  funext a; apply Fin.ext
  obtain ⟨e0, e1⟩ := idx3 t
  match a with
  | ⟨0, _⟩ => show win0_3.index t (0 : Fin 2) * 16384 + 1 * (j 0).val = (j 0).val; omega
  | ⟨1, _⟩ => show win0_3.index t (1 : Fin 2) * 8 + 1 * (j 1).val = (j 1).val; omega

theorem iblk4_eq (c : Dev nD) (t : Fin cfg0.N) : iblk m c 4 t = V m c main_v7 := by
  funext j
  show V m c main_v7 (((cfg0.win 4).blk t).view.emb j) = V m c main_v7 j
  congr 1
  funext a; apply Fin.ext
  obtain ⟨e0, e1⟩ := idx4 t
  match a with
  | ⟨0, _⟩ => show win0_4.index t (0 : Fin 2) * 8 + 1 * (j 0).val = (j 0).val; omega
  | ⟨1, _⟩ => show win0_4.index t (1 : Fin 2) * 64 + 1 * (j 1).val = (j 1).val; omega

theorem iblk5_eq (c : Dev nD) (t : Fin cfg0.N) : iblk m c 5 t = V m c main_v11 := by
  funext j
  show V m c main_v11 (((cfg0.win 5).blk t).view.emb j) = V m c main_v11 j
  congr 1
  funext a; apply Fin.ext
  obtain ⟨e0, e1⟩ := idx5 t
  match a with
  | ⟨0, _⟩ => show win0_5.index t (0 : Fin 2) * 72 + 1 * (j 0).val = (j 0).val; omega
  | ⟨1, _⟩ => show win0_5.index t (1 : Fin 2) * 128 + 1 * (j 1).val = (j 1).val; omega

theorem iblk6_eq (c : Dev nD) (t : Fin cfg0.N) : iblk m c 6 t = V m c main_v15 := by
  funext j
  show V m c main_v15 (((cfg0.win 6).blk t).view.emb j) = V m c main_v15 j
  congr 1
  funext a; apply Fin.ext
  obtain ⟨e0, e1⟩ := idx6 t
  match a with
  | ⟨0, _⟩ => show win0_6.index t (0 : Fin 2) * 136 + 1 * (j 0).val = (j 0).val; omega
  | ⟨1, _⟩ => show win0_6.index t (1 : Fin 2) * 256 + 1 * (j 1).val = (j 1).val; omega

theorem iblk7_eq (c : Dev nD) (t : Fin cfg0.N) : iblk m c 7 t = V m c main_v26 := by
  funext j
  show V m c main_v26 (((cfg0.win 7).blk t).view.emb j) = V m c main_v26 j
  congr 1
  funext a; apply Fin.ext
  obtain ⟨e0, e1⟩ := idx7 t
  match a with
  | ⟨0, _⟩ => show win0_7.index t (0 : Fin 2) * 256 + 1 * (j 0).val = (j 0).val; omega
  | ⟨1, _⟩ => show win0_7.index t (1 : Fin 2) * 512 + 1 * (j 1).val = (j 1).val; omega

theorem iblk8_eq (c : Dev nD) (t : Fin cfg0.N) : iblk m c 8 t = V m c main_v27 := by
  funext j
  show V m c main_v27 (((cfg0.win 8).blk t).view.emb j) = V m c main_v27 j
  congr 1
  funext a; apply Fin.ext
  obtain ⟨e0, e1⟩ := idx8 t
  match a with
  | ⟨0, _⟩ => show win0_8.index t (0 : Fin 2) * 1 + 1 * (j 0).val = (j 0).val; omega
  | ⟨1, _⟩ => show win0_8.index t (1 : Fin 2) * 512 + 1 * (j 1).val = (j 1).val; omega

theorem iblk9_eq (c : Dev nD) (t : Fin cfg0.N) : iblk m c 9 t = V m c main_v28 := by
  funext j
  show V m c main_v28 (((cfg0.win 9).blk t).view.emb j) = V m c main_v28 j
  congr 1
  funext a; apply Fin.ext
  obtain ⟨e0, e1⟩ := idx9 t
  match a with
  | ⟨0, _⟩ => show win0_9.index t (0 : Fin 2) * 512 + 1 * (j 0).val = (j 0).val; omega
  | ⟨1, _⟩ => show win0_9.index t (1 : Fin 2) * 2500 + 1 * (j 1).val = (j 1).val; omega

theorem iblk10_eq (c : Dev nD) (t : Fin cfg0.N) : iblk m c 10 t = V m c main_v29 := by
  funext j
  show V m c main_v29 (((cfg0.win 10).blk t).view.emb j) = V m c main_v29 j
  congr 1
  funext a; apply Fin.ext
  obtain ⟨e0, e1⟩ := idx10 t
  match a with
  | ⟨0, _⟩ => show win0_10.index t (0 : Fin 2) * 1 + 1 * (j 0).val = (j 0).val; omega
  | ⟨1, _⟩ => show win0_10.index t (1 : Fin 2) * 2500 + 1 * (j 1).val = (j 1).val; omega

/-! ## The result array -/

/-- The stored block as a function of the operand arrays the region finds. -/
def Kfun (c : Dev nD) : S16x2500.Idx → Elt F .f32 :=
  KV.kout (V m c main_v17) (V m c main_v19) (V m c main_v25) (V m c main_v3) (V m c main_v7) (V m c main_v11) (V m c main_v15)
    (V m c main_v26) (V m c main_v27) (V m c main_v28) (V m c main_v29)

/-- What the grid's point writes back is `Kfun` read through its block. -/
theorem flushed11_eq (c : Dev nD) (t : Fin cfg0.N) :
    (dats m 0 c).flushed 11 t = ((cfg0.win 11).blk t).view.read (Elt F) (Kfun m c) := by
  show (cfg0.win 11).cut (grid0.coords t) ((dats m 0 c).after 11 t) = _
  rw [after11]
  unfold outAt
  rw [bodyOut_eq (hi := coord_zero t)]
  rw [iblk0_eq, iblk1_eq, iblk2_eq, iblk3_eq, iblk4_eq, iblk5_eq, iblk6_eq, iblk7_eq, iblk8_eq, iblk9_eq, iblk10_eq]
  funext j
  show Kfun m c j = Kfun m c (((cfg0.win 11).blk t).view.emb j)
  congr 1
  funext a; apply Fin.ext
  obtain ⟨e0, e1⟩ := idx11 t
  match a with
  | ⟨0, _⟩ => show (j 0).val = win0_11.index t (0 : Fin 2) * 16 + 1 * (j 0).val; omega
  | ⟨1, _⟩ => show (j 1).val = win0_11.index t (1 : Fin 2) * 2500 + 1 * (j 1).val; omega

/-- An index of the result array is in the point's block iff each coordinate is in the block's range. -/
theorem mem_blk11 (t : Fin cfg0.N) (i : S16x2500.Idx) :
    i ∈ ((cfg0.win 11).blk t).view.set ↔ ∀ a : Fin 2, win0_11.index t a * S16x2500.size a ≤ (i a).val ∧ (i a).val < win0_11.index t a * S16x2500.size a + S16x2500.size a := by
  show i ∈ ((View.whole main_v30).slice (win0_11.rect t)).set ↔ _
  rw [View.set_slice_whole, Rect.mem_set_unit]
  exact Iff.rfl

/-- The one block covers the result array. -/
theorem cover11 (i : S16x2500.Idx) : ∃ t : Fin cfg0.N, (cfg0.win 11).flush t = true ∧ i ∈ ((cfg0.win 11).blk t).view.set := by
  refine ⟨t0_0, flush0_11 t0_0, ?_⟩
  rw [mem_blk11]
  obtain ⟨e0, e1⟩ := idx11 t0_0
  have hi0 : (i 0).val < 16 := (i 0).isLt
  have hi1 : (i 1).val < 2500 := (i 1).isLt
  intro a
  match a with
  | ⟨0, _⟩ => show win0_11.index t0_0 (0 : Fin 2) * 16 ≤ (i 0).val ∧ (i 0).val < win0_11.index t0_0 (0 : Fin 2) * 16 + 16; omega
  | ⟨1, _⟩ => show win0_11.index t0_0 (1 : Fin 2) * 2500 ≤ (i 1).val ∧ (i 1).val < win0_11.index t0_0 (1 : Fin 2) * 2500 + 2500; omega

/-- The result array after the run. -/
theorem final11 (c : Dev nD) : (dats m 0 c).arrAt 11 cfg0.N = Kfun m c :=
  (dats m 0 c).arrAt_eq_of_cover 11 _ (fun t _ => flushed11_eq m c t) (cover11)

/-- The frame run with the result named: the result array at `Kfun`, the argument arrays as launched. -/
theorem run_value : θ_run defs (onTc (τ := τ) (main (F := F))) ⟨m, fun _ => 0, ρ⟩ (fun r => ∀ c : Dev nD,
      r.2.mem ((c.tc : Thread nD τ).loc main_v30) = Kfun m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).1 11).trans (final11 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

end Cert.KernelIdeal.KF

end
-- ==== Proof.KHost.lean ====
/-
  What the host operations of @main leave in the eleven arrays the kernel's input windows read.

  Before the one launch @main runs a stretch of host operations on the argument arrays. Each of the eleven arrays an
  input window reads is written by exactly one of them and by nothing after it, so what it holds when the region is
  entered is that operation's function applied to what ITS operands held, and so on back to the launch memory: the
  segment starts and ends as columns, one over each segment's length, the point rows and the first three weight matrices
  with their extra columns and rows, the last two weight matrices rounded, and their biases as rows.
-/
import proofs.«151924_g39341900431964_cont_8to1_b_836_11_alg».proof.Proof.KFrameKit
import proofs.«151924_g39341900431964_cont_8to1_b_836_11_alg».proof.Proof.KDefs
import Idealize.ShloMosaic.Lib.StableHlo.Run

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host operation over a LITERAL family of three operand arrays (a concatenation of three pieces) leaves in its
    result array its function of the three operands' contents, each read at its own array. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-! ## The segment bounds and the reciprocal lengths -/

/-- The array of segment starts: the first sixteen offsets as a column. -/
theorem V_main_v17 (c : Dev nD) : (V m c main_v17 : IVec S16x1 32) = KV.lower (m ((c : Thread nD τ).loc main_arg1)) := by
  dsimp only [V, hostOps0]
  after_results
  rfl

/-- The array of segment ends: the last sixteen offsets as a column. -/
theorem V_main_v19 (c : Dev nD) : (V m c main_v19 : IVec S16x1 32) = KV.upper (m ((c : Thread nD τ).loc main_arg1)) := by
  dsimp only [V, hostOps0]
  after_results
  rfl

/-- One over each segment's length, the length at least one. -/
theorem V_main_v25 (c : Dev nD) : (V m c main_v25 : FVec F S16x1 .f32) = KV.invCount (F := F) (m ((c : Thread nD τ).loc main_arg1)) := by
  dsimp only [V, hostOps0]
  after_results
  rfl

/-! ## The operands built by a concatenation of three pieces

Each is the rounding of a concatenation whose second and third pieces are themselves results of earlier host operations
(a broadcast bias or unit column, a broadcast zero constant): the three pieces are read each at its own array, and each is
then what the earlier operations left there. -/

set_option maxHeartbeats 1600000 in
/-- The point rows with a column of ones and four columns of zeros appended, rounded. -/
theorem V_main_v3 (c : Dev nD) : (V m c main_v3 : FVec F S16384x8 .bf16) = KV.aug0 (F := F) (m ((c : Thread nD τ).loc main_arg0)) := by
  dsimp only [V, hostOps0]
  simp only [StableHlo.after_cons, StableHlo.after_nil]
  repeat (first
    | rw [nary3_result]
    | rw [StableHlo.nullary_result] | rw [StableHlo.unary_result] | rw [StableHlo.binary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

set_option maxHeartbeats 1600000 in
/-- The first weight matrix with its bias as one more row and zero rows below, rounded. -/
theorem V_main_v7 (c : Dev nD) : (V m c main_v7 : FVec F S8x64 .bf16) = KV.augW1 (F := F) (m ((c : Thread nD τ).loc main_arg2)) (m ((c : Thread nD τ).loc main_arg3)) := by
  dsimp only [V, hostOps0]
  simp only [StableHlo.after_cons, StableHlo.after_nil]
  repeat (first
    | rw [nary3_result]
    | rw [StableHlo.nullary_result] | rw [StableHlo.unary_result] | rw [StableHlo.binary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

set_option maxHeartbeats 1600000 in
/-- The second weight matrix with its bias as one more row and zero rows below, rounded. -/
theorem V_main_v11 (c : Dev nD) : (V m c main_v11 : FVec F S72x128 .bf16) = KV.augW2 (F := F) (m ((c : Thread nD τ).loc main_arg4)) (m ((c : Thread nD τ).loc main_arg5)) := by
  dsimp only [V, hostOps0]
  simp only [StableHlo.after_cons, StableHlo.after_nil]
  repeat (first
    | rw [nary3_result]
    | rw [StableHlo.nullary_result] | rw [StableHlo.unary_result] | rw [StableHlo.binary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

set_option maxHeartbeats 1600000 in
/-- The third weight matrix with its bias as one more row and zero rows below, rounded. -/
theorem V_main_v15 (c : Dev nD) : (V m c main_v15 : FVec F S136x256 .bf16) = KV.augW3 (F := F) (m ((c : Thread nD τ).loc main_arg6)) (m ((c : Thread nD τ).loc main_arg7)) := by
  dsimp only [V, hostOps0]
  simp only [StableHlo.after_cons, StableHlo.after_nil]
  repeat (first
    | rw [nary3_result]
    | rw [StableHlo.nullary_result] | rw [StableHlo.unary_result] | rw [StableHlo.binary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

/-! ## The head's weights and biases -/

/-- The fourth weight matrix, rounded. -/
theorem V_main_v26 (c : Dev nD) : (V m c main_v26 : FVec F S256x512 .bf16) = KV.w4 (F := F) (m ((c : Thread nD τ).loc main_arg8)) := by
  dsimp only [V, hostOps0]
  after_results
  rfl

/-- The fourth bias as a row. -/
theorem V_main_v27 (c : Dev nD) : (V m c main_v27 : FVec F S1x512 .f32) = KV.bias4 (F := F) (m ((c : Thread nD τ).loc main_arg9)) := by
  dsimp only [V, hostOps0]
  after_results
  rfl

/-- The fifth weight matrix, rounded. -/
theorem V_main_v28 (c : Dev nD) : (V m c main_v28 : FVec F S512x2500 .bf16) = KV.w5 (F := F) (m ((c : Thread nD τ).loc main_arg10)) := by
  dsimp only [V, hostOps0]
  after_results
  rfl

/-- The fifth bias as a row. -/
theorem V_main_v29 (c : Dev nD) : (V m c main_v29 : FVec F S1x2500 .f32) = KV.bias5 (F := F) (m ((c : Thread nD τ).loc main_arg11)) := by
  dsimp only [V, hostOps0]
  after_results
  rfl

end Cert.KernelIdeal.KF

end
-- ==== Proof.Spec.lean ====
/-
  The common value of the two programs, as ONE function of the twelve argument arrays over the extended reals.

  A point cloud of 16384 rows in ℝ³ is cut into 16 contiguous segments by the cumulative offsets `cu 0 ≤ cu 1 ≤ … ≤ cu 16`
  (segment `s` is the rows `r` with `cu s ≤ r < cu (s+1)`). Every row goes through three dense layers with ReLU
  (3 → 64 → 128 → 256); the rows of a segment are summed and the sum is scaled by one over the segment's length (at least
  one); the sixteen pooled rows go through a dense layer with ReLU (256 → 512) and a dense layer (512 → 2500) followed by
  the logistic function.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `n` rows and `m` columns, and a vector of length `m`. -/
abbrev Mat (n m : Nat) : Type := (⟨2, ![n, m]⟩ : Shape).Idx → EReal
abbrev Vect (m : Nat) : Type := (⟨1, ![m]⟩ : Shape).Idx → EReal
/-- The seventeen cumulative offsets, as 32-bit words read signed. -/
abbrev Offsets : Type := IVec (⟨1, ![17]⟩ : Shape) 32

/-- An affine map: entry `(r, j)` of `x · w + b` is `∑ q, x[r, q] · w[q, j]` plus `b[j]`. -/
def affine {n k m : Nat} (x : Mat n k) (w : Mat k m) (b : Vect m) : Mat n m :=
  fun i => (∑ q : Fin k, x (ix2 (i 0) q) * w (ix2 q (i 1))) + b (ix1 (i 1))

/-- A dense layer with ReLU: `max (x · w + b) 0`, entry by entry. -/
def denseRelu {n k m : Nat} (x : Mat n k) (w : Mat k m) (b : Vect m) : Mat n m :=
  fun i => max (affine x w b i) 0

/-- The three per-row layers 3 → 64 → 128 → 256. -/
def rows (x0 : Mat 16384 3) (x2 : Mat 3 64) (x3 : Vect 64) (x4 : Mat 64 128) (x5 : Vect 128) (x6 : Mat 128 256) (x7 : Vect 256) :
    Mat 16384 256 :=
  denseRelu (denseRelu (denseRelu x0 x2 x3) x4 x5) x6 x7

/-- Row `r` lies in segment `s`: `cu s ≤ r < cu (s+1)`, the offsets read as signed integers. -/
def inSeg (cu : Offsets) (s : Fin 16) (r : Fin 16384) : Prop :=
  (cu (ix1 s.castSucc)).toInt ≤ (r.val : ℤ) ∧ (r.val : ℤ) < (cu (ix1 s.succ)).toInt

instance (cu : Offsets) (s : Fin 16) (r : Fin 16384) : Decidable (inSeg cu s r) := by unfold inSeg; infer_instance

/-- The sum over the rows of segment `s` of column `j`. -/
def segSumAt (cu : Offsets) (h : Mat 16384 256) (s : Fin 16) (j : Fin 256) : EReal :=
  ∑ r ∈ Finset.univ.filter (fun r : Fin 16384 => inSeg cu s r), h (ix2 r j)

/-- The sum of the rows of each segment. -/
def segSum (cu : Offsets) (h : Mat 16384 256) : Mat 16 256 :=
  fun i => segSumAt cu h (i 0) (i 1)

/-- The length of segment `s` as the programs compute it (a 32-bit difference read signed), but at least one. -/
def cnt (cu : Offsets) (s : Fin 16) : ℝ :=
  max (((IntOp.subi (cu (ix1 s.succ)) (cu (ix1 s.castSucc))).toInt : ℝ)) 1

theorem cnt_pos (cu : Offsets) (s : Fin 16) : 0 < cnt cu s := lt_of_lt_of_le one_pos (le_max_right _ _)
theorem cnt_ne_zero (cu : Offsets) (s : Fin 16) : cnt cu s ≠ 0 := (cnt_pos cu s).ne'

/-- The mean of each segment: its sum times one over its length. -/
def pooled (cu : Offsets) (h : Mat 16384 256) : Mat 16 256 :=
  fun i => segSum cu h i * (((1 / cnt cu (i 0) : ℝ)) : EReal)

/-- The head on the pooled rows: 256 → 512 with ReLU, 512 → 2500, the logistic function. -/
def head (cu : Offsets) (h : Mat 16384 256) (x8 : Mat 256 512) (x9 : Vect 512) (x10 : Mat 512 2500) (x11 : Vect 2500) : Mat 16 2500 :=
  fun i => Ideal.logistic (affine (denseRelu (pooled cu h) x8 x9) x10 x11 i)

/-- The whole function. -/
def G (x0 : Mat 16384 3) (x1 : Offsets) (x2 : Mat 3 64) (x3 : Vect 64) (x4 : Mat 64 128) (x5 : Vect 128) (x6 : Mat 128 256) (x7 : Vect 256)
    (x8 : Mat 256 512) (x9 : Vect 512) (x10 : Mat 512 2500) (x11 : Vect 2500) : Mat 16 2500 :=
  head x1 (rows x0 x2 x3 x4 x5 x6 x7) x8 x9 x10 x11

end Cert.Spec

end
-- ==== Proof.KLayer1.lean ====
/-
  The first layer as the kernel computes it equals the first dense layer of the specification.

  The kernel multiplies the augmented rows \`[x | 1 | 0 0 0 0]\` (eight columns) by the augmented weights \`[W1; b1; 0 0 0 0]\`
  (eight rows) into a zero accumulator and takes the maximum with zero. At an entry \`(p, q)\` the product is the sum over
  the eight contracted columns: the first three give \`∑ x[p, k] · W1[k, q]\`, the fourth gives \`1 · b1[q]\`, the last four
  give \`0 · 0\`. That is the affine map of the specification, and the maximum with zero is its ReLU.
-/
import proofs.«151924_g39341900431964_cont_8to1_b_836_11_alg».proof.Proof.KDefs
import proofs.«151924_g39341900431964_cont_8to1_b_836_11_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

open scoped BigOperators

namespace Cert.KernelIdeal.KBridge

open Idealize.ShloMosaic Idealize.ShloMosaic.ValueIdx Idealize.SL.Sem Cert.KernelIdeal Cert.KernelIdeal.Gen Cert.KernelIdeal.KV

/-! ## The augmented rows read at a column -/

/-- Columns 0, 1, 2 of the augmented rows are the point's coordinates. -/
theorem aug0_x (x0 : Cert.Spec.Mat 16384 3) (p : Fin 16384) (c : Fin 8) (k : Fin 3) (hk : k.val = c.val) :
    aug0 (F := Ideal) x0 (ix2 p c) = x0 (ix2 p k) := by
  unfold aug0
  rw [truncf_apply]
  refine concatenate_apply_piece (t := S16384x8) 1 _ _ (ix2 p c) 0 (by simp) S16384x3 x0 rfl rfl 0 rfl (ix2 p k) ?_ ?_
  · intro b hb
    match b with
    | ⟨0, _⟩ => rfl
    | ⟨1, _⟩ => exact absurd rfl hb
  · show 0 + k.val = c.val
    omega

/-- Column 3 of the augmented rows is the constant one. -/
theorem aug0_one (x0 : Cert.Spec.Mat 16384 3) (p : Fin 16384) (c : Fin 8) (hc : c.val = 3) :
    aug0 (F := Ideal) x0 (ix2 p c) = 1 := by
  unfold aug0
  rw [truncf_apply]
  refine (concatenate_apply_piece (t := S16384x8) 1 _ _ (ix2 p c) 1 (by simp) S16384x1 _ rfl rfl 3 rfl
    (ix2 p (0 : Fin 1)) ?_ ?_).trans ?_
  · intro b hb
    match b with
    | ⟨0, _⟩ => rfl
    | ⟨1, _⟩ => exact absurd rfl hb
  · show 3 + 0 = c.val
    omega
  · rw [broadcastInDim_apply _ bcast_S_S16384x1 _ _ ix0 (fun a => a.elim0), constant_apply]
    exact Ideal.ofBits_one_f32

/-- Columns 4 to 7 of the augmented rows are zero. -/
theorem aug0_zero (x0 : Cert.Spec.Mat 16384 3) (p : Fin 16384) (c : Fin 8) (k : Fin 4) (hk : 4 + k.val = c.val) :
    aug0 (F := Ideal) x0 (ix2 p c) = 0 := by
  unfold aug0
  rw [truncf_apply]
  refine (concatenate_apply_piece (t := S16384x8) 1 _ _ (ix2 p c) 2 (by simp) S16384x4 _ rfl rfl 4 rfl
    (ix2 p k) ?_ ?_).trans ?_
  · intro b hb
    match b with
    | ⟨0, _⟩ => rfl
    | ⟨1, _⟩ => exact absurd rfl hb
  · exact hk
  · rw [broadcastInDim_apply _ bcast_S_S16384x4 _ _ ix0 (fun a => a.elim0), constant_apply]
    exact Ideal.ofBits_zero_f32

/-! ## The augmented weights read at a row -/

/-- Rows 0, 1, 2 of the augmented weights are the weight matrix. -/
theorem augW1_w (x2 : Cert.Spec.Mat 3 64) (x3 : Cert.Spec.Vect 64) (c : Fin 8) (q : Fin 64) (k : Fin 3) (hk : k.val = c.val) :
    augW1 (F := Ideal) x2 x3 (ix2 c q) = x2 (ix2 k q) := by
  unfold augW1
  rw [truncf_apply]
  refine concatenate_apply_piece (t := S8x64) 0 _ _ (ix2 c q) 0 (by simp) S3x64 x2 rfl rfl 0 rfl (ix2 k q) ?_ ?_
  · intro b hb
    match b with
    | ⟨0, _⟩ => exact absurd rfl hb
    | ⟨1, _⟩ => rfl
  · show 0 + k.val = c.val
    omega

/-- Row 3 of the augmented weights is the bias. -/
theorem augW1_b (x2 : Cert.Spec.Mat 3 64) (x3 : Cert.Spec.Vect 64) (c : Fin 8) (q : Fin 64) (hc : c.val = 3) :
    augW1 (F := Ideal) x2 x3 (ix2 c q) = x3 (ix1 q) := by
  unfold augW1
  rw [truncf_apply]
  refine (concatenate_apply_piece (t := S8x64) 0 _ _ (ix2 c q) 1 (by simp) S1x64 _ rfl rfl 3 rfl
    (ix2 (0 : Fin 1) q) ?_ ?_).trans ?_
  · intro b hb
    match b with
    | ⟨0, _⟩ => exact absurd rfl hb
    | ⟨1, _⟩ => rfl
  · show 3 + 0 = c.val
    omega
  · exact broadcastInDim_apply _ bcast_S64_S1x64_1 x3 _ (ix1 q) (fun a => match a with
      | ⟨0, _⟩ => by show q.val = if (64 : Nat) = 1 then 0 else q.val; rw [if_neg (by decide)])

/-- Rows 4 to 7 of the augmented weights are zero. -/
theorem augW1_zero (x2 : Cert.Spec.Mat 3 64) (x3 : Cert.Spec.Vect 64) (c : Fin 8) (q : Fin 64) (k : Fin 4) (hk : 4 + k.val = c.val) :
    augW1 (F := Ideal) x2 x3 (ix2 c q) = 0 := by
  unfold augW1
  rw [truncf_apply]
  refine (concatenate_apply_piece (t := S8x64) 0 _ _ (ix2 c q) 2 (by simp) S4x64 _ rfl rfl 4 rfl
    (ix2 k q) ?_ ?_).trans ?_
  · intro b hb
    match b with
    | ⟨0, _⟩ => exact absurd rfl hb
    | ⟨1, _⟩ => rfl
  · exact hk
  · rw [broadcastInDim_apply _ bcast_S_S4x64 _ _ ix0 (fun a => a.elim0), constant_apply]
    exact Ideal.ofBits_zero_f32

/-! ## The product's operand indices -/

theorem lhs_pay4_0 (i : S16384x64.Idx) (q : dot_S16384x8_S8x64_S16384x64_1_0_0_1_n_n.contr.Idx) :
    (dot_S16384x8_S8x64_S16384x64_1_0_0_1_n_n.lhsIdx i q 0).val = (i 0).val := by
  unfold DotDims.lhsIdx
  rw [dif_neg (show ¬(0 : Fin S16384x8.rank) ∈ dot_S16384x8_S8x64_S16384x64_1_0_0_1_n_n.lhsBatch by decide), dif_pos (show (0 : Fin S16384x8.rank) ∈ dot_S16384x8_S8x64_S16384x64_1_0_0_1_n_n.lhsNonContracting by decide)]
  rfl
theorem lhs_pay4_1 (i : S16384x64.Idx) (q : dot_S16384x8_S8x64_S16384x64_1_0_0_1_n_n.contr.Idx) :
    (dot_S16384x8_S8x64_S16384x64_1_0_0_1_n_n.lhsIdx i q 1).val = (q ⟨0, by decide⟩).val :=
  dot_S16384x8_S8x64_S16384x64_1_0_0_1_n_n.lhsIdx_val_of_single rfl i q
theorem rhs_pay4_0 (i : S16384x64.Idx) (q : dot_S16384x8_S8x64_S16384x64_1_0_0_1_n_n.contr.Idx) :
    (dot_S16384x8_S8x64_S16384x64_1_0_0_1_n_n.rhsIdx i q 0).val = (q ⟨0, by decide⟩).val :=
  dot_S16384x8_S8x64_S16384x64_1_0_0_1_n_n.rhsIdx_val_of_single rfl i q
theorem rhs_pay4_1 (i : S16384x64.Idx) (q : dot_S16384x8_S8x64_S16384x64_1_0_0_1_n_n.contr.Idx) :
    (dot_S16384x8_S8x64_S16384x64_1_0_0_1_n_n.rhsIdx i q 1).val = (i 1).val := by
  unfold DotDims.rhsIdx
  rw [dif_neg (show ¬(1 : Fin S8x64.rank) ∈ dot_S16384x8_S8x64_S16384x64_1_0_0_1_n_n.rhsBatch by decide), dif_pos (show (1 : Fin S8x64.rank) ∈ dot_S16384x8_S8x64_S16384x64_1_0_0_1_n_n.rhsNonContracting by decide)]
  rfl

/-! ## The first layer's payload at an entry -/

/-- The payload at entry \`(p, q)\`: the maximum with zero of the sum over the eight contracted columns. -/
theorem pay4_apply (a : Vec Ideal S16384x8 .bf16) (w : Vec Ideal S8x64 .bf16) (p : Fin 16384) (q : Fin 64) :
    k0_pay4 (F := Ideal) a w (ix2 p q) = max (∑ k : Fin 8, a (ix2 p k) * w (ix2 k q)) 0 := by
  unfold k0_pay4
  simp only [shapeCast_self, matmul]
  show max (FloatOps.matmul dot_S16384x8_S8x64_S16384x64_1_0_0_1_n_n none a w (constant S16384x64 .f32 0x00000000#32) (ix2 p q))
    (Ideal.ofBits .f32 0x00000000#32) = _
  rw [Ideal.matmul_constant_zero_apply, Ideal.ofBits_zero_f32,
    ← Equiv.sum_comp (contrEquiv1 dot_S16384x8_S8x64_S16384x64_1_0_0_1_n_n 8 rfl rfl).symm]
  refine congrArg (max · 0) (Finset.sum_congr rfl fun k _ => ?_)
  have hk := contrEquiv1_symm_val dot_S16384x8_S8x64_S16384x64_1_0_0_1_n_n 8 rfl rfl k
  have el : dot_S16384x8_S8x64_S16384x64_1_0_0_1_n_n.lhsIdx (ix2 p q)
      ((contrEquiv1 dot_S16384x8_S8x64_S16384x64_1_0_0_1_n_n 8 rfl rfl).symm k) = ix2 p k := funext fun a => Fin.ext (by
    match a with
    | ⟨0, _⟩ => exact lhs_pay4_0 _ _
    | ⟨1, _⟩ => exact (lhs_pay4_1 _ _).trans hk)
  have er : dot_S16384x8_S8x64_S16384x64_1_0_0_1_n_n.rhsIdx (ix2 p q)
      ((contrEquiv1 dot_S16384x8_S8x64_S16384x64_1_0_0_1_n_n 8 rfl rfl).symm k) = ix2 k q := funext fun a => Fin.ext (by
    match a with
    | ⟨0, _⟩ => exact (rhs_pay4_0 _ _).trans hk
    | ⟨1, _⟩ => exact rhs_pay4_1 _ _)
  rw [el, er]

/-! ## The first layer -/

/-- The kernel's first layer on the augmented operands is the specification's first dense layer with ReLU. -/
theorem layer1 (x0 : Cert.Spec.Mat 16384 3) (x2 : Cert.Spec.Mat 3 64) (x3 : Cert.Spec.Vect 64) :
    Cert.KernelIdeal.Gen.k0_pay4 (F := Ideal) (Cert.KernelIdeal.KV.aug0 (F := Ideal) x0) (Cert.KernelIdeal.KV.augW1 (F := Ideal) x2 x3) = Cert.Spec.denseRelu x0 x2 x3 := by
  funext i
  obtain ⟨p, q, rfl⟩ : ∃ p q, i = ix2 p q := ⟨i 0, i 1, eq_ix2 i⟩
  rw [pay4_apply]
  show _ = max ((∑ k : Fin 3, x0 (ix2 p k) * x2 (ix2 k q)) + x3 (ix1 q)) 0
  refine congrArg (max · 0) ?_
  rw [Fin.sum_univ_eight, Fin.sum_univ_three,
    aug0_x x0 p 0 0 rfl, aug0_x x0 p 1 1 rfl, aug0_x x0 p 2 2 rfl, aug0_one x0 p 3 rfl,
    aug0_zero x0 p 4 0 rfl, aug0_zero x0 p 5 1 rfl, aug0_zero x0 p 6 2 rfl, aug0_zero x0 p 7 3 rfl,
    augW1_w x2 x3 0 q 0 rfl, augW1_w x2 x3 1 q 1 rfl, augW1_w x2 x3 2 q 2 rfl, augW1_b x2 x3 3 q rfl,
    augW1_zero x2 x3 4 q 0 rfl, augW1_zero x2 x3 5 q 1 rfl, augW1_zero x2 x3 6 q 2 rfl, augW1_zero x2 x3 7 q 3 rfl]
  simp only [one_mul, mul_zero, add_zero]

end Cert.KernelIdeal.KBridge

end
-- ==== Proof.KLayers23.lean ====
/-
  The second and third per-row layers of the kernel body, read as the specification's dense layers.

  Each of the two layers multiplies a scratch matrix by an augmented weight matrix and applies ReLU. The scratch matrix
  holds the previous layer's activations in its first columns, then one column of ones, then seven columns of zeros; the
  weight matrix holds the weights in its first rows, then the bias as one row, then seven rows of zeros. So the product
  at (r, j) is the sum over the activation columns of activation times weight, plus one times the bias, plus seven terms
  that vanish because the scratch matrix's entry is zero: the affine map of the specification.
-/
import proofs.«151924_g39341900431964_cont_8to1_b_836_11_alg».proof.Proof.KDefs
import proofs.«151924_g39341900431964_cont_8to1_b_836_11_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.KBridge

open Idealize.ShloMosaic Idealize.ShloMosaic.ValueIdx Idealize.SL.Sem Cert.KernelIdeal Cert.KernelIdeal.Gen Cert.KernelIdeal.KV

/-! ## An augmented row times an augmented column -/

/-- A row `[a | 1 | 0 … 0]` times a column `[w ; b ; …]`, both of length `n + 8`: the sum over the first `n` positions
    of `a · w`, plus `b`. The row is given by its values on the three ranges of positions, the column on the first two:
    what it holds below `b` does not matter, the row being zero there (`0 · x = 0` on the extended reals). -/
theorem sum_aug {m : Nat} (n : Nat) (hm : m = n + 8) (A B : Fin m → EReal) (a w : Fin n → EReal) (b : EReal)
    (hA : ∀ (k : Fin m) (hk : k.val < n), A k = a ⟨k.val, hk⟩)
    (hA1 : ∀ k : Fin m, k.val = n → A k = 1)
    (hA0 : ∀ k : Fin m, n < k.val → A k = 0)
    (hB : ∀ (k : Fin m) (hk : k.val < n), B k = w ⟨k.val, hk⟩)
    (hB1 : ∀ k : Fin m, k.val = n → B k = b) :
    ∑ k : Fin m, A k * B k = (∑ q : Fin n, a q * w q) + b := by
  subst hm
  rw [Fin.sum_univ_add]
  congr 1
  · refine Finset.sum_congr rfl fun q _ => ?_
    rw [hA (Fin.castAdd 8 q) q.isLt, hB (Fin.castAdd 8 q) q.isLt]
    rfl
  · rw [Fin.sum_univ_succ, Finset.sum_eq_zero, add_zero, hA1 _ (by simp), hB1 _ (by simp), one_mul]
    intro t _
    rw [hA0 _ (by simp), zero_mul]

/-! ## The unit column -/

/-- The word "position `t` is 0", widened to 32 bits and read signed, is 1 at `t = 0` and 0 at the other seven positions. -/
theorem unitWord (t : Fin 8) :
    ((IntOp.cmpi .eq (BitVec.ofNat 32 t.val) 0#32).setWidth 32).toInt = if t.val = 0 then 1 else 0 := by
  fin_cases t <;> rfl

/-- The eight appended columns, at (r, t): one at `t = 0`, zero elsewhere. -/
theorem k0_pay1_apply (p : Fin 16384) (t : Fin 8) : k0_pay1 (F := Ideal) (ix2 p t) = if t.val = 0 then 1 else 0 := by
  unfold k0_pay1
  show (((IntOp.cmpi .eq (iota .tc S16384x8 32 [1] iota_S16384x8_d1_w32 (ix2 p t)) 0#32).setWidth 32).toInt : ℝ) = (_ : EReal)
  rw [iota_single_apply]
  show ((((IntOp.cmpi .eq (BitVec.ofNat 32 t.val) 0#32).setWidth 32).toInt : ℝ) : EReal) = _
  rw [unitWord]
  split <;> simp

theorem k0_pay2_apply (p : Fin 16384) (t : Fin 8) : k0_pay2 (F := Ideal) (ix2 p t) = if t.val = 0 then 1 else 0 := by
  unfold k0_pay2
  rw [shapeCast_self]
  exact k0_pay1_apply p t

theorem k0_pay3_apply (p : Fin 16384) (t : Fin 8) : k0_pay3 (F := Ideal) (ix2 p t) = if t.val = 0 then 1 else 0 := by
  unfold k0_pay3
  rw [shapeCast_self]
  exact k0_pay1_apply p t

/-! ## The second layer's product read at an index -/

theorem lhs_second_0 (i : S16384x128.Idx) (q : dot_S16384x72_S72x128_S16384x128_1_0_0_1_n_n.contr.Idx) :
    (dot_S16384x72_S72x128_S16384x128_1_0_0_1_n_n.lhsIdx i q 0).val = (i 0).val := by
  unfold DotDims.lhsIdx
  rw [dif_neg (show ¬(0 : Fin S16384x72.rank) ∈ dot_S16384x72_S72x128_S16384x128_1_0_0_1_n_n.lhsBatch by decide), dif_pos (show (0 : Fin S16384x72.rank) ∈ dot_S16384x72_S72x128_S16384x128_1_0_0_1_n_n.lhsNonContracting by decide)]
  rfl
theorem lhs_second_1 (i : S16384x128.Idx) (q : dot_S16384x72_S72x128_S16384x128_1_0_0_1_n_n.contr.Idx) :
    (dot_S16384x72_S72x128_S16384x128_1_0_0_1_n_n.lhsIdx i q 1).val = (q ⟨0, by decide⟩).val :=
  dot_S16384x72_S72x128_S16384x128_1_0_0_1_n_n.lhsIdx_val_of_single rfl i q
theorem rhs_second_0 (i : S16384x128.Idx) (q : dot_S16384x72_S72x128_S16384x128_1_0_0_1_n_n.contr.Idx) :
    (dot_S16384x72_S72x128_S16384x128_1_0_0_1_n_n.rhsIdx i q 0).val = (q ⟨0, by decide⟩).val :=
  dot_S16384x72_S72x128_S16384x128_1_0_0_1_n_n.rhsIdx_val_of_single rfl i q
theorem rhs_second_1 (i : S16384x128.Idx) (q : dot_S16384x72_S72x128_S16384x128_1_0_0_1_n_n.contr.Idx) :
    (dot_S16384x72_S72x128_S16384x128_1_0_0_1_n_n.rhsIdx i q 1).val = (i 1).val := by
  unfold DotDims.rhsIdx
  rw [dif_neg (show ¬(1 : Fin S72x128.rank) ∈ dot_S16384x72_S72x128_S16384x128_1_0_0_1_n_n.rhsBatch by decide), dif_pos (show (1 : Fin S72x128.rank) ∈ dot_S16384x72_S72x128_S16384x128_1_0_0_1_n_n.rhsNonContracting by decide)]
  rfl

/-- The layer's payload at (r, j): the ReLU of the sum over the 72 contracted positions of the left operand's row `r`
    times the right operand's column `j` (the product accumulates into zero, and the format changes are the identity). -/
theorem k0_pay5_apply (u : Vec Ideal S16384x72 .bf16) (v : Vec Ideal S72x128 .bf16) (p : Fin 16384) (q : Fin 128) :
    k0_pay5 (F := Ideal) u v (ix2 p q) = max (∑ k : Fin 72, u (ix2 p k) * v (ix2 k q)) 0 := by
  unfold k0_pay5
  rw [shapeCast_self, shapeCast_self]
  show max (FloatOps.matmul dot_S16384x72_S72x128_S16384x128_1_0_0_1_n_n none u v (constant S16384x128 .f32 0x00000000#32) (ix2 p q)) (Ideal.ofBits .f32 0x00000000#32) = _
  rw [Ideal.matmul_constant_zero_apply, Ideal.ofBits_zero_f32,
    ← Equiv.sum_comp (contrEquiv1 dot_S16384x72_S72x128_S16384x128_1_0_0_1_n_n 72 rfl rfl).symm]
  congr 1
  refine Finset.sum_congr rfl fun k _ => ?_
  have hk := contrEquiv1_symm_val dot_S16384x72_S72x128_S16384x128_1_0_0_1_n_n 72 rfl rfl k
  have el : dot_S16384x72_S72x128_S16384x128_1_0_0_1_n_n.lhsIdx (ix2 p q) ((contrEquiv1 dot_S16384x72_S72x128_S16384x128_1_0_0_1_n_n 72 rfl rfl).symm k) = ix2 p k := funext fun a => Fin.ext (by
    match a with
    | ⟨0, _⟩ => exact lhs_second_0 _ _
    | ⟨1, _⟩ => exact (lhs_second_1 _ _).trans hk)
  have er : dot_S16384x72_S72x128_S16384x128_1_0_0_1_n_n.rhsIdx (ix2 p q) ((contrEquiv1 dot_S16384x72_S72x128_S16384x128_1_0_0_1_n_n 72 rfl rfl).symm k) = ix2 k q := funext fun a => Fin.ext (by
    match a with
    | ⟨0, _⟩ => exact (rhs_second_0 _ _).trans hk
    | ⟨1, _⟩ => exact rhs_second_1 _ _)
  rw [el, er]

/-! ## The first scratch matrix read at an index -/

/-- The left rectangle places (r, c) at (r, c). -/
theorem emb_first_lo (p : Fin 16384) (k : Fin 64) : rA_lo.emb (ix2 p k) = ix2 p (⟨k.val, by omega⟩ : Fin 72) := by
  funext a; apply Fin.ext
  match a with
  | ⟨0, _⟩ => show 0 + 1 * p.val = p.val; omega
  | ⟨1, _⟩ => show 0 + 1 * k.val = k.val; omega

/-- The right rectangle places (r, t) at (r, 64 + t). -/
theorem emb_first_hi (p : Fin 16384) (t : Fin 8) : rA_hi.emb (ix2 p t) = ix2 p (⟨64 + t.val, by omega⟩ : Fin 72) := by
  funext a; apply Fin.ext
  match a with
  | ⟨0, _⟩ => show 0 + 1 * p.val = p.val; omega
  | ⟨1, _⟩ => show 64 + 1 * t.val = 64 + t.val; omega

/-- A column from 64 on is outside the left rectangle. -/
theorem not_mem_first_lo (p : Fin 16384) (k : Fin 72) (hk : 64 ≤ k.val) : ix2 p k ∉ rA_lo.set := by
  rw [Rect.mem_set_unit]
  intro hm
  have h1 := (hm 1).2
  change k.val < 0 + 64 at h1
  omega

/-- Columns below 64 of the scratch matrix hold the activations stored through the left rectangle. -/
theorem canon_first_lo (h : Cert.Spec.Mat 16384 64) (p : Fin 16384) (k : Fin 64) :
    View.canon (Val := Elt Ideal) (e := .bf16) [⟨rA_lo, h⟩, ⟨rA_hi, k0_pay2 (F := Ideal)⟩] (ix2 p (⟨k.val, by omega⟩ : Fin 72)) = h (ix2 p k) := by
  have e := View.canon_cons_emb (Val := Elt Ideal) (e := .bf16) rA_lo h [⟨rA_hi, k0_pay2 (F := Ideal)⟩] (ix2 p k)
  rw [emb_first_lo p k] at e
  exact e

/-- Column 64 holds ones and columns 65 to 71 zeros: the unit column stored through the right rectangle. -/
theorem canon_first_hi (h : Cert.Spec.Mat 16384 64) (p : Fin 16384) (t : Fin 8) :
    View.canon (Val := Elt Ideal) (e := .bf16) [⟨rA_lo, h⟩, ⟨rA_hi, k0_pay2 (F := Ideal)⟩] (ix2 p (⟨64 + t.val, by omega⟩ : Fin 72))
      = if t.val = 0 then 1 else 0 := by
  have e := View.canon_cons_emb (Val := Elt Ideal) (e := .bf16) rA_hi (k0_pay2 (F := Ideal)) [] (ix2 p t)
  rw [emb_first_hi p t] at e
  exact (View.canon_cons_of_not_mem (⟨rA_lo, h⟩ : View.Piece (Elt Ideal) S16384x72 .bf16) [⟨rA_hi, k0_pay2 (F := Ideal)⟩]
    (not_mem_first_lo p _ (Nat.le_add_right _ _))).trans (e.trans (k0_pay2_apply p t))

/-! ## The second augmented weight matrix read at an index -/

/-- Rows below 64 are the weight matrix. -/
theorem augW2_lo (x4 : Cert.Spec.Mat 64 128) (x5 : Cert.Spec.Vect 128) (k : Fin 64) (q : Fin 128) :
    augW2 (F := Ideal) x4 x5 (ix2 (⟨k.val, by omega⟩ : Fin 72) q) = x4 (ix2 k q) := by
  unfold augW2
  show concatenate S72x128 0 [⟨S64x128, x4⟩, ⟨S1x128, broadcastInDim S1x128 ![1] bcast_S128_S1x128_1 x5⟩,
    ⟨S7x128, broadcastInDim S7x128 ![] bcast_S_S7x128 (constant (F := Ideal) S_ .f32 0x00000000#32)⟩] concatenates_S64x128_S1x128_S7x128_S72x128_d0 (ix2 (⟨k.val, by omega⟩ : Fin 72) q) = _
  exact concatenate_apply_piece (t := S72x128) (α := EReal) 0 [⟨S64x128, x4⟩, ⟨S1x128, broadcastInDim S1x128 ![1] bcast_S128_S1x128_1 x5⟩, ⟨S7x128, broadcastInDim S7x128 ![] bcast_S_S7x128 (constant (F := Ideal) S_ .f32 0x00000000#32)⟩] concatenates_S64x128_S1x128_S7x128_S72x128_d0 _ 0 (by simp) S64x128 x4 rfl rfl 0 rfl (ix2 k q)
    (fun b hb => match b with
      | ⟨0, _⟩ => absurd rfl hb
      | ⟨1, _⟩ => rfl)
    (Nat.zero_add _)

/-- Row 64 is the bias. -/
theorem augW2_bias (x4 : Cert.Spec.Mat 64 128) (x5 : Cert.Spec.Vect 128) (q : Fin 128) :
    augW2 (F := Ideal) x4 x5 (ix2 (⟨64, by omega⟩ : Fin 72) q) = x5 (ix1 q) := by
  unfold augW2
  show concatenate S72x128 0 [⟨S64x128, x4⟩, ⟨S1x128, broadcastInDim S1x128 ![1] bcast_S128_S1x128_1 x5⟩,
    ⟨S7x128, broadcastInDim S7x128 ![] bcast_S_S7x128 (constant (F := Ideal) S_ .f32 0x00000000#32)⟩] concatenates_S64x128_S1x128_S7x128_S72x128_d0 (ix2 (⟨64, by omega⟩ : Fin 72) q) = _
  refine (concatenate_apply_piece (t := S72x128) (α := EReal) 0 [⟨S64x128, x4⟩, ⟨S1x128, broadcastInDim S1x128 ![1] bcast_S128_S1x128_1 x5⟩, ⟨S7x128, broadcastInDim S7x128 ![] bcast_S_S7x128 (constant (F := Ideal) S_ .f32 0x00000000#32)⟩] concatenates_S64x128_S1x128_S7x128_S72x128_d0 _ 1 (by simp) S1x128 (broadcastInDim S1x128 ![1] bcast_S128_S1x128_1 x5) rfl rfl 64 rfl
    (ix2 (0 : Fin 1) q)
    (fun b hb => match b with
      | ⟨0, _⟩ => absurd rfl hb
      | ⟨1, _⟩ => rfl)
    rfl).trans ?_
  exact broadcastInDim_apply _ bcast_S128_S1x128_1 x5 (ix2 (0 : Fin 1) q) (ix1 q) (fun a => match a with
    | ⟨0, _⟩ => by show q.val = if (128 : Nat) = 1 then 0 else q.val; rw [if_neg (by decide)])

/-! ## The second layer -/

/-- The second layer: the product of the first scratch matrix (the activations `h`, then the unit column) with `[W2; b2; 0]`, under ReLU,
    is the specification's dense layer of `h` with weights `x4` and bias `x5`. -/
theorem layer2 (h : Cert.Spec.Mat 16384 64) (x4 : Cert.Spec.Mat 64 128) (x5 : Cert.Spec.Vect 128) :
    Cert.KernelIdeal.Gen.k0_pay5 (F := Ideal) (View.canon [⟨Cert.KernelIdeal.KV.rA_lo, h⟩, ⟨Cert.KernelIdeal.KV.rA_hi, Cert.KernelIdeal.Gen.k0_pay2 (F := Ideal)⟩]) (Cert.KernelIdeal.KV.augW2 (F := Ideal) x4 x5) = Cert.Spec.denseRelu h x4 x5 := by
  funext i
  obtain ⟨p, q, rfl⟩ : ∃ p q, i = ix2 p q := ⟨i 0, i 1, eq_ix2 i⟩
  rw [k0_pay5_apply]
  show max _ 0 = max (Cert.Spec.affine h x4 x5 (ix2 p q)) 0
  refine congrArg (fun z : EReal => max z 0) ?_
  show _ = (∑ k : Fin 64, h (ix2 p k) * x4 (ix2 k q)) + x5 (ix1 q)
  refine sum_aug 64 rfl
    (fun k : Fin 72 => View.canon (Val := Elt Ideal) (e := .bf16) [⟨rA_lo, h⟩, ⟨rA_hi, k0_pay2 (F := Ideal)⟩] (ix2 p k))
    (fun k : Fin 72 => augW2 (F := Ideal) x4 x5 (ix2 k q))
    (fun k => h (ix2 p k)) (fun k => x4 (ix2 k q)) (x5 (ix1 q)) ?_ ?_ ?_ ?_ ?_
  · intro k hk
    exact canon_first_lo h p ⟨k.val, hk⟩
  · rintro ⟨kv, hkv⟩ hk
    obtain rfl : kv = 64 := hk
    exact (canon_first_hi h p 0).trans (if_pos rfl)
  · rintro ⟨kv, hkv⟩ hk
    have hk' : 64 < kv := hk
    obtain ⟨t, rfl⟩ : ∃ t, kv = 64 + t := ⟨kv - 64, by omega⟩
    exact (canon_first_hi h p ⟨t, by omega⟩).trans (if_neg (by show ¬t = 0; omega))
  · intro k hk
    exact augW2_lo x4 x5 ⟨k.val, hk⟩ q
  · rintro ⟨kv, hkv⟩ hk
    obtain rfl : kv = 64 := hk
    exact augW2_bias x4 x5 q

/-! ## The third layer's product read at an index -/

theorem lhs_third_0 (i : S16384x256.Idx) (q : dot_S16384x136_S136x256_S16384x256_1_0_0_1_n_n.contr.Idx) :
    (dot_S16384x136_S136x256_S16384x256_1_0_0_1_n_n.lhsIdx i q 0).val = (i 0).val := by
  unfold DotDims.lhsIdx
  rw [dif_neg (show ¬(0 : Fin S16384x136.rank) ∈ dot_S16384x136_S136x256_S16384x256_1_0_0_1_n_n.lhsBatch by decide), dif_pos (show (0 : Fin S16384x136.rank) ∈ dot_S16384x136_S136x256_S16384x256_1_0_0_1_n_n.lhsNonContracting by decide)]
  rfl
theorem lhs_third_1 (i : S16384x256.Idx) (q : dot_S16384x136_S136x256_S16384x256_1_0_0_1_n_n.contr.Idx) :
    (dot_S16384x136_S136x256_S16384x256_1_0_0_1_n_n.lhsIdx i q 1).val = (q ⟨0, by decide⟩).val :=
  dot_S16384x136_S136x256_S16384x256_1_0_0_1_n_n.lhsIdx_val_of_single rfl i q
theorem rhs_third_0 (i : S16384x256.Idx) (q : dot_S16384x136_S136x256_S16384x256_1_0_0_1_n_n.contr.Idx) :
    (dot_S16384x136_S136x256_S16384x256_1_0_0_1_n_n.rhsIdx i q 0).val = (q ⟨0, by decide⟩).val :=
  dot_S16384x136_S136x256_S16384x256_1_0_0_1_n_n.rhsIdx_val_of_single rfl i q
theorem rhs_third_1 (i : S16384x256.Idx) (q : dot_S16384x136_S136x256_S16384x256_1_0_0_1_n_n.contr.Idx) :
    (dot_S16384x136_S136x256_S16384x256_1_0_0_1_n_n.rhsIdx i q 1).val = (i 1).val := by
  unfold DotDims.rhsIdx
  rw [dif_neg (show ¬(1 : Fin S136x256.rank) ∈ dot_S16384x136_S136x256_S16384x256_1_0_0_1_n_n.rhsBatch by decide), dif_pos (show (1 : Fin S136x256.rank) ∈ dot_S16384x136_S136x256_S16384x256_1_0_0_1_n_n.rhsNonContracting by decide)]
  rfl

/-- The layer's payload at (r, j): the ReLU of the sum over the 136 contracted positions of the left operand's row `r`
    times the right operand's column `j` (the product accumulates into zero, and the format changes are the identity). -/
theorem k0_pay6_apply (u : Vec Ideal S16384x136 .bf16) (v : Vec Ideal S136x256 .bf16) (p : Fin 16384) (q : Fin 256) :
    k0_pay6 (F := Ideal) u v (ix2 p q) = max (∑ k : Fin 136, u (ix2 p k) * v (ix2 k q)) 0 := by
  unfold k0_pay6
  rw [shapeCast_self]
  show max (FloatOps.matmul dot_S16384x136_S136x256_S16384x256_1_0_0_1_n_n none u v (constant S16384x256 .f32 0x00000000#32) (ix2 p q)) (Ideal.ofBits .f32 0x00000000#32) = _
  rw [Ideal.matmul_constant_zero_apply, Ideal.ofBits_zero_f32,
    ← Equiv.sum_comp (contrEquiv1 dot_S16384x136_S136x256_S16384x256_1_0_0_1_n_n 136 rfl rfl).symm]
  congr 1
  refine Finset.sum_congr rfl fun k _ => ?_
  have hk := contrEquiv1_symm_val dot_S16384x136_S136x256_S16384x256_1_0_0_1_n_n 136 rfl rfl k
  have el : dot_S16384x136_S136x256_S16384x256_1_0_0_1_n_n.lhsIdx (ix2 p q) ((contrEquiv1 dot_S16384x136_S136x256_S16384x256_1_0_0_1_n_n 136 rfl rfl).symm k) = ix2 p k := funext fun a => Fin.ext (by
    match a with
    | ⟨0, _⟩ => exact lhs_third_0 _ _
    | ⟨1, _⟩ => exact (lhs_third_1 _ _).trans hk)
  have er : dot_S16384x136_S136x256_S16384x256_1_0_0_1_n_n.rhsIdx (ix2 p q) ((contrEquiv1 dot_S16384x136_S136x256_S16384x256_1_0_0_1_n_n 136 rfl rfl).symm k) = ix2 k q := funext fun a => Fin.ext (by
    match a with
    | ⟨0, _⟩ => exact (rhs_third_0 _ _).trans hk
    | ⟨1, _⟩ => exact rhs_third_1 _ _)
  rw [el, er]

/-! ## The second scratch matrix read at an index -/

/-- The left rectangle places (r, c) at (r, c). -/
theorem emb_second_lo (p : Fin 16384) (k : Fin 128) : rB_lo.emb (ix2 p k) = ix2 p (⟨k.val, by omega⟩ : Fin 136) := by
  funext a; apply Fin.ext
  match a with
  | ⟨0, _⟩ => show 0 + 1 * p.val = p.val; omega
  | ⟨1, _⟩ => show 0 + 1 * k.val = k.val; omega

/-- The right rectangle places (r, t) at (r, 128 + t). -/
theorem emb_second_hi (p : Fin 16384) (t : Fin 8) : rB_hi.emb (ix2 p t) = ix2 p (⟨128 + t.val, by omega⟩ : Fin 136) := by
  funext a; apply Fin.ext
  match a with
  | ⟨0, _⟩ => show 0 + 1 * p.val = p.val; omega
  | ⟨1, _⟩ => show 128 + 1 * t.val = 128 + t.val; omega

/-- A column from 128 on is outside the left rectangle. -/
theorem not_mem_second_lo (p : Fin 16384) (k : Fin 136) (hk : 128 ≤ k.val) : ix2 p k ∉ rB_lo.set := by
  rw [Rect.mem_set_unit]
  intro hm
  have h1 := (hm 1).2
  change k.val < 0 + 128 at h1
  omega

/-- Columns below 128 of the scratch matrix hold the activations stored through the left rectangle. -/
theorem canon_second_lo (h : Cert.Spec.Mat 16384 128) (p : Fin 16384) (k : Fin 128) :
    View.canon (Val := Elt Ideal) (e := .bf16) [⟨rB_lo, h⟩, ⟨rB_hi, k0_pay3 (F := Ideal)⟩] (ix2 p (⟨k.val, by omega⟩ : Fin 136)) = h (ix2 p k) := by
  have e := View.canon_cons_emb (Val := Elt Ideal) (e := .bf16) rB_lo h [⟨rB_hi, k0_pay3 (F := Ideal)⟩] (ix2 p k)
  rw [emb_second_lo p k] at e
  exact e

/-- Column 128 holds ones and columns 129 to 135 zeros: the unit column stored through the right rectangle. -/
theorem canon_second_hi (h : Cert.Spec.Mat 16384 128) (p : Fin 16384) (t : Fin 8) :
    View.canon (Val := Elt Ideal) (e := .bf16) [⟨rB_lo, h⟩, ⟨rB_hi, k0_pay3 (F := Ideal)⟩] (ix2 p (⟨128 + t.val, by omega⟩ : Fin 136))
      = if t.val = 0 then 1 else 0 := by
  have e := View.canon_cons_emb (Val := Elt Ideal) (e := .bf16) rB_hi (k0_pay3 (F := Ideal)) [] (ix2 p t)
  rw [emb_second_hi p t] at e
  exact (View.canon_cons_of_not_mem (⟨rB_lo, h⟩ : View.Piece (Elt Ideal) S16384x136 .bf16) [⟨rB_hi, k0_pay3 (F := Ideal)⟩]
    (not_mem_second_lo p _ (Nat.le_add_right _ _))).trans (e.trans (k0_pay3_apply p t))

/-! ## The third augmented weight matrix read at an index -/

/-- Rows below 128 are the weight matrix. -/
theorem augW3_lo (x6 : Cert.Spec.Mat 128 256) (x7 : Cert.Spec.Vect 256) (k : Fin 128) (q : Fin 256) :
    augW3 (F := Ideal) x6 x7 (ix2 (⟨k.val, by omega⟩ : Fin 136) q) = x6 (ix2 k q) := by
  unfold augW3
  show concatenate S136x256 0 [⟨S128x256, x6⟩, ⟨S1x256, broadcastInDim S1x256 ![1] bcast_S256_S1x256_1 x7⟩,
    ⟨S7x256, broadcastInDim S7x256 ![] bcast_S_S7x256 (constant (F := Ideal) S_ .f32 0x00000000#32)⟩] concatenates_S128x256_S1x256_S7x256_S136x256_d0 (ix2 (⟨k.val, by omega⟩ : Fin 136) q) = _
  exact concatenate_apply_piece (t := S136x256) (α := EReal) 0 [⟨S128x256, x6⟩, ⟨S1x256, broadcastInDim S1x256 ![1] bcast_S256_S1x256_1 x7⟩, ⟨S7x256, broadcastInDim S7x256 ![] bcast_S_S7x256 (constant (F := Ideal) S_ .f32 0x00000000#32)⟩] concatenates_S128x256_S1x256_S7x256_S136x256_d0 _ 0 (by simp) S128x256 x6 rfl rfl 0 rfl (ix2 k q)
    (fun b hb => match b with
      | ⟨0, _⟩ => absurd rfl hb
      | ⟨1, _⟩ => rfl)
    (Nat.zero_add _)

/-- Row 128 is the bias. -/
theorem augW3_bias (x6 : Cert.Spec.Mat 128 256) (x7 : Cert.Spec.Vect 256) (q : Fin 256) :
    augW3 (F := Ideal) x6 x7 (ix2 (⟨128, by omega⟩ : Fin 136) q) = x7 (ix1 q) := by
  unfold augW3
  show concatenate S136x256 0 [⟨S128x256, x6⟩, ⟨S1x256, broadcastInDim S1x256 ![1] bcast_S256_S1x256_1 x7⟩,
    ⟨S7x256, broadcastInDim S7x256 ![] bcast_S_S7x256 (constant (F := Ideal) S_ .f32 0x00000000#32)⟩] concatenates_S128x256_S1x256_S7x256_S136x256_d0 (ix2 (⟨128, by omega⟩ : Fin 136) q) = _
  refine (concatenate_apply_piece (t := S136x256) (α := EReal) 0 [⟨S128x256, x6⟩, ⟨S1x256, broadcastInDim S1x256 ![1] bcast_S256_S1x256_1 x7⟩, ⟨S7x256, broadcastInDim S7x256 ![] bcast_S_S7x256 (constant (F := Ideal) S_ .f32 0x00000000#32)⟩] concatenates_S128x256_S1x256_S7x256_S136x256_d0 _ 1 (by simp) S1x256 (broadcastInDim S1x256 ![1] bcast_S256_S1x256_1 x7) rfl rfl 128 rfl
    (ix2 (0 : Fin 1) q)
    (fun b hb => match b with
      | ⟨0, _⟩ => absurd rfl hb
      | ⟨1, _⟩ => rfl)
    rfl).trans ?_
  exact broadcastInDim_apply _ bcast_S256_S1x256_1 x7 (ix2 (0 : Fin 1) q) (ix1 q) (fun a => match a with
    | ⟨0, _⟩ => by show q.val = if (256 : Nat) = 1 then 0 else q.val; rw [if_neg (by decide)])

/-! ## The third layer -/

/-- The third layer: the product of the second scratch matrix (the activations `h`, then the unit column) with `[W3; b3; 0]`, under ReLU,
    is the specification's dense layer of `h` with weights `x6` and bias `x7`. -/
theorem layer3 (h : Cert.Spec.Mat 16384 128) (x6 : Cert.Spec.Mat 128 256) (x7 : Cert.Spec.Vect 256) :
    Cert.KernelIdeal.Gen.k0_pay6 (F := Ideal) (View.canon [⟨Cert.KernelIdeal.KV.rB_lo, h⟩, ⟨Cert.KernelIdeal.KV.rB_hi, Cert.KernelIdeal.Gen.k0_pay3 (F := Ideal)⟩]) (Cert.KernelIdeal.KV.augW3 (F := Ideal) x6 x7) = Cert.Spec.denseRelu h x6 x7 := by
  funext i
  obtain ⟨p, q, rfl⟩ : ∃ p q, i = ix2 p q := ⟨i 0, i 1, eq_ix2 i⟩
  rw [k0_pay6_apply]
  show max _ 0 = max (Cert.Spec.affine h x6 x7 (ix2 p q)) 0
  refine congrArg (fun z : EReal => max z 0) ?_
  show _ = (∑ k : Fin 128, h (ix2 p k) * x6 (ix2 k q)) + x7 (ix1 q)
  refine sum_aug 128 rfl
    (fun k : Fin 136 => View.canon (Val := Elt Ideal) (e := .bf16) [⟨rB_lo, h⟩, ⟨rB_hi, k0_pay3 (F := Ideal)⟩] (ix2 p k))
    (fun k : Fin 136 => augW3 (F := Ideal) x6 x7 (ix2 k q))
    (fun k => h (ix2 p k)) (fun k => x6 (ix2 k q)) (x7 (ix1 q)) ?_ ?_ ?_ ?_ ?_
  · intro k hk
    exact canon_second_lo h p ⟨k.val, hk⟩
  · rintro ⟨kv, hkv⟩ hk
    obtain rfl : kv = 128 := hk
    exact (canon_second_hi h p 0).trans (if_pos rfl)
  · rintro ⟨kv, hkv⟩ hk
    have hk' : 128 < kv := hk
    obtain ⟨t, rfl⟩ : ∃ t, kv = 128 + t := ⟨kv - 128, by omega⟩
    exact (canon_second_hi h p ⟨t, by omega⟩).trans (if_neg (by show ¬t = 0; omega))
  · intro k hk
    exact augW3_lo x6 x7 ⟨k.val, hk⟩ q
  · rintro ⟨kv, hkv⟩ hk
    obtain rfl : kv = 128 := hk
    exact augW3_bias x6 x7 q

end Cert.KernelIdeal.KBridge

end
-- ==== Proof.KHead.lean ====
/-
  The head of the kernel body, as a value: the block the body stores equals the specification's head on the third
  layer's activations.

  The body numbers the 16384 rows along the second axis of a 16 × 16384 array; row r belongs to segment s when
  lower[s] ≤ r < upper[s] (signed 32-bit comparisons); the membership bit, widened and converted to a float, is one or
  zero; the product of that 0/1 matrix with the activations sums each segment's rows; the sums are scaled by one over the
  segment's length; two dense layers and the logistic function follow. Every truncation is the identity at the ideal
  values, and a product into a zero accumulator is the plain sum.
-/
import proofs.«151924_g39341900431964_cont_8to1_b_836_11_alg».proof.Proof.KDefs
import proofs.«151924_g39341900431964_cont_8to1_b_836_11_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate
import Idealize.ShloMosaic.Lib.IdealHost

noncomputable section

open scoped BigOperators

namespace Cert.KernelIdeal.KBridge

open Idealize.ShloMosaic Idealize.SL.Sem Idealize.ShloMosaic.ValueIdx Idealize.ShloMosaic.StableHlo Idealize.ShloMosaic.StableHlo.Predicate
open Cert.KernelIdeal Cert.KernelIdeal.Gen Cert.KernelIdeal.KV

/-! ## The stages of the body's arithmetic, named -/

/-- The row number: the coordinate along the second axis plus the grid offset `0 · 16384`. -/
def kRow : IVec S16x16384 32 :=
  addi (iota .tc S16x16384 32 [1] iota_S16x16384_d1_w32) (broadcast S16x16384 (Scalar.muli 0#32 16384#32))

/-- The segment starts, repeated along the rows. -/
def kLo (x1 : Cert.Spec.Offsets) : IVec S16x16384 32 :=
  broadcastTo S16x16384 (shapeCast S16x1 (lower x1) shapeCasts_S16x1_S16x1) broadcasts_S16x1_S16x16384

/-- The segment ends, repeated along the rows. -/
def kUp (x1 : Cert.Spec.Offsets) : IVec S16x16384 32 :=
  broadcastTo S16x16384 (shapeCast S16x1 (upper x1) shapeCasts_S16x1_S16x1) broadcasts_S16x1_S16x16384

/-- The membership matrix: entry `(s, r)` is one when row `r` lies in segment `s`, zero otherwise. -/
def kOnehot (x1 : Cert.Spec.Offsets) : FVec Ideal S16x16384 .bf16 :=
  truncf .bf16 (sitofp .f32 (extui 32 (andi (cmpi .sge kRow (kLo x1)) (cmpi .slt kRow (kUp x1))) natLt_1_32)) bitsLt_bf16_f32

/-- The segment sums: the membership matrix times the activations. -/
def kSums (x1 : Cert.Spec.Offsets) (H : Cert.Spec.Mat 16384 256) : FVec Ideal S16x256 .f32 :=
  matmul (φ₁ := .bf16) (φ₂ := .bf16) dot_S16x16384_S16384x256_S16x256_1_0_0_1_n_n none (kOnehot x1) H (constant S16x256 .f32 0x00000000#32)

/-- The segment means. -/
def kPooled (x1 : Cert.Spec.Offsets) (H : Cert.Spec.Mat 16384 256) : FVec Ideal S16x256 .bf16 :=
  truncf .bf16 (mulf (kSums x1 H)
    (broadcastTo S16x256 (shapeCast S16x1 (invCount (F := Ideal) x1) shapeCasts_S16x1_S16x1) broadcasts_S16x1_S16x256)) bitsLt_bf16_f32

/-- The first head layer, with ReLU. -/
def kZ (x1 : Cert.Spec.Offsets) (H : Cert.Spec.Mat 16384 256) (x8 : Cert.Spec.Mat 256 512) (x9 : Cert.Spec.Vect 512) :
    FVec Ideal S16x512 .bf16 :=
  truncf .bf16 (maximumf
    (addf (matmul dot_S16x256_S256x512_S16x512_1_0_0_1_n_n none (kPooled x1 H)
        (shapeCast S256x512 (w4 (F := Ideal) x8) shapeCasts_S256x512_S256x512) (constant S16x512 .f32 0x00000000#32))
      (broadcastTo S16x512 (shapeCast S1x512 (bias4 (F := Ideal) x9) shapeCasts_S1x512_S1x512) broadcasts_S1x512_S16x512))
    (broadcast S16x512 (Scalar.ofBits .f32 0x00000000#32))) bitsLt_bf16_f32

/-- The second head layer, before the logistic function. -/
def kO (x1 : Cert.Spec.Offsets) (H : Cert.Spec.Mat 16384 256) (x8 : Cert.Spec.Mat 256 512) (x9 : Cert.Spec.Vect 512)
    (x10 : Cert.Spec.Mat 512 2500) (x11 : Cert.Spec.Vect 2500) : FVec Ideal S16x2500 .f32 :=
  addf (matmul dot_S16x512_S512x2500_S16x2500_1_0_0_1_n_n none (kZ x1 H x8 x9)
      (shapeCast S512x2500 (w5 (F := Ideal) x10) shapeCasts_S512x2500_S512x2500) (constant S16x2500 .f32 0x00000000#32))
    (broadcastTo S16x2500 (shapeCast S1x2500 (bias5 (F := Ideal) x11) shapeCasts_S1x2500_S1x2500) broadcasts_S1x2500_S16x2500)

set_option maxRecDepth 65536 in
/-- The body's payload is the logistic function of the last stage: the definitions unfold to the printed sequence. -/
theorem k0_pay7_eq (x1 : Cert.Spec.Offsets) (H : Cert.Spec.Mat 16384 256) (x8 : Cert.Spec.Mat 256 512) (x9 : Cert.Spec.Vect 512)
    (x10 : Cert.Spec.Mat 512 2500) (x11 : Cert.Spec.Vect 2500) :
    k0_pay7 (F := Ideal) 0#32 H (iota .tc S16x16384 32 [1] iota_S16x16384_d1_w32) (lower x1) (upper x1) (invCount (F := Ideal) x1)
        (w4 (F := Ideal) x8) (bias4 (F := Ideal) x9) (w5 (F := Ideal) x10) (bias5 (F := Ideal) x11)
      = logistic (kO x1 H x8 x9 x10 x11) := rfl

/-! ## The membership matrix -/

/-- The segment starts as a column, read at a row: the offset `cu s`. -/
theorem lower_apply (x1 : Cert.Spec.Offsets) (s : Fin 16) : lower x1 (ixP s) = x1 (ix1 s.castSucc) := by
  unfold lower
  refine (shapeCast_apply _ shapeCasts_S16_S16x1 (ixP s) (ix1 s) ?_).trans ?_
  · rw [Shape.rowMajor_val_one, Shape.rowMajor_val_two]
    show s.val = s.val * 1 + 0
    omega
  · refine extractStridedSlice_apply ![0] x1 slices_S17_S16_0 (ix1 s) (ix1 s.castSucc) fun a => ?_
    match a with
    | ⟨0, _⟩ => show s.val = 0 + s.val; omega

/-- The segment ends as a column, read at a row: the offset `cu (s+1)`. -/
theorem upper_apply (x1 : Cert.Spec.Offsets) (s : Fin 16) : upper x1 (ixP s) = x1 (ix1 s.succ) := by
  unfold upper
  refine (shapeCast_apply _ shapeCasts_S16_S16x1 (ixP s) (ix1 s) ?_).trans ?_
  · rw [Shape.rowMajor_val_one, Shape.rowMajor_val_two]
    show s.val = s.val * 1 + 0
    omega
  · refine extractStridedSlice_apply ![1] x1 slices_S17_S16_1 (ix1 s) (ix1 s.succ) fun a => ?_
    match a with
    | ⟨0, _⟩ => show s.val + 1 = 1 + s.val; omega

/-- The row number at `(s, r)` is `r`. -/
theorem kRow_apply (s : Fin 16) (r : Fin 16384) : kRow (ix2 s r) = BitVec.ofNat 32 r.val := by
  unfold kRow
  show IntOp.addi (iota .tc S16x16384 32 [1] iota_S16x16384_d1_w32 (ix2 s r)) (Scalar.muli 0#32 16384#32) = _
  rw [iota_single_apply]
  show BitVec.ofNat 32 r.val + 0#32 * 16384#32 = _
  simp

theorem kLo_apply (x1 : Cert.Spec.Offsets) (s : Fin 16) (r : Fin 16384) : kLo x1 (ix2 s r) = x1 (ix1 s.castSucc) := by
  unfold kLo
  rw [shapeCast_self]
  refine (broadcastTo_apply _ broadcasts_S16x1_S16x16384 (ix2 s r) (ixP s) fun a => ?_).trans (lower_apply x1 s)
  match a with
  | ⟨0, _⟩ => rfl
  | ⟨1, _⟩ => rfl

theorem kUp_apply (x1 : Cert.Spec.Offsets) (s : Fin 16) (r : Fin 16384) : kUp x1 (ix2 s r) = x1 (ix1 s.succ) := by
  unfold kUp
  rw [shapeCast_self]
  refine (broadcastTo_apply _ broadcasts_S16x1_S16x16384 (ix2 s r) (ixP s) fun a => ?_).trans (upper_apply x1 s)
  match a with
  | ⟨0, _⟩ => rfl
  | ⟨1, _⟩ => rfl

/-- The conjunction of two one-bit words, widened to 32 bits and read signed, is one when both hold and zero otherwise. -/
theorem bit_toInt (b1 b2 : Bool) :
    ((IntOp.andi (BitVec.ofBool b1) (BitVec.ofBool b2)).setWidth 32).toInt = if (b1 = true ∧ b2 = true) then 1 else 0 := by
  cases b1 <;> cases b2 <;> decide

/-- The membership bit as a float: one when `lo ≤ a < up` as signed integers, zero otherwise. -/
theorem onehot_bit (a lo up : BitVec 32) :
    FloatOps.sitofp (F := Ideal) .f32 ((IntOp.andi (IntOp.cmpi .sge a lo) (IntOp.cmpi .slt a up)).setWidth 32)
      = if (lo.toInt ≤ a.toInt ∧ a.toInt < up.toInt) then (1 : EReal) else 0 := by
  show ((((IntOp.andi (BitVec.ofBool (lo.sle a)) (BitVec.ofBool (a.slt up))).setWidth 32).toInt : ℝ) : EReal) = _
  rw [bit_toInt]
  by_cases h : lo.toInt ≤ a.toInt ∧ a.toInt < up.toInt
  · have h' : lo.sle a = true ∧ a.slt up = true := by simpa [BitVec.sle, BitVec.slt] using h
    rw [if_pos h', if_pos h]; simp
  · have h' : ¬(lo.sle a = true ∧ a.slt up = true) := by simpa [BitVec.sle, BitVec.slt] using h
    rw [if_neg h', if_neg h]; simp

/-- The membership matrix at `(s, r)`: one when row `r` lies in segment `s`, zero otherwise. -/
theorem kOnehot_apply (x1 : Cert.Spec.Offsets) (s : Fin 16) (r : Fin 16384) :
    kOnehot x1 (ix2 s r) = if Cert.Spec.inSeg x1 s r then (1 : EReal) else 0 := by
  have h : kOnehot x1 (ix2 s r) = FloatOps.sitofp (F := Ideal) .f32
      ((IntOp.andi (IntOp.cmpi .sge (kRow (ix2 s r)) (kLo x1 (ix2 s r))) (IntOp.cmpi .slt (kRow (ix2 s r)) (kUp x1 (ix2 s r)))).setWidth 32) := rfl
  rw [h, kRow_apply, kLo_apply, kUp_apply, onehot_bit, toInt_ofNat_small r.val (by have := r.isLt; omega)]
  rfl

/-! ## A product into a zero accumulator, read at an entry -/

section Plain

variable {n k m : Nat} (d : DotDims ⟨2, ![n, k]⟩ ⟨2, ![k, m]⟩ ⟨2, ![n, m]⟩)

/-- A record whose left operand keeps its first axis (no batch axes) reads the result's row there. -/
theorem plain_lhs_0 (hlb : d.lhsBatch = []) (hln : d.lhsNonContracting = [0])
    (i : (⟨2, ![n, m]⟩ : Shape).Idx) (q : d.contr.Idx) : (d.lhsIdx i q 0).val = (i 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![n, m]⟩ : Shape).rank) (hb : b < (⟨2, ![n, m]⟩ : Shape).rank), a = b →
      (i ⟨a, ha⟩).val = (i ⟨b, hb⟩).val := fun a b ha hb h => by subst h; rfl
  exact key _ _ _ _ (by simp [hlb, hln])

/-- A record whose right operand keeps its second axis (no batch axes, one kept axis on the left) reads the result's
    column there. -/
theorem plain_rhs_1 (hlb : d.lhsBatch = []) (hln : d.lhsNonContracting = [0]) (hrb : d.rhsBatch = []) (hrn : d.rhsNonContracting = [1])
    (i : (⟨2, ![n, m]⟩ : Shape).Idx) (q : d.contr.Idx) : (d.rhsIdx i q 1).val = (i 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![n, m]⟩ : Shape).rank) (hb : b < (⟨2, ![n, m]⟩ : Shape).rank), a = b →
      (i ⟨a, ha⟩).val = (i ⟨b, hb⟩).val := fun a b ha hb h => by subst h; rfl
  exact key _ _ _ _ (by simp [hlb, hln, hrn])

/-- A product of an `n × k` by a `k × m` matrix into a zero accumulator, read at `(p, c)`, is the sum over the contracted
    axis — for a dimension record that contracts the left operand's second axis with the right operand's first and has no
    batch axes. -/
theorem matmul_zero_ix2 {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = k)
    (A : FVec Ideal ⟨2, ![n, k]⟩ φ₁) (B : FVec Ideal ⟨2, ![k, m]⟩ φ₂) (p : Fin n) (c : Fin m) :
    matmul d none A B (constant ⟨2, ![n, m]⟩ .f32 0x00000000#32) (ix2 p c) = ∑ t : Fin k, A (ix2 p t) * B (ix2 t c) := by
  show FloatOps.matmul d none A B (constant ⟨2, ![n, m]⟩ .f32 0x00000000#32) (ix2 p c) = _
  rw [Ideal.matmul_constant_zero_apply, ← Equiv.sum_comp (contrEquiv1 d k hr hs).symm]
  refine Finset.sum_congr rfl fun t _ => ?_
  have hk := contrEquiv1_symm_val d k hr hs t
  have el : d.lhsIdx (ix2 p c) ((contrEquiv1 d k hr hs).symm t) = ix2 p t := funext fun a => Fin.ext (by
    match a with
    | ⟨0, _⟩ => exact plain_lhs_0 d hlb hln _ _
    | ⟨1, _⟩ => exact (d.lhsIdx_val_of_single hlc _ _).trans hk)
  have er : d.rhsIdx (ix2 p c) ((contrEquiv1 d k hr hs).symm t) = ix2 t c := funext fun a => Fin.ext (by
    match a with
    | ⟨0, _⟩ => exact (d.rhsIdx_val_of_single hrc _ _).trans hk
    | ⟨1, _⟩ => exact plain_rhs_1 d hlb hln hrb hrn _ _)
  rw [el, er]

end Plain

/-- The segment sums at `(s, j)`: the membership row times the activations' column. -/
theorem kSums_apply (x1 : Cert.Spec.Offsets) (H : Cert.Spec.Mat 16384 256) (s : Fin 16) (j : Fin 256) :
    kSums x1 H (ix2 s j) = ∑ r : Fin 16384, kOnehot x1 (ix2 s r) * H (ix2 r j) :=
  matmul_zero_ix2 dot_S16x16384_S16384x256_S16x256_1_0_0_1_n_n rfl rfl rfl rfl rfl rfl rfl rfl (kOnehot x1) H s j

/-- The segment sums are the specification's: a zero factor drops its row, a unit factor keeps it. -/
theorem kSums_eq (x1 : Cert.Spec.Offsets) (H : Cert.Spec.Mat 16384 256) (s : Fin 16) (j : Fin 256) :
    kSums x1 H (ix2 s j) = Cert.Spec.segSumAt x1 H s j := by
  rw [kSums_apply]
  unfold Cert.Spec.segSumAt
  rw [Finset.sum_filter]
  refine Finset.sum_congr rfl fun r _ => ?_
  rw [kOnehot_apply]
  by_cases h : Cert.Spec.inSeg x1 s r
  · rw [if_pos h, if_pos h, one_mul]
  · rw [if_neg h, if_neg h, zero_mul]

/-! ## The segment means -/

/-- One over the segment's length, read at a row: the real `1 / cnt`. -/
theorem invCount_apply (x1 : Cert.Spec.Offsets) (s : Fin 16) :
    invCount (F := Ideal) x1 (ixP s) = ((1 / Cert.Spec.cnt x1 s : ℝ) : EReal) := by
  have h : invCount (F := Ideal) x1 (ixP s) = Ideal.div (Ideal.ofBits .f32 0x3F800000#32)
      (max ((((IntOp.subi (upper x1 (ixP s)) (lower x1 (ixP s))).toInt : ℝ)) : EReal) (Ideal.ofBits .f32 0x3F800000#32)) := rfl
  have hmax : max ((((IntOp.subi (x1 (ix1 s.succ)) (x1 (ix1 s.castSucc))).toInt : ℝ)) : EReal) 1
      = ((Cert.Spec.cnt x1 s : ℝ) : EReal) := by
    unfold Cert.Spec.cnt
    rw [← EReal.coe_one]
    exact (EReal.coe_strictMono.monotone.map_max).symm
  rw [h, upper_apply, lower_apply, Ideal.ofBits_one_f32, hmax, Ideal.div_coe (Cert.Spec.cnt_ne_zero x1 s), one_mul]

/-- The segment means are the specification's. -/
theorem kPooled_apply (x1 : Cert.Spec.Offsets) (H : Cert.Spec.Mat 16384 256) (s : Fin 16) (j : Fin 256) :
    kPooled x1 H (ix2 s j) = Cert.Spec.pooled x1 H (ix2 s j) := by
  have h : kPooled x1 H (ix2 s j) = kSums x1 H (ix2 s j)
      * broadcastTo S16x256 (shapeCast S16x1 (invCount (F := Ideal) x1) shapeCasts_S16x1_S16x1) broadcasts_S16x1_S16x256 (ix2 s j) := rfl
  rw [h, kSums_eq, shapeCast_self,
    broadcastTo_apply _ broadcasts_S16x1_S16x256 (ix2 s j) (ixP s) (fun a => match a with | ⟨0, _⟩ => rfl | ⟨1, _⟩ => rfl),
    invCount_apply]
  rfl

theorem kPooled_eq (x1 : Cert.Spec.Offsets) (H : Cert.Spec.Mat 16384 256) : kPooled x1 H = Cert.Spec.pooled x1 H := by
  funext i
  obtain ⟨s, j, rfl⟩ : ∃ s j, i = ix2 s j := ⟨i 0, i 1, eq_ix2 i⟩
  exact kPooled_apply x1 H s j

/-! ## The two head layers -/

/-- A bias kept as a `1 × m` row and repeated down `n` rows, read at `(s, c)`, is the bias at `c`. -/
theorem bias4_apply (x9 : Cert.Spec.Vect 512) (s : Fin 16) (c : Fin 512) :
    broadcastTo S16x512 (shapeCast S1x512 (bias4 (F := Ideal) x9) shapeCasts_S1x512_S1x512) broadcasts_S1x512_S16x512 (ix2 s c) = x9 (ix1 c) := by
  rw [shapeCast_self]
  refine (broadcastTo_apply _ broadcasts_S1x512_S16x512 (ix2 s c) (i1q c) (fun a => match a with | ⟨0, _⟩ => rfl | ⟨1, _⟩ => rfl)).trans ?_
  unfold bias4
  refine shapeCast_apply _ shapeCasts_S512_S1x512 (i1q c) (ix1 c) ?_
  rw [Shape.rowMajor_val_one, Shape.rowMajor_val_two]
  show c.val = 0 * 512 + c.val
  omega

theorem bias5_apply (x11 : Cert.Spec.Vect 2500) (s : Fin 16) (c : Fin 2500) :
    broadcastTo S16x2500 (shapeCast S1x2500 (bias5 (F := Ideal) x11) shapeCasts_S1x2500_S1x2500) broadcasts_S1x2500_S16x2500 (ix2 s c) = x11 (ix1 c) := by
  rw [shapeCast_self]
  refine (broadcastTo_apply _ broadcasts_S1x2500_S16x2500 (ix2 s c) (i1q c) (fun a => match a with | ⟨0, _⟩ => rfl | ⟨1, _⟩ => rfl)).trans ?_
  unfold bias5
  refine shapeCast_apply _ shapeCasts_S2500_S1x2500 (i1q c) (ix1 c) ?_
  rw [Shape.rowMajor_val_one, Shape.rowMajor_val_two]
  show c.val = 0 * 2500 + c.val
  omega

/-- The first head layer is the specification's dense layer with ReLU on the segment means. -/
theorem kZ_apply (x1 : Cert.Spec.Offsets) (H : Cert.Spec.Mat 16384 256) (x8 : Cert.Spec.Mat 256 512) (x9 : Cert.Spec.Vect 512)
    (s : Fin 16) (c : Fin 512) :
    kZ x1 H x8 x9 (ix2 s c) = Cert.Spec.denseRelu (Cert.Spec.pooled x1 H) x8 x9 (ix2 s c) := by
  have h : kZ x1 H x8 x9 (ix2 s c) = max
      (matmul dot_S16x256_S256x512_S16x512_1_0_0_1_n_n none (kPooled x1 H)
          (shapeCast S256x512 (w4 (F := Ideal) x8) shapeCasts_S256x512_S256x512) (constant S16x512 .f32 0x00000000#32) (ix2 s c)
        + broadcastTo S16x512 (shapeCast S1x512 (bias4 (F := Ideal) x9) shapeCasts_S1x512_S1x512) broadcasts_S1x512_S16x512 (ix2 s c))
      (Ideal.ofBits .f32 0x00000000#32) := rfl
  rw [h, bias4_apply, shapeCast_self, matmul_zero_ix2 dot_S16x256_S256x512_S16x512_1_0_0_1_n_n rfl rfl rfl rfl rfl rfl rfl rfl, kPooled_eq,
    Ideal.ofBits_zero_f32]
  rfl

theorem kZ_eq (x1 : Cert.Spec.Offsets) (H : Cert.Spec.Mat 16384 256) (x8 : Cert.Spec.Mat 256 512) (x9 : Cert.Spec.Vect 512) :
    kZ x1 H x8 x9 = Cert.Spec.denseRelu (Cert.Spec.pooled x1 H) x8 x9 := by
  funext i
  obtain ⟨s, c, rfl⟩ : ∃ s c, i = ix2 s c := ⟨i 0, i 1, eq_ix2 i⟩
  exact kZ_apply x1 H x8 x9 s c

/-- The second head layer is the specification's affine map on the first. -/
theorem kO_apply (x1 : Cert.Spec.Offsets) (H : Cert.Spec.Mat 16384 256) (x8 : Cert.Spec.Mat 256 512) (x9 : Cert.Spec.Vect 512)
    (x10 : Cert.Spec.Mat 512 2500) (x11 : Cert.Spec.Vect 2500) (s : Fin 16) (c : Fin 2500) :
    kO x1 H x8 x9 x10 x11 (ix2 s c)
      = Cert.Spec.affine (Cert.Spec.denseRelu (Cert.Spec.pooled x1 H) x8 x9) x10 x11 (ix2 s c) := by
  have h : kO x1 H x8 x9 x10 x11 (ix2 s c) =
      matmul dot_S16x512_S512x2500_S16x2500_1_0_0_1_n_n none (kZ x1 H x8 x9)
          (shapeCast S512x2500 (w5 (F := Ideal) x10) shapeCasts_S512x2500_S512x2500) (constant S16x2500 .f32 0x00000000#32) (ix2 s c)
        + broadcastTo S16x2500 (shapeCast S1x2500 (bias5 (F := Ideal) x11) shapeCasts_S1x2500_S1x2500) broadcasts_S1x2500_S16x2500 (ix2 s c) := rfl
  rw [h, bias5_apply, shapeCast_self, matmul_zero_ix2 dot_S16x512_S512x2500_S16x2500_1_0_0_1_n_n rfl rfl rfl rfl rfl rfl rfl rfl, kZ_eq]
  rfl

/-! ## The head -/

set_option maxRecDepth 65536 in
/-- The block the body stores is the specification's head on the third layer's activations. -/
theorem kernel_head (x1 : Cert.Spec.Offsets) (H : Cert.Spec.Mat 16384 256) (x8 : Cert.Spec.Mat 256 512) (x9 : Cert.Spec.Vect 512) (x10 : Cert.Spec.Mat 512 2500) (x11 : Cert.Spec.Vect 2500) :
    Cert.KernelIdeal.Gen.k0_pay7 (F := Ideal) 0#32 H (iota .tc Cert.KernelIdeal.S16x16384 32 [1] Cert.KernelIdeal.Gen.iota_S16x16384_d1_w32) (Cert.KernelIdeal.KV.lower x1) (Cert.KernelIdeal.KV.upper x1) (Cert.KernelIdeal.KV.invCount (F := Ideal) x1) (Cert.KernelIdeal.KV.w4 (F := Ideal) x8) (Cert.KernelIdeal.KV.bias4 (F := Ideal) x9) (Cert.KernelIdeal.KV.w5 (F := Ideal) x10) (Cert.KernelIdeal.KV.bias5 (F := Ideal) x11)
      = Cert.Spec.head x1 H x8 x9 x10 x11 := by
  refine (k0_pay7_eq x1 H x8 x9 x10 x11).trans ?_
  funext i
  obtain ⟨s, c, rfl⟩ : ∃ s c, i = ix2 s c := ⟨i 0, i 1, eq_ix2 i⟩
  show Ideal.logistic (kO x1 H x8 x9 x10 x11 (ix2 s c)) = _
  rw [kO_apply]
  rfl

end Cert.KernelIdeal.KBridge

end
-- ==== Proof.RefRows.lean ====
import proofs.«151924_g39341900431964_cont_8to1_b_836_11_alg».proof.Proof.Gen.ReferenceIdeal.Read
import proofs.«151924_g39341900431964_cont_8to1_b_836_11_alg».proof.Proof.Spec
import Idealize.ShloMosaic.PureOps.Ideal.Laws
import Idealize.ShloMosaic.Lib.ValueIdx

/-!
# The reference's per-row layers are the specification's

The reference computes `relu (relu (relu (x0 · x2 + x3) · x4 + x5) · x6 + x7)` one operation at a time:
a `dot_general` (at the ideal values a plain sum over the contracted axis), the addition of a bias
broadcast along the rows, and the maximum with a broadcast constant `0`. Reading each operation at the
coordinates `(p, q)` and identifying the operands' indices with `(p, k)`, `(k, q)` and `q` gives the
specification's dense layer entry by entry; the three layers are chained, each using the one before.
-/

noncomputable section

open scoped BigOperators

namespace Cert.RefBridge

open Cert.ReferenceIdeal Cert.ReferenceIdeal.Read Idealize.ShloMosaic Idealize.ShloMosaic.ValueIdx

/-- A dense layer with ReLU read at the coordinates `(p, q)`: `max (∑ t, x[p, t] · w[t, q] + b[q]) 0`. -/
theorem denseRelu_at {n k m : Nat} (x : Cert.Spec.Mat n k) (w : Cert.Spec.Mat k m) (b : Cert.Spec.Vect m)
    (p : Fin n) (q : Fin m) :
    Cert.Spec.denseRelu x w b (ix2 p q) = max ((∑ t : Fin k, x (ix2 p t) * w (ix2 t q)) + b (ix1 q)) 0 := rfl

/-- The reference's first ReLU output is the first dense layer: `max (x0 · x2 + x3) 0`. The `dot_general` is a plain sum over the contracted axis, the bias is broadcast along the rows, and the constant the maximum is taken with is `0`. -/
theorem layer1 (x0 : Cert.Spec.Mat 16384 3) (x2 : Cert.Spec.Mat 3 64) (x3 : Cert.Spec.Vect 64) :
    val_main_v4 (F := Ideal) x0 x2 x3 = Cert.Spec.denseRelu x0 x2 x3 := by
  funext i
  obtain ⟨p, q, rfl⟩ : ∃ (p : Fin 16384) (q : Fin 64), i = ix2 p q := ⟨i 0, i 1, eq_ix2 i⟩
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32]
  rw [denseRelu_at]
  have hl : ∀ k : Fin 3, lidx_main_v0 (ix2 p q) k = ix2 p k := fun k =>
    funext fun a => Fin.ext (by match a with | ⟨0, _⟩ => rfl | ⟨1, _⟩ => rfl)
  have hr : ∀ k : Fin 3, ridx_main_v0 (ix2 p q) k = ix2 k q := fun k =>
    funext fun a => Fin.ext (by match a with | ⟨0, _⟩ => rfl | ⟨1, _⟩ => rfl)
  have hb : idx_main_v1 (idx_main_v2 (ix2 p q)) = ix1 q :=
    funext fun a => Fin.ext (by match a with | ⟨0, _⟩ => rfl)
  simp only [hl, hr, hb]

/-- The reference's second ReLU output is the second dense layer applied to the first. -/
theorem layer2 (x0 : Cert.Spec.Mat 16384 3) (x2 : Cert.Spec.Mat 3 64) (x3 : Cert.Spec.Vect 64)
    (x4 : Cert.Spec.Mat 64 128) (x5 : Cert.Spec.Vect 128) :
    val_main_v9 (F := Ideal) x0 x2 x3 x4 x5 = Cert.Spec.denseRelu (Cert.Spec.denseRelu x0 x2 x3) x4 x5 := by
  funext i
  obtain ⟨p, q, rfl⟩ : ∃ (p : Fin 16384) (q : Fin 128), i = ix2 p q := ⟨i 0, i 1, eq_ix2 i⟩
  rw [val_main_v9_apply, val_main_v8_apply, val_main_v5_apply, val_main_v7_apply, val_main_v6_apply,
    val_main_call1_v0_apply, val_main_call1_cst_apply, layer1]
  simp only [Ideal.maximumf_def, Ideal.addf_def, Ideal.ofBits_def, Ideal.ofBits_zero_f32]
  rw [denseRelu_at]
  have hl : ∀ k : Fin 64, lidx_main_v5 (ix2 p q) k = ix2 p k := fun k =>
    funext fun a => Fin.ext (by match a with | ⟨0, _⟩ => rfl | ⟨1, _⟩ => rfl)
  have hr : ∀ k : Fin 64, ridx_main_v5 (ix2 p q) k = ix2 k q := fun k =>
    funext fun a => Fin.ext (by match a with | ⟨0, _⟩ => rfl | ⟨1, _⟩ => rfl)
  have hb : idx_main_v6 (idx_main_v7 (ix2 p q)) = ix1 q :=
    funext fun a => Fin.ext (by match a with | ⟨0, _⟩ => rfl)
  simp only [hl, hr, hb]

/-- The reference's third ReLU output is the three per-row dense layers 3 → 64 → 128 → 256 of the specification. -/
theorem ref_rows (x0 : Cert.Spec.Mat 16384 3) (x2 : Cert.Spec.Mat 3 64) (x3 : Cert.Spec.Vect 64)
    (x4 : Cert.Spec.Mat 64 128) (x5 : Cert.Spec.Vect 128) (x6 : Cert.Spec.Mat 128 256) (x7 : Cert.Spec.Vect 256) :
    Cert.ReferenceIdeal.Read.val_main_v14 (F := Ideal) x0 x2 x3 x4 x5 x6 x7 = Cert.Spec.rows x0 x2 x3 x4 x5 x6 x7 := by
  funext i
  obtain ⟨p, q, rfl⟩ : ∃ (p : Fin 16384) (q : Fin 256), i = ix2 p q := ⟨i 0, i 1, eq_ix2 i⟩
  rw [val_main_v14_apply, val_main_v13_apply, val_main_v10_apply, val_main_v12_apply, val_main_v11_apply,
    val_main_call2_v0_apply, val_main_call2_cst_apply, layer2]
  simp only [Ideal.maximumf_def, Ideal.addf_def, Ideal.ofBits_def, Ideal.ofBits_zero_f32]
  unfold Cert.Spec.rows
  rw [denseRelu_at]
  have hl : ∀ k : Fin 128, lidx_main_v10 (ix2 p q) k = ix2 p k := fun k =>
    funext fun a => Fin.ext (by match a with | ⟨0, _⟩ => rfl | ⟨1, _⟩ => rfl)
  have hr : ∀ k : Fin 128, ridx_main_v10 (ix2 p q) k = ix2 k q := fun k =>
    funext fun a => Fin.ext (by match a with | ⟨0, _⟩ => rfl | ⟨1, _⟩ => rfl)
  have hb : idx_main_v11 (idx_main_v12 (ix2 p q)) = ix1 q :=
    funext fun a => Fin.ext (by match a with | ⟨0, _⟩ => rfl)
  simp only [hl, hr, hb]

end Cert.RefBridge

end
-- ==== Proof.Segments.lean ====
import Mathlib.Data.Fintype.Fin
import Mathlib.Order.Fin.Basic
import Mathlib.Tactic.Linarith

/-!
# Locating a row in a list of consecutive segments

`c : Fin 17 → ℤ` is a nondecreasing sequence with `c 0 = 0`: the cumulative offsets of
16 consecutive segments, segment `s` being the half-open interval `[c s, c (s+1))`.
For a row number `r ≥ 0` the number of segment ENDS `c 1, …, c 16` that are `≤ r`
is `s` exactly when `r` lies in segment `s`.

The reason: as `c` is monotone, the set `{s' | c (s'+1) ≤ r}` is downward closed in
`Fin 16`, hence an initial segment `{s' | s' < k}` with `k` its cardinality; so
`s' < k ↔ c (s'+1) ≤ r`.  Then `k ≤ s ↔ r < c (s+1)`, and `s ≤ k ↔ c s ≤ r`
(for `s = 0` both sides hold, since `c 0 = 0 ≤ r`; for `s = t+1` it is `t < k ↔ c (t+1) ≤ r`).
-/

namespace Cert.Segments

open Finset

/-- A sequence that is nondecreasing from each index to the next is monotone. -/
theorem monotone_of_step (c : Fin 17 → ℤ) (hmono : ∀ s : Fin 16, c s.castSucc ≤ c s.succ) :
    Monotone c :=
  Fin.monotone_iff_le_succ.mpr hmono

/-- For monotone `c`, the set of segment ends that are `≤ r` is downward closed. -/
theorem ends_le_downward (c : Fin 17 → ℤ) (hc : Monotone c) (r : ℤ) (i j : Fin 16)
    (hji : j ≤ i) (hi : c i.succ ≤ r) : c j.succ ≤ r :=
  le_trans (hc (Fin.succ_le_succ_iff.mpr hji)) hi

/-- For monotone `c`, the segment end `c (j+1)` is `≤ r` exactly when `j` is smaller than the
number of segment ends that are `≤ r`: a downward closed subset of `Fin 16` is the initial
segment of its own cardinality. -/
theorem lt_card_iff (c : Fin 17 → ℤ) (hc : Monotone c) (r : ℤ) (j : Fin 16) :
    j.val < (univ.filter (fun s' : Fin 16 => c s'.succ ≤ r)).card ↔ c j.succ ≤ r :=
  Fin.lt_card_filter_univ_iff_apply_of_imp (fun s' : Fin 16 => c s'.succ ≤ r)
    (fun i j hji hi => ends_le_downward c hc r i j hji hi)

/-- The number of segment ends `≤ r` is at most `s` exactly when `r` is before the end of
segment `s`. -/
theorem card_le_iff (c : Fin 17 → ℤ) (hc : Monotone c) (r : ℤ) (s : Fin 16) :
    (univ.filter (fun s' : Fin 16 => c s'.succ ≤ r)).card ≤ s.val ↔ r < c s.succ := by
  rw [← not_lt, lt_card_iff c hc r s, not_le]

/-- The number of segment ends `≤ r` is at least `s` exactly when `r` is at or after the start
of segment `s` (here `0 ≤ r` and `c 0 = 0` settle `s = 0`). -/
theorem le_card_iff (c : Fin 17 → ℤ) (hc : Monotone c) (h0 : c 0 = 0) (r : ℤ) (hr : 0 ≤ r)
    (s : Fin 16) :
    s.val ≤ (univ.filter (fun s' : Fin 16 => c s'.succ ≤ r)).card ↔ c s.castSucc ≤ r := by
  rcases Nat.eq_zero_or_pos s.val with h | h
  · have hs : s.castSucc = 0 := by
      apply Fin.ext
      simp [h]
    rw [hs, h0, h]
    exact ⟨fun _ => hr, fun _ => Nat.zero_le _⟩
  · -- `s = t + 1`, and the start of segment `s` is the end of segment `t`
    have ht : s.val - 1 < 16 := by omega
    have hs : s.castSucc = (⟨s.val - 1, ht⟩ : Fin 16).succ := by
      apply Fin.ext
      simp
      omega
    rw [hs, ← lt_card_iff c hc r ⟨s.val - 1, ht⟩]
    simp only
    omega

theorem card_le_eq_iff (c : Fin 17 → ℤ) (hmono : ∀ s : Fin 16, c s.castSucc ≤ c s.succ)
    (h0 : c 0 = 0) (r : ℕ) (s : Fin 16) :
    (Finset.univ.filter (fun s' : Fin 16 => c s'.succ ≤ (r : ℤ))).card = s.val ↔
      (c s.castSucc ≤ (r : ℤ) ∧ (r : ℤ) < c s.succ) := by
  have hc := monotone_of_step c hmono
  have h1 := le_card_iff c hc h0 (r : ℤ) (Int.natCast_nonneg r) s
  have h2 := card_le_iff c hc (r : ℤ) s
  constructor
  · intro h
    exact ⟨h1.mp (le_of_eq h.symm), h2.mp (le_of_eq h)⟩
  · rintro ⟨ha, hb⟩
    exact le_antisymm (h2.mpr hb) (h1.mpr ha)

theorem card_le_eq_iff' (c : Fin 17 → ℤ) (hmono : ∀ s : Fin 16, c s.castSucc ≤ c s.succ)
    (h0 : c 0 = 0) (r : ℕ) (s : Fin 16) :
    ((Finset.univ.filter (fun s' : Fin 16 => c s'.succ ≤ (r : ℤ))).card : ℤ) = (s.val : ℤ) ↔
      (c s.castSucc ≤ (r : ℤ) ∧ (r : ℤ) < c s.succ) := by
  rw [Nat.cast_inj]
  exact card_le_eq_iff c hmono h0 r s

theorem card_le_le (c : Fin 17 → ℤ) (r : ℕ) :
    (Finset.univ.filter (fun s' : Fin 16 => c s'.succ ≤ (r : ℤ))).card ≤ 16 := by
  have h := Finset.card_filter_le (Finset.univ : Finset (Fin 16))
    (fun s' : Fin 16 => c s'.succ ≤ (r : ℤ))
  simpa using h

end Cert.Segments
-- ==== Proof.LibGatherScatter.lean ====
/-
  Decoding lemmas for StableHLO gather / scatter dimension numbers read at an index: the row gather
  of a rank-2 table, the landing index of a row scatter (rank-2 and rank-1 operands) and the
  accumulating scatter at the ideal instance as a sum over the update rows whose index is the row read,
  with the two small facts about a start-index column that go with them. Every lemma is generic in the
  record of dimension numbers and in the extents; the record's fields are hypotheses, each an `rfl` at a literal record.
-/
import Idealize.ShloMosaic.PureOps.Ideal
import Idealize.ShloMosaic.Lib.ValueIdx
import Idealize.ShloMosaic.Lib.StableHlo.Predicate

open scoped BigOperators

namespace Cert.LibGatherScatter

open Idealize.ShloMosaic
open Idealize.ShloMosaic.ValueIdx
open Idealize.ShloMosaic.StableHlo.Predicate

/-! ## Lists of axes: an entry of a one-element list is that element -/

/-- Every entry of a list that equals the one-element list `[a]` is `a`. -/
theorem getElem_of_eq_singleton {β : Type} {l : List β} {a : β} (h : l = [a]) (k : Nat) (hk : k < l.length) :
    l[k] = a := by
  subst h
  have : k = 0 := by simpa using hk
  subst this
  rfl

/-! ## The row gather of a rank-2 table -/

/-- THE ROW GATHER. A `stablehlo.gather` of a rank-2 table `[N × C]` at an `[n × 1]` column of start indices, whose
    row axis is collapsed and start-indexed, whose column axis is the one offset axis with the whole row as the slice,
    without batching axes and with the index vector on axis 1: result element `(e, q)` is the table at row
    `idx[e, 0]` read SIGNED and CLAMPED into `[0, N − 1]`, column `q`. -/
theorem rowGather_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (_hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (q : Fin C) :
    Host.gather d x idx (ix2 e q) = x (ix2 ⟨min (idx (ixP e)).toInt.toNat (N - 1), by omega⟩ q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e q) idx 0 + d.batchCoord (ix2 e q) 0 + d.offCoord (ix2 e q) 0 = min (idx (ixP e)).toInt.toNat (N - 1)
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      have key : ∀ X : Fin 2, X = 0 → ((ix2 e q : (⟨2, ![n, C]⟩ : Shape).Idx) X).val = e.val := by
        rintro _ rfl; rfl
      exact key _ (getElem_of_eq_singleton hbd _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1)]
    simp only [Nat.add_zero, GatherDims.start, dif_neg hm, GatherDims.offCoord, dif_pos hk, Nat.zero_add]
    have key : ∀ X : Fin 2, X = 1 → ((ix2 e q : (⟨2, ![n, C]⟩ : Shape).Idx) X).val = q.val := by
      rintro _ rfl; rfl
    exact key _ (getElem_of_eq_singleton hoff _ _)

/-! ## The row scatter of a rank-2 operand: where an update element lands -/

section RowScatter
variable {N C n w : Nat} (d : ScatterDims ⟨2, ![N, C]⟩ ⟨2, ![n, 1]⟩ ⟨2, ![n, C]⟩)

/-- On the operand's row axis the window of update element `(e, q)` starts at the scatter index `idx[e, 0]`, read signed
    and not clamped. -/
theorem rowScatter_start_row (huw : d.updateWindowDims = [1]) (hsd : d.scatterDimsToOperandDims = [0])
    (hivd : d.indexVectorDim = 1) (idx : IVec ⟨2, ![n, 1]⟩ w) (e : Fin n) (q : Fin C) :
    d.start (ix2 e q) idx 0 = (idx (ixP e)).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; rfl
    have key : ∀ X : Fin 2, X = 0 → ((ix2 e q : (⟨2, ![n, C]⟩ : Shape).Idx) X).val = e.val := by
      rintro _ rfl; rfl
    exact key _ (getElem_of_eq_singleton hus _ _)
  | ⟨1, _⟩ =>
    unfold ScatterDims.siIdx
    rw [dif_pos (by rw [hivd])]
    apply Fin.ext
    show List.idxOf (0 : Fin 2) d.scatterDimsToOperandDims = 0
    rw [hsd]; simp

/-- On the operand's column axis, which the scatter index does not name, every window starts at 0. -/
theorem rowScatter_start_col (hsd : d.scatterDimsToOperandDims = [0]) (idx : IVec ⟨2, ![n, 1]⟩ w)
    (j : (⟨2, ![n, C]⟩ : Shape).Idx) : d.start j idx 1 = 0 := by
  have hm : (1 : Fin 2) ∉ d.scatterDimsToOperandDims := by rw [hsd]; simp
  unfold ScatterDims.start
  rw [dif_neg hm]

/-- The row axis is inserted: the window coordinate on it is 0. -/
theorem rowScatter_window_row (hiw : d.insertedWindowDims = [0]) (j : (⟨2, ![n, C]⟩ : Shape).Idx) : d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- The column axis is the one window axis: the window coordinate on it is the update element's column. -/
theorem rowScatter_window_col (huw : d.updateWindowDims = [1]) (hiw : d.insertedWindowDims = [0]) (e : Fin n) (q : Fin C) :
    d.window (ix2 e q) 1 = q.val := by
  have hk : (1 : Fin 2) ∈ d.sKept := by
    show (1 : Fin 2) ∈ Shape.kept _ d.insertedWindowDims
    rw [hiw]; simp [Shape.kept]
  unfold ScatterDims.window
  rw [dif_pos hk]
  have key : ∀ X : Fin 2, X = 1 → ((ix2 e q : (⟨2, ![n, C]⟩ : Shape).Idx) X).val = q.val := by
    rintro _ rfl; rfl
  exact key _ (getElem_of_eq_singleton huw _ _)

/-- WHERE A ROW UPDATE LANDS. A `stablehlo.scatter` into a rank-2 operand `[N × C]` of `[n × C]` updates at an `[n × 1]`
    column of scatter indices, whose row axis is inserted and scatter-indexed, whose column axis is the one window axis,
    with the index vector on axis 1: update element `(e, q)` lands on operand element `i` exactly when its scatter index
    `idx[e, 0]`, read SIGNED and NOT clamped, is `i`'s row, and `q` is `i`'s column. An index outside `[0, N)` lands
    nowhere. -/
theorem rowScatter_resultIdx?_eq_some_iff (huw : d.updateWindowDims = [1]) (hiw : d.insertedWindowDims = [0])
    (hsd : d.scatterDimsToOperandDims = [0]) (hivd : d.indexVectorDim = 1) (idx : IVec ⟨2, ![n, 1]⟩ w)
    (e : Fin n) (q : Fin C) (i : (⟨2, ![N, C]⟩ : Shape).Idx) :
    d.resultIdx? (ix2 e q) idx = some i ↔ (idx (ixP e)).toInt = ((i 0).val : ℤ) ∧ q = i 1 := by
  have h0 : d.start (ix2 e q) idx 0 + d.window (ix2 e q) 0 = (idx (ixP e)).toInt := by
    rw [rowScatter_start_row d huw hsd hivd, rowScatter_window_row d hiw]; simp
  have h1 : d.start (ix2 e q) idx 1 + d.window (ix2 e q) 1 = (q.val : ℤ) := by
    rw [rowScatter_start_col d hsd, rowScatter_window_col d huw hiw]; simp
  unfold ScatterDims.resultIdx?
  split
  · next h =>
    rw [Option.some.injEq]
    constructor
    · intro hi
      have e0 : (d.start (ix2 e q) idx 0 + d.window (ix2 e q) 0).toNat = (i 0).val := congrArg Fin.val (congrFun hi 0)
      have e1 : (d.start (ix2 e q) idx 1 + d.window (ix2 e q) 1).toNat = (i 1).val := congrArg Fin.val (congrFun hi 1)
      have p0 := (h 0).1
      rw [h0] at e0 p0
      rw [h1] at e1
      refine ⟨by omega, Fin.ext (by simpa using e1)⟩
    · rintro ⟨hi0, hq⟩
      funext a
      apply Fin.ext
      match a with
      | ⟨0, _⟩ =>
        show (d.start (ix2 e q) idx 0 + d.window (ix2 e q) 0).toNat = (i 0).val
        rw [h0, hi0]; simp
      | ⟨1, _⟩ =>
        show (d.start (ix2 e q) idx 1 + d.window (ix2 e q) 1).toNat = (i 1).val
        rw [h1, hq]; simp
  · next h =>
    constructor
    · intro hi; exact absurd hi (by simp)
    · rintro ⟨hi0, hq⟩
      exfalso
      apply h
      intro a
      match a with
      | ⟨0, _⟩ =>
        show 0 ≤ d.start (ix2 e q) idx 0 + d.window (ix2 e q) 0 ∧ d.start (ix2 e q) idx 0 + d.window (ix2 e q) 0 < (N : ℤ)
        rw [h0, hi0]
        exact ⟨by positivity, by exact_mod_cast idx2_lt0 i⟩
      | ⟨1, _⟩ =>
        show 0 ≤ d.start (ix2 e q) idx 1 + d.window (ix2 e q) 1 ∧ d.start (ix2 e q) idx 1 + d.window (ix2 e q) 1 < (C : ℤ)
        rw [h1]
        exact ⟨by positivity, by exact_mod_cast q.isLt⟩

/-- THE ACCUMULATING ROW SCATTER AT THE IDEAL INSTANCE. With those dimension numbers, element `(r, q)` of
    `x.at[idx].add(upd)` is `x[r, q]` plus the exact sum of `upd[e, q]` over the update rows `e` whose scatter index
    `idx[e, 0]`, read signed and not clamped, is `r`. -/
theorem rowScatterAdd_apply {φ : FTy} (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ) (r : Fin N) (q : Fin C) :
    Host.scatterAdd (F := Ideal) d x idx upd (ix2 r q)
      = x (ix2 r q) + ∑ e ∈ Finset.univ.filter (fun e : Fin n => (idx (ixP e)).toInt = (r.val : ℤ)), upd (ix2 e q) := by
  have key : ∀ j : (⟨2, ![n, C]⟩ : Shape).Idx,
      d.resultIdx? j idx = some (ix2 r q) ↔ (idx (ixP (j 0))).toInt = (r.val : ℤ) ∧ j 1 = q := by
    intro j
    obtain ⟨a, b, rfl⟩ : ∃ a b, j = ix2 a b := ⟨j 0, j 1, eq_ix2 j⟩
    exact rowScatter_resultIdx?_eq_some_iff d huw hiw hsd hivd idx a b (ix2 r q)
  have hback : ∀ j : (⟨2, ![n, C]⟩ : Shape).Idx, j 1 = q → ix2 (j 0) q = j := fun j hq => by
    funext a
    match a with
    | ⟨0, _⟩ => rfl
    | ⟨1, _⟩ => exact hq.symm
  simp only [Host.scatterAdd, Ideal.hostScatterAdd_def, Ideal.hostScatterAdd]
  congr 1
  refine Finset.sum_bij' (fun j _ => j 0) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    exact hback j ((key j).1 (Finset.mem_filter.1 hj).2).2
  · intro e _
    rfl
  · intro j hj
    exact congrArg upd (hback j ((key j).1 (Finset.mem_filter.1 hj).2).2).symm

end RowScatter

/-! ## The scatter into a rank-1 operand -/

section VecScatter
variable {N n w : Nat} (d : ScatterDims ⟨1, ![N]⟩ ⟨2, ![n, 1]⟩ ⟨1, ![n]⟩)

/-- On the operand's one axis the window of update element `e` starts at the scatter index `idx[e, 0]`, read signed and
    not clamped. -/
theorem vecScatter_start (hsd : d.scatterDimsToOperandDims = [0]) (hivd : d.indexVectorDim = 1)
    (idx : IVec ⟨2, ![n, 1]⟩ w) (e : Fin n) : d.start (ix1 e) idx 0 = (idx (ixP e)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have key : ∀ X : Fin 1, ((ix1 e : (⟨1, ![n]⟩ : Shape).Idx) X).val = e.val := fun X => by
      have hX : X = 0 := Subsingleton.elim _ _
      subst hX; rfl
    exact key _
  | ⟨1, _⟩ =>
    unfold ScatterDims.siIdx
    rw [dif_pos (by rw [hivd])]
    apply Fin.ext
    show List.idxOf (0 : Fin 1) d.scatterDimsToOperandDims = 0
    rw [hsd]; simp

/-- The operand's one axis is inserted: the window coordinate on it is 0. -/
theorem vecScatter_window (hiw : d.insertedWindowDims = [0]) (j : (⟨1, ![n]⟩ : Shape).Idx) : d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- WHERE AN UPDATE LANDS, RANK 1. A `stablehlo.scatter` into a rank-1 operand `[N]` of `[n]` updates at an `[n × 1]`
    column of scatter indices, the operand's axis inserted and scatter-indexed, no window axes, the index vector on
    axis 1: update element `e` lands on operand element `i` exactly when its scatter index `idx[e, 0]`, read SIGNED and
    NOT clamped, is `i`'s position. An index outside `[0, N)` lands nowhere. -/
theorem vecScatter_resultIdx?_eq_some_iff (_huw : d.updateWindowDims = []) (hiw : d.insertedWindowDims = [0])
    (hsd : d.scatterDimsToOperandDims = [0]) (hivd : d.indexVectorDim = 1) (idx : IVec ⟨2, ![n, 1]⟩ w)
    (e : Fin n) (i : (⟨1, ![N]⟩ : Shape).Idx) :
    d.resultIdx? (ix1 e) idx = some i ↔ (idx (ixP e)).toInt = ((i 0).val : ℤ) := by
  have h0 : d.start (ix1 e) idx 0 + d.window (ix1 e) 0 = (idx (ixP e)).toInt := by
    rw [vecScatter_start d hsd hivd, vecScatter_window d hiw]; simp
  unfold ScatterDims.resultIdx?
  split
  · next h =>
    rw [Option.some.injEq]
    constructor
    · intro hi
      have e0 : (d.start (ix1 e) idx 0 + d.window (ix1 e) 0).toNat = (i 0).val := congrArg Fin.val (congrFun hi 0)
      have p0 := (h 0).1
      rw [h0] at e0 p0
      omega
    · intro hi0
      funext a
      apply Fin.ext
      match a with
      | ⟨0, _⟩ =>
        show (d.start (ix1 e) idx 0 + d.window (ix1 e) 0).toNat = (i 0).val
        rw [h0, hi0]; simp
  · next h =>
    constructor
    · intro hi; exact absurd hi (by simp)
    · intro hi0
      exfalso
      apply h
      intro a
      match a with
      | ⟨0, _⟩ =>
        show 0 ≤ d.start (ix1 e) idx 0 + d.window (ix1 e) 0 ∧ d.start (ix1 e) idx 0 + d.window (ix1 e) 0 < (N : ℤ)
        rw [h0, hi0]
        exact ⟨by positivity, by exact_mod_cast (i 0).isLt⟩

/-- THE ACCUMULATING SCATTER INTO A RANK-1 OPERAND AT THE IDEAL INSTANCE. With those dimension numbers, element `r` of
    `x.at[idx].add(upd)` is `x[r]` plus the exact sum of `upd[e]` over the update positions `e` whose scatter index
    `idx[e, 0]`, read signed and not clamped, is `r`. -/
theorem vecScatterAdd_apply {φ : FTy} (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (r : Fin N) :
    Host.scatterAdd (F := Ideal) d x idx upd (ix1 r)
      = x (ix1 r) + ∑ e ∈ Finset.univ.filter (fun e : Fin n => (idx (ixP e)).toInt = (r.val : ℤ)), upd (ix1 e) := by
  have key : ∀ j : (⟨1, ![n]⟩ : Shape).Idx,
      d.resultIdx? j idx = some (ix1 r) ↔ (idx (ixP (j 0))).toInt = (r.val : ℤ) := by
    intro j
    obtain ⟨a, rfl⟩ : ∃ a, j = ix1 a := ⟨j 0, eq_ix1 j⟩
    exact vecScatter_resultIdx?_eq_some_iff d huw hiw hsd hivd idx a (ix1 r)
  simp only [Host.scatterAdd, Ideal.hostScatterAdd_def, Ideal.hostScatterAdd]
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key _).2 (Finset.mem_filter.1 he).2⟩
  · intro j _
    exact (eq_ix1 j).symm
  · intro e _
    rfl
  · intro j _
    exact congrArg upd (eq_ix1 j)

end VecScatter

/-! ## A start-index column: the vector it is broadcast from, and jnp's index normalisation -/

/-- The rank-1 index built from a coordinate is the library's `Shape.Idx.ofFin` of it (the form `gather_take` and the
    broadcast lemmas are stated with). -/
theorem ix1_eq_ofFin {n : Nat} (e : Fin n) : ix1 e = Shape.Idx.ofFin e := by
  funext a
  have ha : a = 0 := Subsingleton.elim _ _
  subst ha
  exact Fin.ext rfl

/-- A vector kept as an `[n × 1]` column reads, at row `e`, the vector at `e`. -/
theorem bcast_col1_ix1 {α : Type} {n : Nat} (h₁ : (⟨1, ![n]⟩ : Shape).BroadcastsInDim ⟨2, ![n, 1]⟩ ![0])
    (v : (⟨1, ![n]⟩ : Shape).Idx → α) (e : Fin n) :
    broadcastInDim ⟨2, ![n, 1]⟩ ![0] h₁ v (ixP e) = v (ix1 e) := by
  rw [ix1_eq_ofFin]
  exact bcast_col1 h₁ v e

/-- jnp's index normalisation `where(v < 0, v + c, v)` read at one element: the select of the elements. The comparand and
    the addend are any vectors (in a program, broadcast scalar constants, which read their word everywhere). -/
theorem normIndex_apply {s : Shape} (V Z A : IVec s 32) (i : s.Idx) :
    select (cmpi .slt V Z) (addi V A) V i = Scalar.select (IntOp.cmpi .slt (V i) (Z i)) (IntOp.addi (V i) (A i)) (V i) := rfl

/-- A broadcast scalar constant reads its word at every index. -/
theorem bcast_constantI_apply {s₀ t : Shape} (dims : Fin s₀.rank → Fin t.rank) (h : s₀.BroadcastsInDim t dims)
    (b : BitVec 32) (j : t.Idx) : broadcastInDim t dims h (constantI s₀ 32 b) j = b := rfl

/-- A word whose signed value is a natural number is not below zero: the signed comparison with the zero word is the
    bit 0. -/
theorem cmpi_slt_zero_of_toInt_eq_natCast {v : BitVec 32} {r : Nat} (hv : v.toInt = (r : ℤ)) :
    IntOp.cmpi .slt v 0#32 = 0#1 := by
  have h0 : (0#32 : BitVec 32).toInt = 0 := by decide
  have hlt : v.slt 0#32 = false := by
    simp only [BitVec.slt, hv, h0, decide_eq_false_iff_not]; omega
  show BitVec.ofBool (v.slt 0#32) = 0#1
  rw [hlt]; rfl

/-- AN INDEX ALREADY IN RANGE IS NEITHER WRAPPED NOR CLAMPED. For a 32-bit index word `v` whose signed value is `r` with
    `r < N`: jnp's normalisation `select (v < 0) (v + c) v` (whatever the addend `c`; a program's is the extent) followed
    by the gather's signed read and clamp into `[0, N − 1]` gives `r`. -/
theorem normIndex_clamp_of_inRange (v c : BitVec 32) {N r : Nat} (hr : r < N) (hv : v.toInt = (r : ℤ)) :
    min (Scalar.select (IntOp.cmpi .slt v 0#32) (IntOp.addi v c) v).toInt.toNat (N - 1) = r := by
  rw [cmpi_slt_zero_of_toInt_eq_natCast hv, select_zero, hv]
  simp only [Int.toNat_natCast]
  omega

/-- The same at row `e` of the start-index column a gather reads: the column is the normalised index vector kept as
    `[n × 1]`; when the comparand reads the zero word at `e` and the index at `e` has signed value `r < N`, the start index
    read signed and clamped into `[0, N − 1]` is `r`. -/
theorem normIndexCol_clamp_of_inRange {n N r : Nat} (h₁ : (⟨1, ![n]⟩ : Shape).BroadcastsInDim ⟨2, ![n, 1]⟩ ![0])
    (V Z A : IVec ⟨1, ![n]⟩ 32) (e : Fin n) (hZ : Z (ix1 e) = 0#32) (hr : r < N) (hv : (V (ix1 e)).toInt = (r : ℤ)) :
    min (broadcastInDim ⟨2, ![n, 1]⟩ ![0] h₁ (select (cmpi .slt V Z) (addi V A) V) (ixP e)).toInt.toNat (N - 1) = r := by
  rw [bcast_col1_ix1, normIndex_apply, hZ]
  exact normIndex_clamp_of_inRange _ _ hr hv

end Cert.LibGatherScatter
-- ==== Proof.RefHead.lean ====
/-
  The reference program's head, read back as the specification's: the segment ids as a count of segment ends, the
  scatter-add of the rows as the segment sums, the division by the clamped segment length as the segment means, then the
  two dense layers and the logistic function.
-/
import proofs.«151924_g39341900431964_cont_8to1_b_836_11_alg».proof.Proof.Gen.ReferenceIdeal.Read
import proofs.«151924_g39341900431964_cont_8to1_b_836_11_alg».proof.Proof.Spec
import proofs.«151924_g39341900431964_cont_8to1_b_836_11_alg».proof.Proof.Segments
import proofs.«151924_g39341900431964_cont_8to1_b_836_11_alg».proof.Proof.LibGatherScatter
import Idealize.ShloMosaic.PureOps.Ideal.Laws
import Idealize.ShloMosaic.Lib.ValueIdx
import Idealize.ShloMosaic.Lib.StableHlo.Predicate
import Idealize.ShloMosaic.Lib.IdealHost

noncomputable section

open scoped BigOperators

namespace Cert.RefBridge

open Idealize.ShloMosaic Idealize.ShloMosaic.ValueIdx Idealize.ShloMosaic.StableHlo.Predicate
open Cert.ReferenceIdeal Cert.ReferenceIdeal.Gen Cert.ReferenceIdeal.Read

/-! ## The segment ids: a count of segment ends -/

/-- The two spellings of a rank-2 index from its coordinates agree. -/
theorem ij_eq_ix2 {n m : Nat} (p : Fin n) (q : Fin m) : ij p q = ix2 p q := by
  funext a
  match a with
  | ⟨0, _⟩ => rfl
  | ⟨1, _⟩ => rfl

/-- The comparison bit at row r, column q: "r ≥ the end of segment q", both read signed. -/
theorem v21_at (x1 : Cert.Spec.Offsets) (r : Fin 16384) (q : Fin 16) :
    val_main_v21 (F := Ideal) x1 (ix2 r q) = IntOp.cmpi .sge (BitVec.ofNat 32 r.val) (x1 (ix1 q.succ)) := by
  rw [val_main_v21_apply, val_main_v19_apply, val_main_v16_apply, val_main_v15_apply, val_main_v20_apply,
    val_main_v18_apply, val_main_v17_apply]
  have e : idx_main_v17 (idx_main_v18 (idx_main_v20 (ix2 r q))) = ix1 q.succ := by
    funext a
    match a with
    | ⟨0, _⟩ => exact Fin.ext (by show 1 + q.val = q.val + 1; omega)
  rw [e]

/-- The id of row r, as a natural number: the number of segment ends that are ≤ r. -/
theorem ids_toNat (x1 : Cert.Spec.Offsets) (r : Fin 16384) :
    (val_main_v23 (F := Ideal) x1 (ix1 r)).toNat
      = (Finset.univ.filter (fun q : Fin 16 => (x1 (ix1 q.succ)).toInt ≤ (r.val : ℤ))).card := by
  unfold val_main_v23 val_main_v22 val_main_c
  refine (toNat_reduce_count_cols (by decide) (val_main_v21 (F := Ideal) x1) natLt_1_32
    reducesTo_S16384x16_S16384_d1 h_S_ (ix1 r)).trans ?_
  refine congrArg Finset.card (Finset.filter_congr fun q _ => ?_)
  rw [ij_eq_ix2]
  show val_main_v21 (F := Ideal) x1 (ix2 r q) = 1#1 ↔ _
  rw [v21_at, IntOp.cmpi_sge, toInt_ofNat_small r.val (by have := r.isLt; omega)]

/-- The same count read as a signed word: at most sixteen, so the sign bit is clear. -/
theorem ids_toInt (x1 : Cert.Spec.Offsets) (r : Fin 16384) :
    (val_main_v23 (F := Ideal) x1 (ix1 r)).toInt
      = ((Finset.univ.filter (fun q : Fin 16 => (x1 (ix1 q.succ)).toInt ≤ (r.val : ℤ))).card : ℤ) := by
  have h := ids_toNat x1 r
  have hle : (Finset.univ.filter (fun q : Fin 16 => (x1 (ix1 q.succ)).toInt ≤ (r.val : ℤ))).card ≤ 16 :=
    Cert.Segments.card_le_le (fun t => (x1 (ix1 t)).toInt) r.val
  rw [toInt_eq_toNat_of_lt (by rw [h]; omega), h]

/-- The scatter index of row e is its id. -/
theorem v25_at (x1 : Cert.Spec.Offsets) (e : Fin 16384) :
    val_main_v25 (F := Ideal) x1 (ixP e) = val_main_v23 (F := Ideal) x1 (ix1 e) := by
  rw [val_main_v25_apply]
  congr 1
  funext a
  match a with
  | ⟨0, _⟩ => rfl

/-- For nondecreasing offsets that start at 0, row e has id s exactly when it lies in segment s. -/
theorem ids_eq_iff (x1 : Cert.Spec.Offsets)
    (hs : ∀ s : Fin 16, (x1 (ix1 s.castSucc)).toInt ≤ (x1 (ix1 s.succ)).toInt) (h0 : x1 (ix1 (0 : Fin 17)) = 0#32)
    (e : Fin 16384) (s : Fin 16) :
    (val_main_v25 (F := Ideal) x1 (ixP e)).toInt = (s.val : ℤ) ↔ Cert.Spec.inSeg x1 s e := by
  rw [v25_at, ids_toInt]
  exact Cert.Segments.card_le_eq_iff' (fun t => (x1 (ix1 t)).toInt) hs
    (by show (x1 (ix1 (0 : Fin 17))).toInt = 0; rw [h0]; rfl) e.val s

/-! ## The segment sums: the scatter-add from zero -/

/-- The scatter's operand is zero everywhere. -/
theorem v24_at (i : S16x256.Idx) : val_main_v24 (F := Ideal) i = 0 := by
  rw [val_main_v24_apply, val_main_cst_apply, Ideal.ofBits_def, Ideal.ofBits_zero_f32]

/-- The scatter-add of the rows at their ids is, at (s, j), the sum of column j over the rows of segment s. -/
theorem v26_at (x0 : Cert.Spec.Mat 16384 3) (x1 : Cert.Spec.Offsets) (x2 : Cert.Spec.Mat 3 64) (x3 : Cert.Spec.Vect 64) (x4 : Cert.Spec.Mat 64 128) (x5 : Cert.Spec.Vect 128) (x6 : Cert.Spec.Mat 128 256) (x7 : Cert.Spec.Vect 256)
    (hs : ∀ s : Fin 16, (x1 (ix1 s.castSucc)).toInt ≤ (x1 (ix1 s.succ)).toInt) (h0 : x1 (ix1 (0 : Fin 17)) = 0#32)
    (s : Fin 16) (j : Fin 256) :
    val_main_v26 (F := Ideal) x0 x1 x2 x3 x4 x5 x6 x7 (ix2 s j)
      = Cert.Spec.segSumAt x1 (val_main_v14 (F := Ideal) x0 x2 x3 x4 x5 x6 x7) s j := by
  unfold val_main_v26
  generalize val_main_v14 (F := Ideal) x0 x2 x3 x4 x5 x6 x7 = H
  refine (Cert.LibGatherScatter.rowScatterAdd_apply scatter_S16x256_S16384x1_S16384x256_1_0_0_1 rfl rfl rfl rfl
    (val_main_v24 (F := Ideal)) (val_main_v25 (F := Ideal) x1) H s j).trans ?_
  rw [v24_at, zero_add]
  unfold Cert.Spec.segSumAt
  exact Finset.sum_congr (Finset.filter_congr fun e _ => ids_eq_iff x1 hs h0 e s) fun _ _ => rfl

/-! ## The segment means: the division by the clamped segment length -/

/-- The divisor at (s, j): the signed 32-bit length of segment s as a real, but at least one. -/
theorem v34_at (x1 : Cert.Spec.Offsets) (s : Fin 16) (j : Fin 256) :
    val_main_v34 (F := Ideal) x1 (ix2 s j) = ((Cert.Spec.cnt x1 s : ℝ) : EReal) := by
  rw [val_main_v34_apply, val_main_v33_apply, val_main_v32_apply, val_main_v31_apply, val_main_cst_0_apply,
    val_main_v30_apply, val_main_v29_apply, val_main_v27_apply, val_main_v28_apply]
  have e1 : idx_main_v27 (idx_main_v33 (idx_main_v34 (ix2 s j))) = ix1 s.succ := by
    funext a
    match a with
    | ⟨0, _⟩ => exact Fin.ext (by show 1 + s.val = s.val + 1; omega)
  have e2 : idx_main_v28 (idx_main_v33 (idx_main_v34 (ix2 s j))) = ix1 s.castSucc := by
    funext a
    match a with
    | ⟨0, _⟩ => rfl
  rw [e1, e2, Ideal.maximumf_def, Ideal.ofBits_def, Ideal.ofBits_one_f32]
  exact (EReal.coe_strictMono.monotone.map_max (a := ((IntOp.subi (x1 (ix1 s.succ)) (x1 (ix1 s.castSucc))).toInt : ℝ)) (b := 1)).symm

/-- The quotient of the segment sums by the clamped lengths is the specification's segment means. -/
theorem v35_eq (x0 : Cert.Spec.Mat 16384 3) (x1 : Cert.Spec.Offsets) (x2 : Cert.Spec.Mat 3 64) (x3 : Cert.Spec.Vect 64) (x4 : Cert.Spec.Mat 64 128) (x5 : Cert.Spec.Vect 128) (x6 : Cert.Spec.Mat 128 256) (x7 : Cert.Spec.Vect 256)
    (hs : ∀ s : Fin 16, (x1 (ix1 s.castSucc)).toInt ≤ (x1 (ix1 s.succ)).toInt) (h0 : x1 (ix1 (0 : Fin 17)) = 0#32) :
    val_main_v35 (F := Ideal) x0 x1 x2 x3 x4 x5 x6 x7
      = Cert.Spec.pooled x1 (val_main_v14 (F := Ideal) x0 x2 x3 x4 x5 x6 x7) := by
  funext i
  obtain ⟨s, j, rfl⟩ : ∃ s j, i = ix2 s j := ⟨i 0, i 1, eq_ix2 i⟩
  rw [val_main_v35_apply, v26_at x0 x1 x2 x3 x4 x5 x6 x7 hs h0, v34_at, Ideal.hostDivf_def,
    Ideal.div_coe (Cert.Spec.cnt_ne_zero x1 s)]
  rfl

/-! ## The two dense layers on the pooled rows -/

/-- The layer 256 → 512 with ReLU on the segment means. -/
theorem v40_eq (x0 : Cert.Spec.Mat 16384 3) (x1 : Cert.Spec.Offsets) (x2 : Cert.Spec.Mat 3 64) (x3 : Cert.Spec.Vect 64) (x4 : Cert.Spec.Mat 64 128) (x5 : Cert.Spec.Vect 128) (x6 : Cert.Spec.Mat 128 256) (x7 : Cert.Spec.Vect 256) (x8 : Cert.Spec.Mat 256 512) (x9 : Cert.Spec.Vect 512)
    (hs : ∀ s : Fin 16, (x1 (ix1 s.castSucc)).toInt ≤ (x1 (ix1 s.succ)).toInt) (h0 : x1 (ix1 (0 : Fin 17)) = 0#32) :
    val_main_v40 (F := Ideal) x0 x1 x2 x3 x4 x5 x6 x7 x8 x9
      = Cert.Spec.denseRelu (Cert.Spec.pooled x1 (val_main_v14 (F := Ideal) x0 x2 x3 x4 x5 x6 x7)) x8 x9 := by
  funext i
  obtain ⟨s, k, rfl⟩ : ∃ s k, i = ix2 s k := ⟨i 0, i 1, eq_ix2 i⟩
  rw [val_main_v40_apply, val_main_v39_apply, val_main_v36_apply, v35_eq x0 x1 x2 x3 x4 x5 x6 x7 hs h0,
    val_main_v38_apply, val_main_v37_apply, val_main_call3_v0_apply, val_main_call3_cst_apply]
  have el : ∀ q : Fin 256, lidx_main_v36 (ix2 s k) q = ix2 s q := fun q => funext fun a => by
    match a with
    | ⟨0, _⟩ => rfl
    | ⟨1, _⟩ => rfl
  have er : ∀ q : Fin 256, ridx_main_v36 (ix2 s k) q = ix2 q k := fun q => funext fun a => by
    match a with
    | ⟨0, _⟩ => rfl
    | ⟨1, _⟩ => rfl
  have eb : idx_main_v37 (idx_main_v38 (ix2 s k)) = ix1 k := funext fun a => by
    match a with
    | ⟨0, _⟩ => rfl
  simp only [el, er, eb, Ideal.maximumf_def, Ideal.addf_def, Ideal.ofBits_def, Ideal.ofBits_zero_f32]
  rfl

/-- The layer 512 → 2500 on top of it. -/
theorem v44_eq (x0 : Cert.Spec.Mat 16384 3) (x1 : Cert.Spec.Offsets) (x2 : Cert.Spec.Mat 3 64) (x3 : Cert.Spec.Vect 64) (x4 : Cert.Spec.Mat 64 128) (x5 : Cert.Spec.Vect 128) (x6 : Cert.Spec.Mat 128 256) (x7 : Cert.Spec.Vect 256) (x8 : Cert.Spec.Mat 256 512) (x9 : Cert.Spec.Vect 512) (x10 : Cert.Spec.Mat 512 2500) (x11 : Cert.Spec.Vect 2500)
    (hs : ∀ s : Fin 16, (x1 (ix1 s.castSucc)).toInt ≤ (x1 (ix1 s.succ)).toInt) (h0 : x1 (ix1 (0 : Fin 17)) = 0#32) :
    val_main_v44 (F := Ideal) x0 x1 x2 x3 x4 x5 x6 x7 x8 x9 x10 x11
      = Cert.Spec.affine (Cert.Spec.denseRelu (Cert.Spec.pooled x1 (val_main_v14 (F := Ideal) x0 x2 x3 x4 x5 x6 x7)) x8 x9) x10 x11 := by
  funext i
  obtain ⟨s, k, rfl⟩ : ∃ s k, i = ix2 s k := ⟨i 0, i 1, eq_ix2 i⟩
  rw [val_main_v44_apply, val_main_v41_apply, v40_eq x0 x1 x2 x3 x4 x5 x6 x7 x8 x9 hs h0,
    val_main_v43_apply, val_main_v42_apply]
  have el : ∀ q : Fin 512, lidx_main_v41 (ix2 s k) q = ix2 s q := fun q => funext fun a => by
    match a with
    | ⟨0, _⟩ => rfl
    | ⟨1, _⟩ => rfl
  have er : ∀ q : Fin 512, ridx_main_v41 (ix2 s k) q = ix2 q k := fun q => funext fun a => by
    match a with
    | ⟨0, _⟩ => rfl
    | ⟨1, _⟩ => rfl
  have eb : idx_main_v42 (idx_main_v43 (ix2 s k)) = ix1 k := funext fun a => by
    match a with
    | ⟨0, _⟩ => rfl
  simp only [el, er, eb, Ideal.addf_def]
  rfl

/-! ## The head -/

/-- The reference's last value is the specification's head on the per-row features: the sigmoid written out as
    1 / (1 + exp (−o)) is the logistic function of the second dense layer's output. -/
theorem ref_head (x0 : Cert.Spec.Mat 16384 3) (x1 : Cert.Spec.Offsets) (x2 : Cert.Spec.Mat 3 64) (x3 : Cert.Spec.Vect 64) (x4 : Cert.Spec.Mat 64 128) (x5 : Cert.Spec.Vect 128) (x6 : Cert.Spec.Mat 128 256) (x7 : Cert.Spec.Vect 256) (x8 : Cert.Spec.Mat 256 512) (x9 : Cert.Spec.Vect 512) (x10 : Cert.Spec.Mat 512 2500) (x11 : Cert.Spec.Vect 2500)
    (hs : ∀ s : Fin 16, (x1 (ix1 s.castSucc)).toInt ≤ (x1 (ix1 s.succ)).toInt) (h0 : x1 (ix1 (0 : Fin 17)) = 0#32) :
    Cert.ReferenceIdeal.Read.val_main_v50 (F := Ideal) x0 x1 x2 x3 x4 x5 x6 x7 x8 x9 x10 x11
      = Cert.Spec.head x1 (Cert.ReferenceIdeal.Read.val_main_v14 (F := Ideal) x0 x2 x3 x4 x5 x6 x7) x8 x9 x10 x11 := by
  funext i
  rw [val_main_v50_apply, val_main_v49_apply, val_main_cst_2_apply, val_main_v48_apply, val_main_v47_apply,
    val_main_cst_1_apply, val_main_v46_apply, val_main_v45_apply,
    v44_eq x0 x1 x2 x3 x4 x5 x6 x7 x8 x9 x10 x11 hs h0]
  simp only [Ideal.hostDivf_def, Ideal.addf_def, Ideal.hostUnary_exp_def, Ideal.hostNegf_def, Ideal.negf_def,
    Ideal.ofBits_def, Ideal.ofBits_one_f32]
  rfl

end Cert.RefBridge

end
-- ==== Proof.Bridge.lean ====
/-
  The two programs compute one function of the arguments.

  Kernel side: the block the kernel stores, `KV.kout` of the operands the host prepares from the arguments, is `Spec.G` of the
  arguments — the three layers with the bias folded into the product by a unit column (`layer1`, `layer2`, `layer3`), then
  the head over the row activations (`kernel_head`). Reference side: the reference's last stage is `Spec.G` of the arguments
  when the offsets are nondecreasing from zero — its rows (`ref_rows`), then its head (`ref_head`), where counting the
  segment ends at most a row number picks out the segment the row lies in.
-/
import proofs.«151924_g39341900431964_cont_8to1_b_836_11_alg».proof.Proof.KValue
import proofs.«151924_g39341900431964_cont_8to1_b_836_11_alg».proof.Proof.KHost
import proofs.«151924_g39341900431964_cont_8to1_b_836_11_alg».proof.Proof.KLayer1
import proofs.«151924_g39341900431964_cont_8to1_b_836_11_alg».proof.Proof.KLayers23
import proofs.«151924_g39341900431964_cont_8to1_b_836_11_alg».proof.Proof.KHead
import proofs.«151924_g39341900431964_cont_8to1_b_836_11_alg».proof.Proof.RefRows
import proofs.«151924_g39341900431964_cont_8to1_b_836_11_alg».proof.Proof.RefHead

noncomputable section

namespace Cert.Bridge

open Idealize.ShloMosaic Idealize.ShloMosaic.TcCoe Idealize.ShloMosaic.ValueIdx Idealize.SL.Sem
open Cert.KernelIdeal.KBridge Cert.RefBridge

/-- The kernel's third-layer activations are the specification's rows. -/
theorem kernel_rows (x0 : Cert.Spec.Mat 16384 3) (x2 : Cert.Spec.Mat 3 64) (x3 : Cert.Spec.Vect 64) (x4 : Cert.Spec.Mat 64 128) (x5 : Cert.Spec.Vect 128) (x6 : Cert.Spec.Mat 128 256) (x7 : Cert.Spec.Vect 256) :
    Cert.KernelIdeal.KV.act3 (F := Ideal) (Cert.KernelIdeal.KV.aug0 (F := Ideal) x0) (Cert.KernelIdeal.KV.augW1 (F := Ideal) x2 x3) (Cert.KernelIdeal.KV.augW2 (F := Ideal) x4 x5) (Cert.KernelIdeal.KV.augW3 (F := Ideal) x6 x7)
      = Cert.Spec.rows x0 x2 x3 x4 x5 x6 x7 := by
  unfold Cert.KernelIdeal.KV.act3 Cert.KernelIdeal.KV.act2 Cert.KernelIdeal.KV.act1 Cert.Spec.rows
  rw [Cert.KernelIdeal.KBridge.layer1, Cert.KernelIdeal.KBridge.layer2, Cert.KernelIdeal.KBridge.layer3]

/-- The block the kernel stores is the specification of the arguments. -/
theorem kout_eq_G (x0 : Cert.Spec.Mat 16384 3) (x1 : Cert.Spec.Offsets) (x2 : Cert.Spec.Mat 3 64) (x3 : Cert.Spec.Vect 64) (x4 : Cert.Spec.Mat 64 128) (x5 : Cert.Spec.Vect 128) (x6 : Cert.Spec.Mat 128 256) (x7 : Cert.Spec.Vect 256) (x8 : Cert.Spec.Mat 256 512) (x9 : Cert.Spec.Vect 512) (x10 : Cert.Spec.Mat 512 2500) (x11 : Cert.Spec.Vect 2500) :
    Cert.KernelIdeal.KV.kout (F := Ideal) (Cert.KernelIdeal.KV.lower x1) (Cert.KernelIdeal.KV.upper x1) (Cert.KernelIdeal.KV.invCount (F := Ideal) x1)
      (Cert.KernelIdeal.KV.aug0 (F := Ideal) x0) (Cert.KernelIdeal.KV.augW1 (F := Ideal) x2 x3) (Cert.KernelIdeal.KV.augW2 (F := Ideal) x4 x5) (Cert.KernelIdeal.KV.augW3 (F := Ideal) x6 x7)
      (Cert.KernelIdeal.KV.w4 (F := Ideal) x8) (Cert.KernelIdeal.KV.bias4 (F := Ideal) x9) (Cert.KernelIdeal.KV.w5 (F := Ideal) x10) (Cert.KernelIdeal.KV.bias5 (F := Ideal) x11)
      = Cert.Spec.G x0 x1 x2 x3 x4 x5 x6 x7 x8 x9 x10 x11 := by
  unfold Cert.KernelIdeal.KV.kout Cert.Spec.G
  rw [kernel_rows]
  exact kernel_head x1 _ x8 x9 x10 x11

/-- The result array the idealized kernel leaves is the specification of the launch arguments. -/
theorem Kfun_eq_G (m : (ℓ : Loc Cert.KernelIdeal.nD Cert.KernelIdeal.τ Cert.KernelIdeal.sig) → Buf (Elt Ideal) ℓ) (c : Dev Cert.KernelIdeal.nD) :
    Cert.KernelIdeal.KF.Kfun (F := Ideal) m c = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  unfold Cert.KernelIdeal.KF.Kfun
  rw [Cert.KernelIdeal.KF.V_main_v17, Cert.KernelIdeal.KF.V_main_v19, Cert.KernelIdeal.KF.V_main_v25, Cert.KernelIdeal.KF.V_main_v3, Cert.KernelIdeal.KF.V_main_v7,
    Cert.KernelIdeal.KF.V_main_v11, Cert.KernelIdeal.KF.V_main_v15, Cert.KernelIdeal.KF.V_main_v26, Cert.KernelIdeal.KF.V_main_v27, Cert.KernelIdeal.KF.V_main_v28, Cert.KernelIdeal.KF.V_main_v29]
  exact kout_eq_G _ _ _ _ _ _ _ _ _ _ _ _

/-- The reference's last stage is the specification of the arguments, the offsets nondecreasing from zero. -/
theorem ref_eq_G (x0 : Cert.Spec.Mat 16384 3) (x1 : Cert.Spec.Offsets) (x2 : Cert.Spec.Mat 3 64) (x3 : Cert.Spec.Vect 64) (x4 : Cert.Spec.Mat 64 128) (x5 : Cert.Spec.Vect 128) (x6 : Cert.Spec.Mat 128 256) (x7 : Cert.Spec.Vect 256) (x8 : Cert.Spec.Mat 256 512) (x9 : Cert.Spec.Vect 512) (x10 : Cert.Spec.Mat 512 2500) (x11 : Cert.Spec.Vect 2500)
    (hs : ∀ s : Fin 16, (x1 (ix1 s.castSucc)).toInt ≤ (x1 (ix1 s.succ)).toInt) (h0 : x1 (ix1 (0 : Fin 17)) = 0#32) :
    Cert.ReferenceIdeal.Read.val_main_v50 (F := Ideal) x0 x1 x2 x3 x4 x5 x6 x7 x8 x9 x10 x11 = Cert.Spec.G x0 x1 x2 x3 x4 x5 x6 x7 x8 x9 x10 x11 := by
  rw [ref_head x0 x1 x2 x3 x4 x5 x6 x7 x8 x9 x10 x11 hs h0, ref_rows]
  rfl

end Cert.Bridge

end
-- ==== Proof.PreDecode.lean ====
/-
  The integer conjuncts of the printed precondition, read back.  The predicate is a conjunction of one-bit scalars whose
  value is the all-ones scalar, so each conjunct is 1.  Two of them speak of the 17-word table: the and-reduction of the
  sixteen signed comparisons "word s+1 ≥ word s" (the table is nondecreasing), and the comparison "word 0 = 0".
-/
import proofs.«151924_g39341900431964_cont_8to1_b_836_11_alg».proof.Pre_finite_inputs
import proofs.«151924_g39341900431964_cont_8to1_b_836_11_alg».proof.Proof.Gen.Pre_finite_inputs
import Idealize.ShloMosaic.Lib.StableHlo.Predicate
import Idealize.ShloMosaic.Lib.ReduceAll
import Idealize.ShloMosaic.Lib.ValueIdx

noncomputable section

namespace Cert.PreDecode

open Idealize.ShloMosaic Idealize.ShloMosaic.ValueIdx
open Cert.Pre_finite_inputs

variable [Cert.Pre_finite_inputs.Facts]

/-- The scalar shape has one index. -/
instance : Subsingleton S_.Idx := ⟨fun a b => funext fun d => d.elim0⟩

/-- The slice [1:17] of the table reads, at position s, the table's word s+1. -/
theorem slice_succ (x1 : IVec S17 32) (h : S17.Slices ![1] S16) (s : Fin 16) :
    extractStridedSlice S16 ![1] x1 h (ix1 s) = x1 (ix1 s.succ) := by
  unfold extractStridedSlice
  congr 1
  funext a
  match a with
  | ⟨0, _⟩ => exact Fin.ext (by show 1 + s.val = s.val + 1; omega)

/-- The slice [0:16] of the table reads, at position s, the table's word s. -/
theorem slice_castSucc (x1 : IVec S17 32) (h : S17.Slices ![0] S16) (s : Fin 16) :
    extractStridedSlice S16 ![0] x1 h (ix1 s) = x1 (ix1 s.castSucc) := by
  unfold extractStridedSlice
  congr 1
  funext a
  match a with
  | ⟨0, _⟩ => exact Fin.ext (by show 0 + s.val = s.val; omega)

/-- The slice [0:1] of the table, recast as a scalar, is the table's word 0. -/
theorem head_scalar (x1 : IVec S17 32) (h : S17.Slices ![0] S1) (hc : S1.ShapeCasts S_) :
    shapeCast S_ (extractStridedSlice S1 ![0] x1 h) hc ix0 = x1 (ix1 (0 : Fin 17)) := by
  unfold shapeCast extractStridedSlice
  congr 1
  funext a
  match a with
  | ⟨0, _⟩ =>
    have hlt : ((Shape.reshapeEquiv hc ix0) ⟨0, by decide⟩).val < 1 := Fin.isLt _
    exact Fin.ext (by show 0 + ((Shape.reshapeEquiv hc ix0) ⟨0, _⟩).val = 0; omega)

/-- The last part of the printed chain: its value is the conjunction of the float conjuncts so far, the and-reduction of the
    sixteen comparisons, and the comparison of word 0 with 0.  If it is 1, the table is nondecreasing and starts at 0. -/
theorem part3_decode {F : FTy → Type} [FloatOps F] (x1 : IVec S17 32) (v48 : IVec S_ 1) (v49 v50 : FVec F S2500 .f32)
    (h : fn_part3 (F := F) x1 v48 v49 v50 ix0 = 1#1) :
    (∀ s : Fin 16, (x1 (ix1 s.castSucc)).toInt ≤ (x1 (ix1 s.succ)).toInt) ∧ x1 (ix1 (0 : Fin 17)) = 0#32 := by
  -- the outer two conjunctions, split from the outside; the float conjuncts stay folded
  obtain ⟨h58, h61⟩ := IntOp.andi_eq_one.1 h
  obtain ⟨-, h57⟩ := IntOp.andi_eq_one.1 h58
  refine ⟨fun s => ?_, ?_⟩
  · -- each of the sixteen comparison bits is 1
    have hs := Host.reduce_andi_all _ _ _ _ ix0 h57 (ix1 s)
    have hle := IntOp.cmpi_sge.1 hs
    beta_reduce at hle
    rwa [slice_succ, slice_castSucc] at hle
  · -- the equality bit is 1
    have he := IntOp.cmpi_eq.1 h61
    beta_reduce at he
    rw [head_scalar] at he
    exact he

/-- The printed precondition holds only if the table is nondecreasing (as signed words) and its word 0 is 0. -/
theorem sorted_of_pre {F : FTy → Type} [FloatOps F] (x0 : FVec F Cert.Pre_finite_inputs.S16384x3 .f32) (x1 : IVec Cert.Pre_finite_inputs.S17 32) (x2 : FVec F Cert.Pre_finite_inputs.S3x64 .f32) (x3 : FVec F Cert.Pre_finite_inputs.S64 .f32) (x4 : FVec F Cert.Pre_finite_inputs.S64x128 .f32) (x5 : FVec F Cert.Pre_finite_inputs.S128 .f32) (x6 : FVec F Cert.Pre_finite_inputs.S128x256 .f32) (x7 : FVec F Cert.Pre_finite_inputs.S256 .f32) (x8 : FVec F Cert.Pre_finite_inputs.S256x512 .f32) (x9 : FVec F Cert.Pre_finite_inputs.S512 .f32) (x10 : FVec F Cert.Pre_finite_inputs.S512x2500 .f32) (x11 : FVec F Cert.Pre_finite_inputs.S2500 .f32)
    (h : Cert.Pre_finite_inputs.fn (F := F) x0 x1 x2 x3 x4 x5 x6 x7 x8 x9 x10 x11 = fun _ => 1#1) :
    (∀ s : Fin 16, (x1 (ix1 s.castSucc)).toInt ≤ (x1 (ix1 s.succ)).toInt) ∧ x1 (ix1 (0 : Fin 17)) = 0#32 := by
  have h0 := congrFun h ix0
  -- the printed function is its three parts in a chain
  unfold Cert.Pre_finite_inputs.fn Cert.Pre_finite_inputs.fn_part1 Cert.Pre_finite_inputs.fn_part2 at h0
  exact part3_decode x1 _ _ _ h0

end Cert.PreDecode

end
-- ==== Proof.lean ====
/-
  The certificate's claim: the printed kernel, its idealization and the idealized reference each run to the end without a
  fault and leave their arguments unchanged, and the idealized kernel and the idealized reference, run from memories that
  agree on the arguments, end with equal results over the extended reals.

  The statement's precondition asks, beside finite float inputs, that the cumulative offsets be nondecreasing and start
  at zero. Under it both programs compute `Spec.G` of the arguments: per-row layers 3 → 64 → 128 → 256 with ReLU, the mean
  of each of the sixteen contiguous segments the offsets cut, and a head 256 → 512 (ReLU) → 2500 under the logistic
  function. The kernel folds each bias into its matrix product through a unit column, sums a segment by a product with its
  0/1 membership matrix, and multiplies by one over the count where the reference divides by the count; the reference
  labels each row by counting the segment ends at most the row's number, which picks out the row's segment exactly when
  the offsets are nondecreasing from zero (`Bridge.lean`). The two kernel programs' frames are the run of the one region
  at its one grid point (`KFrame.lean`, `BFrame.lean`); the reference's is its run with the result dropped. The ideal pass
  rewrote nothing, so `preserves` asks nothing.
-/
import proofs.«151924_g39341900431964_cont_8to1_b_836_11_alg».proof.Defs
import proofs.«151924_g39341900431964_cont_8to1_b_836_11_alg».proof.Proof.Gen.Kernel
import proofs.«151924_g39341900431964_cont_8to1_b_836_11_alg».proof.Proof.Gen.KernelIdeal
import proofs.«151924_g39341900431964_cont_8to1_b_836_11_alg».proof.Proof.Gen.ReferenceIdeal
import proofs.«151924_g39341900431964_cont_8to1_b_836_11_alg».proof.Proof.Gen.Pre_finite_inputs
import proofs.«151924_g39341900431964_cont_8to1_b_836_11_alg».proof.Proof.Gen.ReferenceIdeal.Run
import proofs.«151924_g39341900431964_cont_8to1_b_836_11_alg».proof.Proof.Gen.ReferenceIdeal.Read
import proofs.«151924_g39341900431964_cont_8to1_b_836_11_alg».proof.Proof.BFrame
import proofs.«151924_g39341900431964_cont_8to1_b_836_11_alg».proof.Proof.Bridge
import proofs.«151924_g39341900431964_cont_8to1_b_836_11_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.KF.frame m ρ

theorem frame_ki : Cert.frame_KernelIdeal := fun m ρ _ => Cert.KernelIdeal.KF.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Spec.G` of the kernel's launch arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.Bridge.Kfun_eq_G m c), (h c).2⟩)
      (Cert.KernelIdeal.KF.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨hs, h0⟩ := Cert.PreDecode.sorted_of_pre _ _ _ _ _ _ _ _ _ _ _ _ (hpre c)
    obtain ⟨a0, a1, a2, a3, a4, a5, a6, a7, a8, a9, a10, a11⟩ := hagree c
    refine (Cert.ReferenceIdeal.Read.val_main_v50_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans ?_
    rw [a0, a1, a2, a3, a4, a5, a6, a7, a8, a9, a10, a11]
    exact Cert.Bridge.ref_eq_G _ _ _ _ _ _ _ _ _ _ _ _ hs h0

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
